-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000 : Shape := ⟨1, ![10000]⟩
abbrev S160000 : Shape := ⟨1, ![160000]⟩
abbrev S30000x1024 : Shape := ⟨2, ![30000, 1024]⟩
abbrev S1024x1024 : Shape := ⟨2, ![1024, 1024]⟩
abbrev S1024 : Shape := ⟨1, ![1024]⟩
abbrev S_ : Shape := ⟨0, ![]⟩

class Facts : Prop where
  bcast_S_S30000x1024 : S_.BroadcastsInDim S30000x1024 (![] : Fin 0 → Fin S30000x1024.rank)
  reducesTo_S30000x1024_S_d0_1 : S30000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S160000 : S_.BroadcastsInDim S160000 (![] : Fin 0 → Fin S160000.rank)
  reducesTo_S160000_S_d0 : S160000.ReducesTo [0] S_

variable [Facts]

def fn_part2 {F : FTy → Type} [FloatOps F] (main_arg1 : IVec S160000 32) (main_arg2 : IVec S160000 32) (main_v33 : IVec S_ 1) : IVec S_ 1 :=
  let main_c_12 : IVec S_ 32 := constantI S_ 32 0#32
  let main_v34 : IVec S160000 32 := broadcastInDim S160000 ![] bcast_S_S160000 main_c_12
  let main_v35 : IVec S160000 1 := cmpi .sge main_arg1 main_v34
  let main_c_13 : IVec S_ 32 := constantI S_ 32 10000#32
  let main_v36 : IVec S160000 32 := broadcastInDim S160000 ![] bcast_S_S160000 main_c_13
  let main_v37 : IVec S160000 1 := cmpi .slt main_arg1 main_v36
  let main_v38 : IVec S160000 1 := andi main_v35 main_v37
  let main_c_14 : IVec S_ 1 := constantI S_ 1 1#1
  let main_v39 : IVec S_ 1 := (fun x v => Host.reduce IntOp.andi x v reducesTo_S160000_S_d0 h_S_) main_v38 main_c_14
  let main_v40 : IVec S_ 1 := andi main_v33 main_v39
  let main_c_15 : IVec S_ 32 := constantI S_ 32 0#32
  let main_v41 : IVec S160000 32 := broadcastInDim S160000 ![] bcast_S_S160000 main_c_15
  let main_v42 : IVec S160000 1 := cmpi .sge main_arg2 main_v41
  let main_c_16 : IVec S_ 32 := constantI S_ 32 10000#32
  let main_v43 : IVec S160000 32 := broadcastInDim S160000 ![] bcast_S_S160000 main_c_16
  let main_v44 : IVec S160000 1 := cmpi .slt main_arg2 main_v43
  let main_v45 : IVec S160000 1 := andi main_v42 main_v44
  let main_c_17 : IVec S_ 1 := constantI S_ 1 1#1
  let main_v46 : IVec S_ 1 := (fun x v => Host.reduce IntOp.andi x v reducesTo_S160000_S_d0 h_S_) main_v45 main_c_17
  let main_v47 : IVec S_ 1 := andi main_v40 main_v46
  main_v47

def fn_part1 {F : FTy → Type} [FloatOps F] (main_arg1 : IVec S160000 32) (main_arg2 : IVec S160000 32) (main_arg7 : FVec F S1024x1024 .f32) (main_arg8 : FVec F S1024x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg7
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg8
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg9
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg2 main_v33

def fn {F : FTy → Type} [FloatOps F] (main_arg0 : IVec S10000 32) (main_arg1 : IVec S160000 32) (main_arg2 : IVec S160000 32) (main_arg3 : FVec F S30000x1024 .f32) (main_arg4 : FVec F S1024x1024 .f32) (main_arg5 : FVec F S1024x1024 .f32) (main_arg6 : FVec F S1024 .f32) (main_arg7 : FVec F S1024x1024 .f32) (main_arg8 : FVec F S1024x1024 .f32) (main_arg9 : FVec F S1024 .f32) : IVec S_ 1 :=
  let main_v0 : FVec F S30000x1024 .f32 := Host.absf main_arg3
  let main_cst : FVec F S_ .f32 := constant S_ .f32 0x7F800000#32
  let main_v1 : FVec F S30000x1024 .f32 := broadcastInDim S30000x1024 ![] bcast_S_S30000x1024 main_cst
  let main_v2 : IVec S30000x1024 1 := cmpf .olt main_v0 main_v1
  let main_c : IVec S_ 1 := constantI S_ 1 1#1
  let main_v3 : IVec S_ 1 := (fun x v => Host.reduce IntOp.andi x v reducesTo_S30000x1024_S_d0_1 h_S_) main_v2 main_c
  let main_v4 : FVec F S1024x1024 .f32 := Host.absf main_arg4
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg5
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg6
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg2 main_arg7 main_arg8 main_arg9 main_v13 main_v16
-- ==== Kernel.lean ====
abbrev S10000 : Shape := ⟨1, ![10000]⟩
abbrev S160000 : Shape := ⟨1, ![160000]⟩
abbrev S30000x1024 : Shape := ⟨2, ![30000, 1024]⟩
abbrev S1024x1024 : Shape := ⟨2, ![1024, 1024]⟩
abbrev S1024 : Shape := ⟨1, ![1024]⟩
abbrev S_ : Shape := ⟨0, ![]⟩
abbrev S10000x1 : Shape := ⟨2, ![10000, 1]⟩
abbrev S10000x1024 : Shape := ⟨2, ![10000, 1024]⟩
abbrev S10240 : Shape := ⟨1, ![10240]⟩
abbrev S160000x1 : Shape := ⟨2, ![160000, 1]⟩
abbrev S10240x10240 : Shape := ⟨2, ![10240, 10240]⟩
abbrev S160000x2 : Shape := ⟨2, ![160000, 2]⟩
abbrev S10240x1 : Shape := ⟨2, ![10240, 1]⟩
abbrev S10240x1024 : Shape := ⟨2, ![10240, 1024]⟩
abbrev S2048x1024 : Shape := ⟨2, ![2048, 1024]⟩
abbrev S1x1024 : Shape := ⟨2, ![1, 1024]⟩
abbrev S256x10240 : Shape := ⟨2, ![256, 10240]⟩
abbrev S256x1024 : Shape := ⟨2, ![256, 1024]⟩
abbrev S10240x2048 : Shape := ⟨2, ![10240, 2048]⟩
abbrev S512x2048 : Shape := ⟨2, ![512, 2048]⟩
abbrev S512x1024 : Shape := ⟨2, ![512, 1024]⟩

abbrev nBuf : Space → Nat
  | .hbm => 74
  | .vmem => 22
  | .smem => 0
  | _ => 0

abbrev bufTy : (tb : Table) → Fin (tcTables nBuf tb) → BufTy
  | .hbm, ⟨0, _⟩ => ⟨S10000, .i32⟩
  | .hbm, ⟨1, _⟩ => ⟨S160000, .i32⟩
  | .hbm, ⟨2, _⟩ => ⟨S160000, .i32⟩
  | .hbm, ⟨3, _⟩ => ⟨S30000x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S_, .i32⟩
  | .hbm, ⟨11, _⟩ => ⟨S10000, .i32⟩
  | .hbm, ⟨12, _⟩ => ⟨S10000, .i1⟩
  | .hbm, ⟨13, _⟩ => ⟨S_, .i32⟩
  | .hbm, ⟨14, _⟩ => ⟨S10000, .i32⟩
  | .hbm, ⟨15, _⟩ => ⟨S10000, .i32⟩
  | .hbm, ⟨16, _⟩ => ⟨S10000, .i32⟩
  | .hbm, ⟨17, _⟩ => ⟨S10000x1, .i32⟩
  | .hbm, ⟨18, _⟩ => ⟨S10000x1024, .f32⟩
  | .hbm, ⟨19, _⟩ => ⟨S_, .f32⟩
  | .hbm, ⟨20, _⟩ => ⟨S160000, .f32⟩
  | .hbm, ⟨21, _⟩ => ⟨S_, .f32⟩
  | .hbm, ⟨22, _⟩ => ⟨S10240, .f32⟩
  | .hbm, ⟨23, _⟩ => ⟨S160000x1, .i32⟩
  | .hbm, ⟨24, _⟩ => ⟨S10240, .f32⟩
  | .hbm, ⟨25, _⟩ => ⟨S_, .f32⟩
  | .hbm, ⟨26, _⟩ => ⟨S10240, .f32⟩
  | .hbm, ⟨27, _⟩ => ⟨S10240, .f32⟩
  | .hbm, ⟨28, _⟩ => ⟨S_, .f32⟩
  | .hbm, ⟨29, _⟩ => ⟨S10240, .f32⟩
  | .hbm, ⟨30, _⟩ => ⟨S10240, .f32⟩
  | .hbm, ⟨31, _⟩ => ⟨S_, .f32⟩
  | .hbm, ⟨32, _⟩ => ⟨S10240x10240, .f32⟩
  | .hbm, ⟨33, _⟩ => ⟨S_, .i32⟩
  | .hbm, ⟨34, _⟩ => ⟨S160000, .i32⟩
  | .hbm, ⟨35, _⟩ => ⟨S160000, .i1⟩
  | .hbm, ⟨36, _⟩ => ⟨S_, .i32⟩
  | .hbm, ⟨37, _⟩ => ⟨S160000, .i32⟩
  | .hbm, ⟨38, _⟩ => ⟨S160000, .i32⟩
  | .hbm, ⟨39, _⟩ => ⟨S160000, .i32⟩
  | .hbm, ⟨40, _⟩ => ⟨S_, .i32⟩
  | .hbm, ⟨41, _⟩ => ⟨S160000, .i32⟩
  | .hbm, ⟨42, _⟩ => ⟨S160000, .i1⟩
  | .hbm, ⟨43, _⟩ => ⟨S_, .i32⟩
  | .hbm, ⟨44, _⟩ => ⟨S160000, .i32⟩
  | .hbm, ⟨45, _⟩ => ⟨S160000, .i32⟩
  | .hbm, ⟨46, _⟩ => ⟨S160000, .i32⟩
  | .hbm, ⟨47, _⟩ => ⟨S160000x1, .i32⟩
  | .hbm, ⟨48, _⟩ => ⟨S160000x1, .i32⟩
  | .hbm, ⟨49, _⟩ => ⟨S160000x2, .i32⟩
  | .hbm, ⟨50, _⟩ => ⟨S_, .f32⟩
  | .hbm, ⟨51, _⟩ => ⟨S160000, .f32⟩
  | .hbm, ⟨52, _⟩ => ⟨S10240x10240, .f32⟩
  | .hbm, ⟨53, _⟩ => ⟨S10240x1, .f32⟩
  | .hbm, ⟨54, _⟩ => ⟨S10240x10240, .f32⟩
  | .hbm, ⟨55, _⟩ => ⟨S10240x10240, .f32⟩
  | .hbm, ⟨56, _⟩ => ⟨S10240x10240, .bf16⟩
  | .hbm, ⟨57, _⟩ => ⟨S_, .i32⟩
  | .hbm, ⟨58, _⟩ => ⟨S_, .f32⟩
  | .hbm, ⟨59, _⟩ => ⟨S10240x1024, .f32⟩
  | .hbm, ⟨60, _⟩ => ⟨S10240x1024, .bf16⟩
  | .hbm, ⟨61, _⟩ => ⟨S2048x1024, .f32⟩
  | .hbm, ⟨62, _⟩ => ⟨S2048x1024, .bf16⟩
  | .hbm, ⟨63, _⟩ => ⟨S2048x1024, .f32⟩
  | .hbm, ⟨64, _⟩ => ⟨S2048x1024, .bf16⟩
  | .hbm, ⟨65, _⟩ => ⟨S1x1024, .f32⟩
  | .hbm, ⟨66, _⟩ => ⟨S1x1024, .f32⟩
  | .hbm, ⟨67, _⟩ => ⟨S10240x1024, .bf16⟩
  | .hbm, ⟨68, _⟩ => ⟨S10240x2048, .bf16⟩
  | .hbm, ⟨69, _⟩ => ⟨S10240x1024, .bf16⟩
  | .hbm, ⟨70, _⟩ => ⟨S10240x1024, .bf16⟩
  | .hbm, ⟨71, _⟩ => ⟨S10240x2048, .bf16⟩
  | .hbm, ⟨72, _⟩ => ⟨S10240x1024, .f32⟩
  | .hbm, ⟨73, _⟩ => ⟨S10000x1024, .f32⟩
  | .local _ .vmem, ⟨0, _⟩ => ⟨S256x10240, .bf16⟩
  | .local _ .vmem, ⟨1, _⟩ => ⟨S256x10240, .bf16⟩
  | .local _ .vmem, ⟨2, _⟩ => ⟨S10240x1024, .bf16⟩
  | .local _ .vmem, ⟨3, _⟩ => ⟨S256x1024, .bf16⟩
  | .local _ .vmem, ⟨4, _⟩ => ⟨S256x1024, .bf16⟩
  | .local _ .vmem, ⟨5, _⟩ => ⟨S512x2048, .bf16⟩
  | .local _ .vmem, ⟨6, _⟩ => ⟨S512x2048, .bf16⟩
  | .local _ .vmem, ⟨7, _⟩ => ⟨S2048x1024, .bf16⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S256x10240, .bf16⟩
  | .local _ .vmem, ⟨12, _⟩ => ⟨S256x10240, .bf16⟩
  | .local _ .vmem, ⟨13, _⟩ => ⟨S10240x1024, .bf16⟩
  | .local _ .vmem, ⟨14, _⟩ => ⟨S256x1024, .bf16⟩
  | .local _ .vmem, ⟨15, _⟩ => ⟨S256x1024, .bf16⟩
  | .local _ .vmem, ⟨16, _⟩ => ⟨S512x2048, .bf16⟩
  | .local _ .vmem, ⟨17, _⟩ => ⟨S512x2048, .bf16⟩
  | .local _ .vmem, ⟨18, _⟩ => ⟨S2048x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_7 : Ref sig .tc := ⟨.hbm, 40, rfl⟩
abbrev main_v21 : Ref sig .tc := ⟨.hbm, 41, rfl⟩
abbrev main_v22 : Ref sig .tc := ⟨.hbm, 42, rfl⟩
abbrev main_c_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_call0_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10240 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x10240 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10240x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S_S160000 : S_.BroadcastsInDim S160000 (![] : Fin 0 → Fin S160000.rank)
  bcast_S_S10240 : S_.BroadcastsInDim S10240 (![] : Fin 0 → Fin S10240.rank)
  bcast_S160000_S160000x1_0 : S160000.BroadcastsInDim S160000x1 (![0] : Fin 1 → Fin S160000x1.rank)
  bcast_S_S10240x10240 : S_.BroadcastsInDim S10240x10240 (![] : Fin 0 → Fin S10240x10240.rank)
  concatenates_S160000x1_S160000x1_S160000x2_d1 : Shape.Concatenates [S160000x1, S160000x1] S160000x2 1
  bcast_S10240_S10240x1_0 : S10240.BroadcastsInDim S10240x1 (![0] : Fin 1 → Fin S10240x1.rank)
  bcast_S10240x1_S10240x10240_0_1 : S10240x1.BroadcastsInDim S10240x10240 (![0, 1] : Fin 2 → Fin S10240x10240.rank)
  bitsLt_bf16_f32 : FTy.bits .bf16 < FTy.bits .f32
  pads_S10000x1024_S10240x1024_02400_000 : S10000x1024.Pads (![0, 0] : Fin 2 → Nat) ![240, 0] ![0, 0] S10240x1024
  h_S_ : 0 < S_.numel
  concatenates_S1024x1024_S1024x1024_S2048x1024_d0 : Shape.Concatenates [S1024x1024, S1024x1024] S2048x1024 0
  shapeCasts_S1024_S1x1024 : S1024.ShapeCasts S1x1024
  inb_S256x10240_S256x10240_0_0 : ∀ a, (![0, 0] : Fin 2 → Nat) a + S256x10240.size a ≤ S256x10240.size a
  h_S256x10240 : 0 < S256x10240.numel
  shapeCasts_S256x10240_S256x10240 : S256x10240.ShapeCasts S256x10240
  inb_S10240x1024_S10240x1024_0_0 : ∀ a, (![0, 0] : Fin 2 → Nat) a + S10240x1024.size a ≤ S10240x1024.size a
  h_S10240x1024 : 0 < S10240x1024.numel
  shapeCasts_S10240x1024_S10240x1024 : S10240x1024.ShapeCasts S10240x1024
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  concatenates_S10240x1024_S10240x1024_S10240x2048_d1 : Shape.Concatenates [S10240x1024, S10240x1024] S10240x2048 1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  packedbf16_S512x1024_S512x1024_0_0 : (Rect.unit (s := S512x1024) ![0, 0] S512x1024.size inb_S512x1024_S512x1024_0_0).PackedRows (EltTy.packing .bf16)
  slices_S10240x1024_S10000x1024_0_0 : S10240x1024.Slices ![0, 0] S10000x1024
  gather_S30000x1024_S10000x1_S10000x1024_1_0_n_n_0_1_11024_wf : GatherDims.WF S30000x1024 S10000x1 S10000x1024 [1] [0] [] [0] [] 1 ![1, 1024]
  scatter_S10240_S160000x1_S160000_n_0_0_1_wf : ScatterDims.WF S10240 S160000x1 S160000 [] [0] [0] 1
  scatter_S10240x10240_S160000x2_S160000_n_01_01_1_wf : ScatterDims.WF S10240x10240 S160000x2 S160000 [] [0, 1] [0, 1] 1
  dot_S256x10240_S10240x1024_S256x1024_1_0_0_1_n_n_wf : DotDims.WF S256x10240 S10240x1024 S256x1024 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10240.size a ≤ S10240x10240.size a
  hwx0_0 : ∀ i : grid0.Coords, EltTy.bits .bf16 = 32 ∨ (Rect.block (s := S10240x10240) S256x10240.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x1024.size a ≤ S10240x1024.size a
  hwx0_1 : ∀ i : grid0.Coords, EltTy.bits .bf16 = 32 ∨ (Rect.block (s := S10240x1024) S10240x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S10240x1024.size a
  hwx0_2 : ∀ i : grid0.Coords, EltTy.bits .bf16 = 32 ∨ (Rect.block (s := S10240x1024) S256x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S10240x2048.size a
  hwx1_0 : ∀ i : grid1.Coords, EltTy.bits .bf16 = 32 ∨ (Rect.block (s := S10240x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x1024.size a
  hwx1_1 : ∀ i : grid1.Coords, EltTy.bits .bf16 = 32 ∨ (Rect.block (s := S2048x1024) S2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S10240x1024.size a
  hwx1_3 : ∀ i : grid1.Coords, EltTy.bits .bf16 = 32 ∨ (Rect.block (s := S10240x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x10240.size a ≤ S10240x10240.size a
  hwx2_0 : ∀ i : grid2.Coords, EltTy.bits .bf16 = 32 ∨ (Rect.block (s := S10240x10240) S256x10240.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x1024.size a ≤ S10240x1024.size a
  hwx2_1 : ∀ i : grid2.Coords, EltTy.bits .bf16 = 32 ∨ (Rect.block (s := S10240x1024) S10240x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S10240x1024.size a
  hwx2_2 : ∀ i : grid2.Coords, EltTy.bits .bf16 = 32 ∨ (Rect.block (s := S10240x1024) S256x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S10240x2048.size a
  hwx3_0 : ∀ i : grid3.Coords, EltTy.bits .bf16 = 32 ∨ (Rect.block (s := S10240x2048) S512x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x1024.size a ≤ S2048x1024.size a
  hwx3_1 : ∀ i : grid3.Coords, EltTy.bits .bf16 = 32 ∨ (Rect.block (s := S2048x1024) S2048x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S10240x1024.size a
  hwx3_3 : ∀ i : grid3.Coords, EltTy.bits .f32 = 32 ∨ (Rect.block (s := S10240x1024) S512x1024.size (cc3_transform_3 i) (hinb3_3 i)).WholeWords (EltTy.packing .f32)

variable [Facts₀]

def gather_S30000x1024_S10000x1_S10000x1024_1_0_n_n_0_1_11024 : GatherDims S30000x1024 S10000x1 S10000x1024 where
  offsetDims := [1]
  collapsedSliceDims := [0]
  operandBatchingDims := []
  startIndicesBatchingDims := []
  startIndexMap := [0]
  indexVectorDim := 1
  sliceSizes := ![1, 1024]
  wf := gather_S30000x1024_S10000x1_S10000x1024_1_0_n_n_0_1_11024_wf
def scatter_S10240_S160000x1_S160000_n_0_0_1 : ScatterDims S10240 S160000x1 S160000 where
  updateWindowDims := []
  insertedWindowDims := [0]
  scatterDimsToOperandDims := [0]
  indexVectorDim := 1
  wf := scatter_S10240_S160000x1_S160000_n_0_0_1_wf
def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def dot_S256x10240_S10240x1024_S256x1024_1_0_0_1_n_n : DotDims S256x10240 S10240x1024 S256x1024 where
  lhsContracting := [1]
  rhsContracting := [0]
  lhsNonContracting := [0]
  rhsNonContracting := [1]
  lhsBatch := []
  rhsBatch := []
  wf := dot_S256x10240_S10240x1024_S256x1024_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v34) S256x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S10240x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S256x10240.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S10240x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S256x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2048x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000 : Shape := ⟨1, ![10000]⟩
abbrev S160000 : Shape := ⟨1, ![160000]⟩
abbrev S30000x1024 : Shape := ⟨2, ![30000, 1024]⟩
abbrev S1024x1024 : Shape := ⟨2, ![1024, 1024]⟩
abbrev S1024 : Shape := ⟨1, ![1024]⟩
abbrev S_ : Shape := ⟨0, ![]⟩
abbrev S10000x1 : Shape := ⟨2, ![10000, 1]⟩
abbrev S10000x1024 : Shape := ⟨2, ![10000, 1024]⟩
abbrev S160000x1 : Shape := ⟨2, ![160000, 1]⟩
abbrev S160000x1024 : Shape := ⟨2, ![160000, 1024]⟩
abbrev S1x1024 : Shape := ⟨2, ![1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S10000, .i32⟩
  | .hbm, ⟨1, _⟩ => ⟨S160000, .i32⟩
  | .hbm, ⟨2, _⟩ => ⟨S160000, .i32⟩
  | .hbm, ⟨3, _⟩ => ⟨S30000x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S_, .i32⟩
  | .hbm, ⟨11, _⟩ => ⟨S10000, .i32⟩
  | .hbm, ⟨12, _⟩ => ⟨S10000, .i1⟩
  | .hbm, ⟨13, _⟩ => ⟨S_, .i32⟩
  | .hbm, ⟨14, _⟩ => ⟨S10000, .i32⟩
  | .hbm, ⟨15, _⟩ => ⟨S10000, .i32⟩
  | .hbm, ⟨16, _⟩ => ⟨S10000, .i32⟩
  | .hbm, ⟨17, _⟩ => ⟨S10000x1, .i32⟩
  | .hbm, ⟨18, _⟩ => ⟨S10000x1024, .f32⟩
  | .hbm, ⟨19, _⟩ => ⟨S_, .f32⟩
  | .hbm, ⟨20, _⟩ => ⟨S160000, .f32⟩
  | .hbm, ⟨21, _⟩ => ⟨S_, .f32⟩
  | .hbm, ⟨22, _⟩ => ⟨S10000, .f32⟩
  | .hbm, ⟨23, _⟩ => ⟨S160000x1, .i32⟩
  | .hbm, ⟨24, _⟩ => ⟨S10000, .f32⟩
  | .hbm, ⟨25, _⟩ => ⟨S_, .i32⟩
  | .hbm, ⟨26, _⟩ => ⟨S160000, .i32⟩
  | .hbm, ⟨27, _⟩ => ⟨S160000, .i1⟩
  | .hbm, ⟨28, _⟩ => ⟨S_, .i32⟩
  | .hbm, ⟨29, _⟩ => ⟨S160000, .i32⟩
  | .hbm, ⟨30, _⟩ => ⟨S160000, .i32⟩
  | .hbm, ⟨31, _⟩ => ⟨S160000, .i32⟩
  | .hbm, ⟨32, _⟩ => ⟨S160000x1, .i32⟩
  | .hbm, ⟨33, _⟩ => ⟨S160000x1024, .f32⟩
  | .hbm, ⟨34, _⟩ => ⟨S_, .f32⟩
  | .hbm, ⟨35, _⟩ => ⟨S10000x1024, .f32⟩
  | .hbm, ⟨36, _⟩ => ⟨S160000x1, .i32⟩
  | .hbm, ⟨37, _⟩ => ⟨S10000x1024, .f32⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S10000x1, .f32⟩
  | .hbm, ⟨42, _⟩ => ⟨S10000x1024, .f32⟩
  | .hbm, ⟨43, _⟩ => ⟨S10000x1024, .f32⟩
  | .hbm, ⟨44, _⟩ => ⟨S10000x1024, .f32⟩
  | .hbm, ⟨45, _⟩ => ⟨S10000x1024, .f32⟩
  | .hbm, ⟨46, _⟩ => ⟨S10000x1024, .f32⟩
  | .hbm, ⟨47, _⟩ => ⟨S1x1024, .f32⟩
  | .hbm, ⟨48, _⟩ => ⟨S10000x1024, .f32⟩
  | .hbm, ⟨49, _⟩ => ⟨S10000x1024, .f32⟩
  | .hbm, ⟨50, _⟩ => ⟨S_, .f32⟩
  | .hbm, ⟨51, _⟩ => ⟨S10000x1024, .f32⟩
  | .hbm, ⟨52, _⟩ => ⟨S10000x1024, .f32⟩
  | .hbm, ⟨53, _⟩ => ⟨S_, .f32⟩
  | .hbm, ⟨54, _⟩ => ⟨S160000, .f32⟩
  | .hbm, ⟨55, _⟩ => ⟨S_, .f32⟩
  | .hbm, ⟨56, _⟩ => ⟨S10000, .f32⟩
  | .hbm, ⟨57, _⟩ => ⟨S160000x1, .i32⟩
  | .hbm, ⟨58, _⟩ => ⟨S10000, .f32⟩
  | .hbm, ⟨59, _⟩ => ⟨S_, .i32⟩
  | .hbm, ⟨60, _⟩ => ⟨S160000, .i32⟩
  | .hbm, ⟨61, _⟩ => ⟨S160000, .i1⟩
  | .hbm, ⟨62, _⟩ => ⟨S_, .i32⟩
  | .hbm, ⟨63, _⟩ => ⟨S160000, .i32⟩
  | .hbm, ⟨64, _⟩ => ⟨S160000, .i32⟩
  | .hbm, ⟨65, _⟩ => ⟨S160000, .i32⟩
  | .hbm, ⟨66, _⟩ => ⟨S160000x1, .i32⟩
  | .hbm, ⟨67, _⟩ => ⟨S160000x1024, .f32⟩
  | .hbm, ⟨68, _⟩ => ⟨S_, .f32⟩
  | .hbm, ⟨69, _⟩ => ⟨S10000x1024, .f32⟩
  | .hbm, ⟨70, _⟩ => ⟨S160000x1, .i32⟩
  | .hbm, ⟨71, _⟩ => ⟨S10000x1024, .f32⟩
  | .hbm, ⟨72, _⟩ => ⟨S_, .f32⟩
  | .hbm, ⟨73, _⟩ => ⟨S10000, .f32⟩
  | .hbm, ⟨74, _⟩ => ⟨S10000, .f32⟩
  | .hbm, ⟨75, _⟩ => ⟨S10000x1, .f32⟩
  | .hbm, ⟨76, _⟩ => ⟨S10000x1024, .f32⟩
  | .hbm, ⟨77, _⟩ => ⟨S10000x1024, .f32⟩
  | .hbm, ⟨78, _⟩ => ⟨S10000x1024, .f32⟩
  | .hbm, ⟨79, _⟩ => ⟨S10000x1024, .f32⟩
  | .hbm, ⟨80, _⟩ => ⟨S10000x1024, .f32⟩
  | .hbm, ⟨81, _⟩ => ⟨S1x1024, .f32⟩
  | .hbm, ⟨82, _⟩ => ⟨S10000x1024, .f32⟩
  | .hbm, ⟨83, _⟩ => ⟨S10000x1024, .f32⟩
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S10000x1024 : S_.BroadcastsInDim S10000x1024 (![] : Fin 0 → Fin S10000x1024.rank)
  bcast_S10000x1_S10000x1024_0_1 : S10000x1.BroadcastsInDim S10000x1024 (![0, 1] : Fin 2 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  gather_S30000x1024_S10000x1_S10000x1024_1_0_n_n_0_1_11024_wf : GatherDims.WF S30000x1024 S10000x1 S10000x1024 [1] [0] [] [0] [] 1 ![1, 1024]
  scatter_S10000_S160000x1_S160000_n_0_0_1_wf : ScatterDims.WF S10000 S160000x1 S160000 [] [0] [0] 1
  gather_S10000x1024_S160000x1_S160000x1024_1_0_n_n_0_1_11024_wf : GatherDims.WF S10000x1024 S160000x1 S160000x1024 [1] [0] [] [0] [] 1 ![1, 1024]
  scatter_S10000x1024_S160000x1_S160000x1024_1_0_0_1_wf : ScatterDims.WF S10000x1024 S160000x1 S160000x1024 [1] [0] [0] 1
  dot_S10000x1024_S1024x1024_S10000x1024_1_0_0_1_n_n_wf : DotDims.WF S10000x1024 S1024x1024 S10000x1024 [1] [0] [0] [1] [] []

variable [Facts₀]

def gather_S30000x1024_S10000x1_S10000x1024_1_0_n_n_0_1_11024 : GatherDims S30000x1024 S10000x1 S10000x1024 where
  offsetDims := [1]
  collapsedSliceDims := [0]
  operandBatchingDims := []
  startIndicesBatchingDims := []
  startIndexMap := [0]
  indexVectorDim := 1
  sliceSizes := ![1, 1024]
  wf := gather_S30000x1024_S10000x1_S10000x1024_1_0_n_n_0_1_11024_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x1024_S160000x1_S160000x1024_1_0_n_n_0_1_11024 : GatherDims S10000x1024 S160000x1 S160000x1024 where
  offsetDims := [1]
  collapsedSliceDims := [0]
  operandBatchingDims := []
  startIndicesBatchingDims := []
  startIndexMap := [0]
  indexVectorDim := 1
  sliceSizes := ![1, 1024]
  wf := gather_S10000x1024_S160000x1_S160000x1024_1_0_n_n_0_1_11024_wf
def scatter_S10000x1024_S160000x1_S160000x1024_1_0_0_1 : ScatterDims S10000x1024 S160000x1 S160000x1024 where
  updateWindowDims := [1]
  insertedWindowDims := [0]
  scatterDimsToOperandDims := [0]
  indexVectorDim := 1
  wf := scatter_S10000x1024_S160000x1_S160000x1024_1_0_0_1_wf
def dot_S10000x1024_S1024x1024_S10000x1024_1_0_0_1_n_n : DotDims S10000x1024 S1024x1024 S10000x1024 where
  lhsContracting := [1]
  rhsContracting := [0]
  lhsNonContracting := [0]
  rhsNonContracting := [1]
  lhsBatch := []
  rhsBatch := []
  wf := dot_S10000x1024_S1024x1024_S10000x1024_1_0_0_1_n_n_wf

class Facts : Prop extends Facts₀ where

variable [Facts]
-- ==== Proof.Spec.lean ====
/-
  The mathematics both programs are read against, over plain finite index types.

  A graph has 10000 nodes and 160000 edges; edge `e` runs from node `s e` to node `t e`. One mean-aggregating
  graph-convolution layer sends node features `h : 10000 × 1024` to
      h · Wself  +  mean_{e : t e = n} h (s e) · Wneigh  +  b,
  the mean taken over the edges INTO node `n` and divided by `max (in-degree n) 1`. The reference computes two such layers
  (a ReLU between them) edge by edge. The kernel instead forms the dense matrix
      Amean n m = #{e : t e = n, s e = m} · (1 / max (in-degree n) 1)
  on 10240 × 10240 (the node axis padded with 240 rows of zeros), multiplies it into the padded features, glues
  `[h, Amean · h]` side by side and multiplies by `[Wself ; Wneigh]` stacked — then drops the padding rows.
  Everything here is stated on curried functions `Fin a → Fin b → EReal`; `arr2` / `mat` go between those and the arrays
  of the printed programs.
-/
import Idealize.ShloMosaic.PureOps.Ideal
import Idealize.ShloMosaic.Lib.ValueIdx

noncomputable section

namespace Cert.Sage

open Idealize.ShloMosaic Idealize.ShloMosaic.ValueIdx

/-! ## Arrays and curried functions -/

/-- The rank-2 array of a curried function. -/
def arr2 {α : Type} {a b : Nat} (f : Fin a → Fin b → α) : (⟨2, ![a, b]⟩ : Shape).Idx → α :=
  fun i => f ⟨(i 0).val, idx2_lt0 i⟩ ⟨(i 1).val, idx2_lt1 i⟩

/-- A rank-2 array as a curried function. -/
def mat {α : Type} {a b : Nat} (X : (⟨2, ![a, b]⟩ : Shape).Idx → α) : Fin a → Fin b → α := fun p q => X (ix2 p q)

/-- A rank-1 array as a function of its one coordinate. -/
def vec {α : Type} {a : Nat} (x : (⟨1, ![a]⟩ : Shape).Idx → α) : Fin a → α := fun p => x (ix1 p)

theorem mat_arr2 {α : Type} {a b : Nat} (f : Fin a → Fin b → α) : mat (arr2 f) = f := rfl

theorem arr2_mat {α : Type} {a b : Nat} (X : (⟨2, ![a, b]⟩ : Shape).Idx → α) : arr2 (mat X) = X := by
  funext i
  show X (ix2 ⟨(i 0).val, idx2_lt0 i⟩ ⟨(i 1).val, idx2_lt1 i⟩) = X i
  exact congrArg X (eq_ix2 i).symm

theorem arr2_apply {α : Type} {a b : Nat} (f : Fin a → Fin b → α) (p : Fin a) (q : Fin b) : arr2 f (ix2 p q) = f p q := rfl

/-! ## The embedding lookup (the same on both sides) -/

/-- The word the lookup reads for a node id: a negative id has the table's height added. -/
def nodeWord (v : BitVec 32) : BitVec 32 := Scalar.select (IntOp.cmpi .slt v 0#32) (IntOp.addi v 30000#32) v

/-- The table row a node id names: that word read signed and clamped into the table. -/
def nodeRow (v : BitVec 32) : Fin 30000 := ⟨min (nodeWord v).toInt.toNat 29999, by omega⟩

/-- The looked-up features: row `n` is the table's row `nodeRow (node n)`. -/
def xRows (node : Fin 10000 → BitVec 32) (emb : Fin 30000 → Fin 1024 → EReal) : Fin 10000 → Fin 1024 → EReal :=
  fun n d => emb (nodeRow (node n)) d

section Graph

variable (s t : Fin 160000 → Fin 10000)

/-! ## The reference: edge by edge -/

/-- The in-degree of node `n`, as a sum of ones. -/
def deg (n : Fin 10000) : EReal := ∑ e ∈ Finset.univ.filter (fun e => t e = n), (1 : EReal)

/-- The mean over the edges into `n` of the source node's features (the sum, over `max (deg n) 1`). -/
def meanAgg (h : Fin 10000 → Fin 1024 → EReal) : Fin 10000 → Fin 1024 → EReal :=
  fun n d => Ideal.div (∑ e ∈ Finset.univ.filter (fun e => t e = n), h (s e) d) (max (deg t n) 1)

/-- One layer: `h · Ws + meanAgg h · Wn + b`. -/
def sageLayer (h : Fin 10000 → Fin 1024 → EReal) (Ws Wn : Fin 1024 → Fin 1024 → EReal) (b : Fin 1024 → EReal) :
    Fin 10000 → Fin 1024 → EReal :=
  fun n d => ((∑ k : Fin 1024, h n k * Ws k d) + (∑ k : Fin 1024, meanAgg s t h n k * Wn k d)) + b d

/-- The reference's result: two layers, a ReLU between. -/
def refOut (x : Fin 10000 → Fin 1024 → EReal) (W1s W1n : Fin 1024 → Fin 1024 → EReal) (b1 : Fin 1024 → EReal)
    (W2s W2n : Fin 1024 → Fin 1024 → EReal) (b2 : Fin 1024 → EReal) : Fin 10000 → Fin 1024 → EReal :=
  sageLayer s t (fun n d => max (sageLayer s t x W1s W1n b1 n d) 0) W2s W2n b2

/-! ## The kernel: a dense normalized adjacency on the padded node axis -/

/-- The in-degree on the padded axis (zero on the padding rows). -/
def degP (n : Fin 10240) : EReal := ∑ e ∈ Finset.univ.filter (fun e => (t e).val = n.val), (1 : EReal)

/-- The normalized adjacency: the number of edges `m → n` times `1 / max (degP n) 1`. -/
def ameanP : Fin 10240 → Fin 10240 → EReal :=
  fun n m => (∑ e ∈ Finset.univ.filter (fun e => (t e).val = n.val ∧ (s e).val = m.val), (1 : EReal))
    * Ideal.div 1 (max (degP t n) 1)

end Graph

/-- Features padded with 240 rows of zeros. -/
def padRows (x : Fin 10000 → Fin 1024 → EReal) : Fin 10240 → Fin 1024 → EReal :=
  fun n d => if h : n.val < 10000 then x ⟨n.val, h⟩ d else 0

/-- The aggregation kernel's whole-array function: a plain matrix product over the padded axis. -/
def aggP (A : Fin 10240 → Fin 10240 → EReal) (H : Fin 10240 → Fin 1024 → EReal) : Fin 10240 → Fin 1024 → EReal :=
  fun n d => ∑ k : Fin 10240, A n k * H k d

/-- Two feature blocks side by side. -/
def catCols (H G : Fin 10240 → Fin 1024 → EReal) : Fin 10240 → Fin 2048 → EReal :=
  fun n k => if h : k.val < 1024 then H n ⟨k.val, h⟩ else G n ⟨k.val - 1024, by omega⟩

/-- Two weight matrices stacked. -/
def catRows (Ws Wn : Fin 1024 → Fin 1024 → EReal) : Fin 2048 → Fin 1024 → EReal :=
  fun k d => if h : k.val < 1024 then Ws ⟨k.val, h⟩ d else Wn ⟨k.val - 1024, by omega⟩ d

/-- The linear kernel's whole-array function (before its optional ReLU): a product over the 2048 glued columns, plus
    the bias row. -/
def linP (X : Fin 10240 → Fin 2048 → EReal) (W : Fin 2048 → Fin 1024 → EReal) (b : Fin 1024 → EReal) :
    Fin 10240 → Fin 1024 → EReal :=
  fun n d => (∑ k : Fin 2048, X n k * W k d) + b d

/-- The linear kernel followed by its ReLU. -/
def linReluP (X : Fin 10240 → Fin 2048 → EReal) (W : Fin 2048 → Fin 1024 → EReal) (b : Fin 1024 → EReal) :
    Fin 10240 → Fin 1024 → EReal :=
  fun n d => max (linP X W b n d) 0

/-- The kernel's result on the padded axis, from the adjacency `A` and the padded features `xp`. -/
def kerOutP (A : Fin 10240 → Fin 10240 → EReal) (xp : Fin 10240 → Fin 1024 → EReal)
    (W1 : Fin 2048 → Fin 1024 → EReal) (b1 : Fin 1024 → EReal) (W2 : Fin 2048 → Fin 1024 → EReal) (b2 : Fin 1024 → EReal) :
    Fin 10240 → Fin 1024 → EReal :=
  linP (catCols (linReluP (catCols xp (aggP A xp)) W1 b1) (aggP A (linReluP (catCols xp (aggP A xp)) W1 b1))) W2 b2

/-- The first 10000 rows of a padded array. -/
def dropPad (Y : Fin 10240 → Fin 1024 → EReal) : Fin 10000 → Fin 1024 → EReal := fun n d => Y ⟨n.val, by omega⟩ d

/-- The kernel's result. -/
def kerOut (s t : Fin 160000 → Fin 10000) (x : Fin 10000 → Fin 1024 → EReal) (W1s W1n : Fin 1024 → Fin 1024 → EReal)
    (b1 : Fin 1024 → EReal) (W2s W2n : Fin 1024 → Fin 1024 → EReal) (b2 : Fin 1024 → EReal) : Fin 10000 → Fin 1024 → EReal :=
  dropPad (kerOutP (ameanP s t) (padRows x) (catRows W1s W1n) b1 (catRows W2s W2n) b2)

end Cert.Sage

end
-- ==== Proof.Bridge.lean ====
/-
  The dense-adjacency form of two mean-aggregating layers IS the edge-by-edge form, on real-valued data.

  For every node `n < 10000`: summing `Amean n m · H m d` over the padded axis `m` pulls the factor `1 / max (deg n) 1` out
  of the sum (distributivity: this is where the data must be real, not ±∞), the padding rows and the columns no edge names
  contribute zero, and the count `#{e : t e = n, s e = m}` turns the sum over `m` into the sum over the edges into `n`
  of `h (s e) d`. The glued product over 2048 columns is the sum of the two products over 1024.
-/
import proofs.«406130_j87720412054178_1_alg».proof.Proof.Spec

noncomputable section

namespace Cert.Sage

open Idealize.ShloMosaic

/-! ## Real numbers inside the extended reals -/

/-- The coercion of a finite real sum is the sum of the coercions. -/
private theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite sum of real summands times a real factor distributes. -/
private theorem sum_mul_real {ι : Type} (S : Finset ι) (f : ι → EReal) (hf : ∀ i, ∃ r : ℝ, f i = (r : EReal)) (c : ℝ) :
    (∑ i ∈ S, f i) * (c : EReal) = ∑ i ∈ S, f i * (c : EReal) := by
  choose g hg using hf
  simp only [hg, ← EReal.coe_mul, ← coe_sum, Finset.sum_mul]

private theorem real_zero : ∃ r : ℝ, (0 : EReal) = (r : EReal) := ⟨0, rfl⟩

private theorem real_one : ∃ r : ℝ, (1 : EReal) = (r : EReal) := ⟨1, rfl⟩

private theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

private theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

private theorem coe_max (x y : ℝ) : ((max x y : ℝ) : EReal) = max (x : EReal) (y : EReal) :=
  EReal.coe_strictMono.monotone.map_max

private theorem real_max {a b : EReal} (ha : ∃ r : ℝ, a = (r : EReal)) (hb : ∃ r : ℝ, b = (r : EReal)) :
    ∃ r : ℝ, max a b = (r : EReal) := by
  obtain ⟨x, rfl⟩ := ha
  obtain ⟨y, rfl⟩ := hb
  exact ⟨max x y, (coe_max x y).symm⟩

private theorem real_sum {ι : Type} (S : Finset ι) (f : ι → EReal) (hf : ∀ i, ∃ r : ℝ, f i = (r : EReal)) :
    ∃ r : ℝ, ∑ i ∈ S, f i = (r : EReal) := by
  choose g hg using hf
  exact ⟨∑ i ∈ S, g i, by simp only [hg, coe_sum]⟩

/-- A count (a finite sum of ones) is a natural number, hence real. -/
private theorem sum_ones {ι : Type} (S : Finset ι) : ∑ _i ∈ S, (1 : EReal) = ((S.card : ℝ) : EReal) := by
  rw [← EReal.coe_one, ← coe_sum, Finset.sum_const, nsmul_eq_mul, mul_one]

/-- `max (count) 1` is a nonzero real. -/
private theorem max_count_one {ι : Type} (S : Finset ι) :
    ∃ c : ℝ, c ≠ 0 ∧ max (∑ _i ∈ S, (1 : EReal)) 1 = (c : EReal) := by
  refine ⟨max (S.card : ℝ) 1, ?_, ?_⟩
  · have : (1 : ℝ) ≤ max (S.card : ℝ) 1 := le_max_right _ _
    intro h
    rw [h] at this
    exact absurd this (by norm_num)
  · rw [sum_ones, coe_max, EReal.coe_one]

/-! ## One aggregation: the dense normalized adjacency against the edge-by-edge mean -/

section Graph

variable (s t : Fin 160000 → Fin 10000)

/-- The padded in-degree at a true node is the in-degree (the same edges are counted). -/
private theorem degP_eq (n : Fin 10000) (hn : n.val < 10240) : degP t ⟨n.val, hn⟩ = deg t n := by
  unfold degP deg
  refine Finset.sum_congr ?_ (fun _ _ => rfl)
  ext e
  simp only [Finset.mem_filter, Finset.mem_univ, true_and]
  exact ⟨fun h => Fin.ext h, fun h => by rw [h]⟩

/-- Summing `count(n, k) · H k` over the padded axis `k` is summing `H (s e)` over the edges `e` into `n`: each such edge
    is counted at exactly the one column `k = s e` (a column below 10000), so the other columns contribute nothing. -/
private theorem count_sum (H : Fin 10240 → EReal) (hH : ∀ k, ∃ r : ℝ, H k = (r : EReal)) (n : Fin 10000) :
    ∑ k : Fin 10240, (∑ _e ∈ Finset.univ.filter (fun e => (t e).val = n.val ∧ (s e).val = k.val), (1 : EReal)) * H k
      = ∑ e ∈ Finset.univ.filter (fun e => t e = n), H ⟨(s e).val, by omega⟩ := by
  have h1 : ∀ k : Fin 10240,
      (∑ _e ∈ Finset.univ.filter (fun e => (t e).val = n.val ∧ (s e).val = k.val), (1 : EReal)) * H k
        = ∑ e ∈ Finset.univ.filter (fun e => t e = n), if (s e).val = k.val then H k else 0 := by
    intro k
    obtain ⟨r, hr⟩ := hH k
    have hf : (Finset.univ.filter (fun e => (t e).val = n.val ∧ (s e).val = k.val))
        = (Finset.univ.filter (fun e => t e = n)).filter (fun e => (s e).val = k.val) := by
      ext e
      simp only [Finset.mem_filter, Finset.mem_univ, true_and]
      exact ⟨fun h => ⟨Fin.ext h.1, h.2⟩, fun h => ⟨by rw [h.1], h.2⟩⟩
    rw [hr, sum_mul_real _ _ (fun _ => real_one) r, hf, Finset.sum_filter]
    simp only [one_mul]
  simp only [h1]
  rw [Finset.sum_comm]
  refine Finset.sum_congr rfl (fun e _ => ?_)
  rw [Finset.sum_eq_single (⟨(s e).val, by omega⟩ : Fin 10240)]
  · simp
  · intro k _ hk
    rw [if_neg]
    intro h
    exact hk (Fin.ext h.symm)
  · intro h
    exact absurd (Finset.mem_univ _) h

/-- The dense aggregation at a true node is the edge-by-edge mean of the first 10000 rows, whatever (real) values the
    remaining rows hold: no edge names a column past 10000, and the real factor `1 / max (deg n) 1` comes out of the sum. -/
private theorem agg_eq (H : Fin 10240 → Fin 1024 → EReal) (hH : ∀ k d, ∃ r : ℝ, H k d = (r : EReal))
    (n : Fin 10000) (hn : n.val < 10240) (d : Fin 1024) :
    aggP (ameanP s t) H ⟨n.val, hn⟩ d = meanAgg s t (dropPad H) n d := by
  obtain ⟨c, hc0, hc⟩ := max_count_one (Finset.univ.filter (fun e => t e = n))
  have hdeg : max (degP t ⟨n.val, hn⟩) 1 = (c : EReal) := by rw [degP_eq]; exact hc
  have hL : aggP (ameanP s t) H ⟨n.val, hn⟩ d
      = ∑ k : Fin 10240, ((∑ _e ∈ Finset.univ.filter (fun e => (t e).val = n.val ∧ (s e).val = k.val), (1 : EReal)) * H k d)
          * ((1 / c : ℝ) : EReal) := by
    show ∑ k : Fin 10240, ((∑ _e ∈ Finset.univ.filter (fun e => (t e).val = n.val ∧ (s e).val = k.val), (1 : EReal))
          * Ideal.div 1 (max (degP t ⟨n.val, hn⟩) 1)) * H k d = _
    rw [hdeg, Ideal.div_coe hc0, one_mul]
    exact Finset.sum_congr rfl (fun k _ => mul_right_comm _ _ _)
  have hR : meanAgg s t (dropPad H) n d
      = (∑ e ∈ Finset.univ.filter (fun e => t e = n), H ⟨(s e).val, by omega⟩ d) * ((1 / c : ℝ) : EReal) := by
    show Ideal.div _ (max (deg t n) 1) = _
    rw [show max (deg t n) 1 = (c : EReal) from hc, Ideal.div_coe hc0]
    rfl
  rw [hL, hR, ← sum_mul_real _ _ (fun k => real_mul ⟨_, sum_ones _⟩ (hH k d)),
    count_sum s t (fun k => H k d) (fun k => hH k d) n]

end Graph

/-! ## The glued product -/

/-- A sum over 2048 columns is the sum over the first 1024 plus the sum over the last 1024. -/
private theorem sum_split (f : Fin 2048 → EReal) :
    ∑ k : Fin 2048, f k = ∑ k : Fin 1024, f ⟨k.val, by omega⟩ + ∑ k : Fin 1024, f ⟨1024 + k.val, by omega⟩ :=
  Fin.sum_univ_add (a := 1024) (b := 1024) f

/-- Two blocks side by side times two weight matrices stacked: the sum of the two products. -/
private theorem glue_eq (H G : Fin 10240 → Fin 1024 → EReal) (Ws Wn : Fin 1024 → Fin 1024 → EReal) (m : Fin 10240)
    (d : Fin 1024) :
    ∑ k : Fin 2048, catCols H G m k * catRows Ws Wn k d
      = ∑ k : Fin 1024, H m k * Ws k d + ∑ k : Fin 1024, G m k * Wn k d := by
  have e1 : ∀ k : Fin 1024,
      catCols H G m ⟨k.val, by omega⟩ * catRows Ws Wn ⟨k.val, by omega⟩ d = H m k * Ws k d := by
    intro k
    simp only [catCols, catRows, dif_pos k.isLt, Fin.eta]
  have e2 : ∀ k : Fin 1024,
      catCols H G m ⟨1024 + k.val, by omega⟩ * catRows Ws Wn ⟨1024 + k.val, by omega⟩ d = G m k * Wn k d := by
    intro k
    have hk : ¬ (1024 + k.val < 1024) := by omega
    simp only [catCols, catRows, dif_neg hk, Nat.add_sub_cancel_left, Fin.eta]
  rw [sum_split]
  simp only [e1, e2]

/-! ## Everything the kernel forms from real data is real -/

private theorem ameanP_real (s t : Fin 160000 → Fin 10000) (n k : Fin 10240) :
    ∃ r : ℝ, ameanP s t n k = (r : EReal) := by
  obtain ⟨c, hc0, hc⟩ := max_count_one (Finset.univ.filter (fun e => (t e).val = n.val))
  unfold ameanP
  refine real_mul ⟨_, sum_ones _⟩ ?_
  rw [show max (degP t n) 1 = (c : EReal) from hc, Ideal.div_coe hc0, one_mul]
  exact ⟨_, rfl⟩

private theorem aggP_real (A : Fin 10240 → Fin 10240 → EReal) (hA : ∀ n k, ∃ r : ℝ, A n k = (r : EReal))
    (H : Fin 10240 → Fin 1024 → EReal) (hH : ∀ k d, ∃ r : ℝ, H k d = (r : EReal)) (n : Fin 10240) (d : Fin 1024) :
    ∃ r : ℝ, aggP A H n d = (r : EReal) :=
  real_sum _ _ (fun k => real_mul (hA n k) (hH k d))

private theorem catCols_real (H G : Fin 10240 → Fin 1024 → EReal) (hH : ∀ k d, ∃ r : ℝ, H k d = (r : EReal))
    (hG : ∀ k d, ∃ r : ℝ, G k d = (r : EReal)) (n : Fin 10240) (k : Fin 2048) :
    ∃ r : ℝ, catCols H G n k = (r : EReal) := by
  unfold catCols
  split
  · exact hH _ _
  · exact hG _ _

private theorem catRows_real (Ws Wn : Fin 1024 → Fin 1024 → EReal) (hs : ∀ k d, ∃ r : ℝ, Ws k d = (r : EReal))
    (hn : ∀ k d, ∃ r : ℝ, Wn k d = (r : EReal)) (k : Fin 2048) (d : Fin 1024) :
    ∃ r : ℝ, catRows Ws Wn k d = (r : EReal) := by
  unfold catRows
  split
  · exact hs _ _
  · exact hn _ _

private theorem linReluP_real (X : Fin 10240 → Fin 2048 → EReal) (W : Fin 2048 → Fin 1024 → EReal) (b : Fin 1024 → EReal)
    (hX : ∀ n k, ∃ r : ℝ, X n k = (r : EReal)) (hW : ∀ k d, ∃ r : ℝ, W k d = (r : EReal))
    (hb : ∀ d, ∃ r : ℝ, b d = (r : EReal)) (n : Fin 10240) (d : Fin 1024) :
    ∃ r : ℝ, linReluP X W b n d = (r : EReal) :=
  real_max (real_add (real_sum _ _ (fun k => real_mul (hX n k) (hW k d))) (hb d)) real_zero

private theorem padRows_real (x : Fin 10000 → Fin 1024 → EReal) (hx : ∀ n d, ∃ r : ℝ, x n d = (r : EReal))
    (n : Fin 10240) (d : Fin 1024) : ∃ r : ℝ, padRows x n d = (r : EReal) := by
  unfold padRows
  split
  · exact hx _ _
  · exact real_zero

private theorem dropPad_padRows (x : Fin 10000 → Fin 1024 → EReal) : dropPad (padRows x) = x := by
  funext n d
  show (if h : n.val < 10000 then x ⟨n.val, h⟩ d else 0) = x n d
  rw [dif_pos n.isLt]

/-! ## One layer, then two -/

/-- One layer of the kernel at a true node is the reference's layer on the first 10000 rows of its (real) input. -/
private theorem layer_eq (s t : Fin 160000 → Fin 10000) (H : Fin 10240 → Fin 1024 → EReal)
    (hH : ∀ k d, ∃ r : ℝ, H k d = (r : EReal)) (Ws Wn : Fin 1024 → Fin 1024 → EReal) (b : Fin 1024 → EReal)
    (n : Fin 10000) (hn : n.val < 10240) (d : Fin 1024) :
    linP (catCols H (aggP (ameanP s t) H)) (catRows Ws Wn) b ⟨n.val, hn⟩ d = sageLayer s t (dropPad H) Ws Wn b n d := by
  show (∑ k : Fin 2048, catCols H (aggP (ameanP s t) H) ⟨n.val, hn⟩ k * catRows Ws Wn k d) + b d
    = ((∑ k : Fin 1024, dropPad H n k * Ws k d) + (∑ k : Fin 1024, meanAgg s t (dropPad H) n k * Wn k d)) + b d
  have hA : ∀ k, aggP (ameanP s t) H ⟨n.val, hn⟩ k = meanAgg s t (dropPad H) n k := fun k => agg_eq s t H hH n hn k
  rw [glue_eq]
  simp only [hA]
  rfl

/-- On real-valued features, weights and biases the kernel's dense computation and the reference's edge-by-edge one agree
    at every node and feature. -/
theorem kerOut_eq_refOut (s t : Fin 160000 → Fin 10000) (x : Fin 10000 → Fin 1024 → EReal)
    (W1s W1n : Fin 1024 → Fin 1024 → EReal) (b1 : Fin 1024 → EReal) (W2s W2n : Fin 1024 → Fin 1024 → EReal) (b2 : Fin 1024 → EReal)
    (hx : ∀ n d, ∃ r : ℝ, x n d = (r : EReal))
    (hW1s : ∀ k d, ∃ r : ℝ, W1s k d = (r : EReal)) (hW1n : ∀ k d, ∃ r : ℝ, W1n k d = (r : EReal)) (hb1 : ∀ d, ∃ r : ℝ, b1 d = (r : EReal))
    (hW2s : ∀ k d, ∃ r : ℝ, W2s k d = (r : EReal)) (hW2n : ∀ k d, ∃ r : ℝ, W2n k d = (r : EReal)) (hb2 : ∀ d, ∃ r : ℝ, b2 d = (r : EReal)) :
    kerOut s t x W1s W1n b1 W2s W2n b2 = refOut s t x W1s W1n b1 W2s W2n b2 := by
  have hA := ameanP_real s t
  have hxp := padRows_real x hx
  -- the first layer's output on the whole padded axis: real everywhere, and on the true rows the reference's
  have hL1 : ∀ m d, ∃ r : ℝ,
      linReluP (catCols (padRows x) (aggP (ameanP s t) (padRows x))) (catRows W1s W1n) b1 m d = (r : EReal) :=
    linReluP_real _ _ _ (catCols_real _ _ hxp (aggP_real _ hA _ hxp)) (catRows_real _ _ hW1s hW1n) hb1
  have h1 : dropPad (linReluP (catCols (padRows x) (aggP (ameanP s t) (padRows x))) (catRows W1s W1n) b1)
      = fun n d => max (sageLayer s t x W1s W1n b1 n d) 0 := by
    funext m e
    show max (linP (catCols (padRows x) (aggP (ameanP s t) (padRows x))) (catRows W1s W1n) b1 ⟨m.val, by omega⟩ e) 0 = _
    rw [layer_eq s t (padRows x) hxp, dropPad_padRows]
  funext n d
  show linP (catCols (linReluP (catCols (padRows x) (aggP (ameanP s t) (padRows x))) (catRows W1s W1n) b1)
      (aggP (ameanP s t) (linReluP (catCols (padRows x) (aggP (ameanP s t) (padRows x))) (catRows W1s W1n) b1)))
      (catRows W2s W2n) b2 ⟨n.val, by omega⟩ d = _
  rw [layer_eq s t _ hL1, h1]
  rfl

end Cert.Sage

end
-- ==== Proof.PreDecode.lean ====
/-
  What the precondition says, entry by entry: every float input is a real number (its absolute value is below +∞), and
  every source and destination word, read as a signed integer, is a node number in `[0, 10000)`.
-/
import proofs.«406130_j87720412054178_1_alg».proof.Pre_finite_inputs
import proofs.«406130_j87720412054178_1_alg».proof.Proof.Spec
import Idealize.ShloMosaic.Lib.ReduceAll
import Idealize.ShloMosaic.Lib.StableHlo.Predicate

noncomputable section

namespace Cert.Sage

open Idealize.ShloMosaic Idealize.ShloMosaic.ValueIdx Cert.Pre_finite_inputs

/-- The scalar shape has one index. -/
private instance subsingleton_scalar_idx : Subsingleton S_.Idx := ⟨fun a b => funext fun d => d.elim0⟩

/-- An extended real whose absolute value `max x (-x)` is strictly below the word of +∞ is a real number. -/
private theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  change BitVec.ofBool (decide (max (x : EReal) (-(x : EReal)) < ⊤)) = 1#1 at h
  rw [StableHlo.Predicate.ofBool_eq_one_iff, decide_eq_true_eq, max_lt_iff] at h
  induction x using EReal.rec with
  | bot => exact absurd h.2 (by simp)
  | coe r => exact ⟨r, rfl⟩
  | top => exact absurd h.1 (by simp)

/-- A word that the signed comparisons find at least 0 and below 10000 has its signed value in `[0, 10000)`. -/
private theorem word_range (v : BitVec 32)
    (h : IntOp.andi (IntOp.cmpi .sge v 0#32) (IntOp.cmpi .slt v 10000#32) = 1#1) : 0 ≤ v.toInt ∧ v.toInt < 10000 := by
  obtain ⟨h1, h2⟩ := IntOp.andi_eq_one.1 h
  change BitVec.ofBool ((0#32 : BitVec 32).sle v) = 1#1 at h1
  change BitVec.ofBool (v.slt (10000#32 : BitVec 32)) = 1#1 at h2
  rw [StableHlo.Predicate.ofBool_eq_one_iff] at h1 h2
  simp only [BitVec.sle, BitVec.slt, decide_eq_true_eq] at h1 h2
  have e0 : (0#32 : BitVec 32).toInt = 0 := by decide
  have e1 : (10000#32 : BitVec 32).toInt = 10000 := by decide
  rw [e0] at h1
  rw [e1] at h2
  exact ⟨h1, h2⟩

/-- Words all in `[0, 10000)` name nodes. -/
private theorem nodes_of_range {n : Nat} (a : IVec ⟨1, ![n]⟩ 32) (h : ∀ i, 0 ≤ (a i).toInt ∧ (a i).toInt < 10000) :
    ∃ s : Fin n → Fin 10000, ∀ e, (vec (α := BitVec 32) (a := n) a e).toInt = ((s e).val : ℤ) := by
  refine ⟨fun e => ⟨(a (ix1 e)).toInt.toNat, by have := h (ix1 e); omega⟩, fun e => ?_⟩
  have := h (ix1 e)
  show (a (ix1 e)).toInt = (((a (ix1 e)).toInt.toNat : ℕ) : ℤ)
  omega

/-- The precondition, decoded. -/
theorem decode_pre [Cert.Pre_finite_inputs.Facts]
    (a0 : IVec S10000 32) (a1 a2 : IVec S160000 32) (a3 : FVec Ideal S30000x1024 .f32) (a4 a5 : FVec Ideal S1024x1024 .f32)
    (a6 : FVec Ideal S1024 .f32) (a7 a8 : FVec Ideal S1024x1024 .f32) (a9 : FVec Ideal S1024 .f32)
    (h : Cert.Pre_finite_inputs.fn (F := Ideal) a0 a1 a2 a3 a4 a5 a6 a7 a8 a9 = fun _ => 1#1) :
    (∃ s : Fin 160000 → Fin 10000, ∀ e, (vec (α := BitVec 32) (a := 160000) a1 e).toInt = ((s e).val : ℤ))
    ∧ (∃ t : Fin 160000 → Fin 10000, ∀ e, (vec (α := BitVec 32) (a := 160000) a2 e).toInt = ((t e).val : ℤ))
    ∧ (∀ p q, ∃ r : ℝ, mat (α := EReal) (a := 30000) (b := 1024) a3 p q = (r : EReal))
    ∧ (∀ p q, ∃ r : ℝ, mat (α := EReal) (a := 1024) (b := 1024) a4 p q = (r : EReal))
    ∧ (∀ p q, ∃ r : ℝ, mat (α := EReal) (a := 1024) (b := 1024) a5 p q = (r : EReal))
    ∧ (∀ p, ∃ r : ℝ, vec (α := EReal) (a := 1024) a6 p = (r : EReal))
    ∧ (∀ p q, ∃ r : ℝ, mat (α := EReal) (a := 1024) (b := 1024) a7 p q = (r : EReal))
    ∧ (∀ p q, ∃ r : ℝ, mat (α := EReal) (a := 1024) (b := 1024) a8 p q = (r : EReal))
    ∧ (∀ p, ∃ r : ℝ, vec (α := EReal) (a := 1024) a9 p = (r : EReal)) := by
  have h0 := congrFun h ix0
  dsimp only [fn, fn_part1, fn_part2, andi] at h0
  simp only [IntOp.andi_eq_one] at h0
  obtain ⟨⟨⟨⟨⟨⟨⟨⟨h3, h4⟩, h5⟩, h6⟩, h7⟩, h8⟩, h9⟩, h1⟩, h2⟩ := h0
  refine ⟨nodes_of_range a1 fun i => word_range _ (Host.reduce_andi_all _ _ _ _ _ h1 i),
    nodes_of_range a2 fun i => word_range _ (Host.reduce_andi_all _ _ _ _ _ h2 i),
    fun p q => real_of_abs_lt_inf _ (Host.reduce_andi_all _ _ _ _ _ h3 (ix2 p q)),
    fun p q => real_of_abs_lt_inf _ (Host.reduce_andi_all _ _ _ _ _ h4 (ix2 p q)),
    fun p q => real_of_abs_lt_inf _ (Host.reduce_andi_all _ _ _ _ _ h5 (ix2 p q)),
    fun p => real_of_abs_lt_inf _ (Host.reduce_andi_all _ _ _ _ _ h6 (ix1 p)),
    fun p q => real_of_abs_lt_inf _ (Host.reduce_andi_all _ _ _ _ _ h7 (ix2 p q)),
    fun p q => real_of_abs_lt_inf _ (Host.reduce_andi_all _ _ _ _ _ h8 (ix2 p q)),
    fun p => real_of_abs_lt_inf _ (Host.reduce_andi_all _ _ _ _ _ h9 (ix1 p))⟩

end Cert.Sage

end
-- ==== Proof.KArgs.lean ====
/-
  The idealized kernel program's ten argument arrays on a core, as curried functions: the node ids, the edges' source
  and destination words, the embedding table, and the two layers' weights and biases.
-/
import proofs.«406130_j87720412054178_1_alg».proof.Proof.Gen.KernelIdeal.Frame
import proofs.«406130_j87720412054178_1_alg».proof.Proof.Spec

noncomputable section

namespace Cert.Sage.KI

open Idealize.ShloMosaic Idealize.ShloMosaic.TcCoe Idealize.SL.Sem Cert.KernelIdeal Cert.KernelIdeal.Gen Cert.Sage

variable (m : (ℓ : Loc nD τ sig) → Buf (Elt Ideal) ℓ) (c : Dev nD)

abbrev aNode : Fin 10000 → BitVec 32 := vec (α := BitVec 32) (a := 10000) (m ((c : Thread nD τ).loc main_arg0))
abbrev aSrc : Fin 160000 → BitVec 32 := vec (α := BitVec 32) (a := 160000) (m ((c : Thread nD τ).loc main_arg1))
abbrev aDst : Fin 160000 → BitVec 32 := vec (α := BitVec 32) (a := 160000) (m ((c : Thread nD τ).loc main_arg2))
abbrev aEmb : Fin 30000 → Fin 1024 → EReal := mat (α := EReal) (a := 30000) (b := 1024) (m ((c : Thread nD τ).loc main_arg3))
abbrev aW1s : Fin 1024 → Fin 1024 → EReal := mat (α := EReal) (a := 1024) (b := 1024) (m ((c : Thread nD τ).loc main_arg4))
abbrev aW1n : Fin 1024 → Fin 1024 → EReal := mat (α := EReal) (a := 1024) (b := 1024) (m ((c : Thread nD τ).loc main_arg5))
abbrev aB1 : Fin 1024 → EReal := vec (α := EReal) (a := 1024) (m ((c : Thread nD τ).loc main_arg6))
abbrev aW2s : Fin 1024 → Fin 1024 → EReal := mat (α := EReal) (a := 1024) (b := 1024) (m ((c : Thread nD τ).loc main_arg7))
abbrev aW2n : Fin 1024 → Fin 1024 → EReal := mat (α := EReal) (a := 1024) (b := 1024) (m ((c : Thread nD τ).loc main_arg8))
abbrev aB2 : Fin 1024 → EReal := vec (α := EReal) (a := 1024) (m ((c : Thread nD τ).loc main_arg9))

/-- The bias row of a `1 × 1024` array. -/
abbrev biasRow (b : (⟨2, ![1, 1024]⟩ : Shape).Idx → EReal) : Fin 1024 → EReal := fun d => mat (α := EReal) (a := 1) (b := 1024) b 0 d

end Cert.Sage.KI

end
-- ==== Proof.RegionAgg.lean ====
/-
  The two aggregation launches (40 grid points of 256 rows each): whatever the arrays hold when the region is entered,
  the output array ends as the plain matrix product of the `10240 × 10240` operand with the `10240 × 1024` operand.
  Point `t` loads rows `256 t … 256 t + 255` of the left operand and the whole right operand, multiplies them into a
  zero accumulator, and writes rows `256 t …` of the output; the 40 blocks tile the output.
-/
import proofs.«406130_j87720412054178_1_alg».proof.Proof.KArgs
import Idealize.ShloMosaic.Lib.Pipeline.Value
import Idealize.ShloMosaic.PureOps.Ideal.Laws

noncomputable section

namespace Cert.Sage.KI

open Idealize.ShloMosaic Idealize.ShloMosaic.TcCoe Idealize.SL.Sem Cert.KernelIdeal Cert.KernelIdeal.Gen Cert.Sage
open Idealize.ShloMosaic.ValueIdx

/-! ## The matrix product's operand indices -/

private theorem aggDot_lhs_0 (i : S256x1024.Idx) (q : dot_S256x10240_S10240x1024_S256x1024_1_0_0_1_n_n.contr.Idx) :
    (dot_S256x10240_S10240x1024_S256x1024_1_0_0_1_n_n.lhsIdx i q 0).val = (i 0).val := by
  unfold DotDims.lhsIdx
  rw [dif_neg (show ¬(0 : Fin S256x10240.rank) ∈ dot_S256x10240_S10240x1024_S256x1024_1_0_0_1_n_n.lhsBatch by decide), dif_pos (show (0 : Fin S256x10240.rank) ∈ dot_S256x10240_S10240x1024_S256x1024_1_0_0_1_n_n.lhsNonContracting by decide)]
  rfl
private theorem aggDot_lhs_1 (i : S256x1024.Idx) (q : dot_S256x10240_S10240x1024_S256x1024_1_0_0_1_n_n.contr.Idx) :
    (dot_S256x10240_S10240x1024_S256x1024_1_0_0_1_n_n.lhsIdx i q 1).val = (q ⟨0, by decide⟩).val :=
  dot_S256x10240_S10240x1024_S256x1024_1_0_0_1_n_n.lhsIdx_val_of_single rfl i q
private theorem aggDot_rhs_0 (i : S256x1024.Idx) (q : dot_S256x10240_S10240x1024_S256x1024_1_0_0_1_n_n.contr.Idx) :
    (dot_S256x10240_S10240x1024_S256x1024_1_0_0_1_n_n.rhsIdx i q 0).val = (q ⟨0, by decide⟩).val :=
  dot_S256x10240_S10240x1024_S256x1024_1_0_0_1_n_n.rhsIdx_val_of_single rfl i q
private theorem aggDot_rhs_1 (i : S256x1024.Idx) (q : dot_S256x10240_S10240x1024_S256x1024_1_0_0_1_n_n.contr.Idx) :
    (dot_S256x10240_S10240x1024_S256x1024_1_0_0_1_n_n.rhsIdx i q 1).val = (i 1).val := by
  unfold DotDims.rhsIdx
  rw [dif_neg (show ¬(1 : Fin S10240x1024.rank) ∈ dot_S256x10240_S10240x1024_S256x1024_1_0_0_1_n_n.rhsBatch by decide), dif_pos (show (1 : Fin S10240x1024.rank) ∈ dot_S256x10240_S10240x1024_S256x1024_1_0_0_1_n_n.rhsNonContracting by decide)]
  rfl

/-- The product into the zero accumulator, at row `p` and column `q`: the sum over the 10240 contracted positions. -/
private theorem aggDot_apply (x0 : FVec Ideal S256x10240 .bf16) (x1 : FVec Ideal S10240x1024 .bf16) (p : Fin 256) (q : Fin 1024) :
    FloatOps.matmul dot_S256x10240_S10240x1024_S256x1024_1_0_0_1_n_n none x0 x1 (constant (F := Ideal) S256x1024 .f32 0x00000000#32) (ix2 p q)
      = ∑ k : Fin 10240, x0 (ix2 p k) * x1 (ix2 k q) := by
  rw [Ideal.matmul_constant_zero_apply, ← Equiv.sum_comp (ValueIdx.contrEquiv1 dot_S256x10240_S10240x1024_S256x1024_1_0_0_1_n_n 10240 rfl rfl).symm]
  refine Finset.sum_congr rfl fun k _ => ?_
  have hk := ValueIdx.contrEquiv1_symm_val dot_S256x10240_S10240x1024_S256x1024_1_0_0_1_n_n 10240 rfl rfl k
  have el : dot_S256x10240_S10240x1024_S256x1024_1_0_0_1_n_n.lhsIdx (ix2 p q) ((ValueIdx.contrEquiv1 dot_S256x10240_S10240x1024_S256x1024_1_0_0_1_n_n 10240 rfl rfl).symm k) = ix2 p k := funext fun a => Fin.ext (by
    match a with
    | ⟨0, _⟩ => exact aggDot_lhs_0 _ _
    | ⟨1, _⟩ => exact (aggDot_lhs_1 _ _).trans hk)
  have er : dot_S256x10240_S10240x1024_S256x1024_1_0_0_1_n_n.rhsIdx (ix2 p q) ((ValueIdx.contrEquiv1 dot_S256x10240_S10240x1024_S256x1024_1_0_0_1_n_n 10240 rfl rfl).symm k) = ix2 k q := funext fun a => Fin.ext (by
    match a with
    | ⟨0, _⟩ => exact (aggDot_rhs_0 _ _).trans hk
    | ⟨1, _⟩ => exact aggDot_rhs_1 _ _)
  rw [el, er]

variable (V : (c : Dev nD) → (b : Ref sig .tc) → Buf (Elt Ideal) ((c : Thread nD τ).loc b))

private theorem aggZeroOff : (![0, 0] : Fin 2 → Nat) = fun _ => 0 := funext fun a => by fin_cases a <;> rfl

/-! ## The first launch -/

/-- The first launch's stored value at row `p`, column `q` of a block. -/
private theorem pay0_apply (x0 : Vec Ideal S256x10240 .bf16) (x1 : Vec Ideal S10240x1024 .bf16) (p : Fin 256) (q : Fin 1024) :
    k0_pay1 (F := Ideal) x0 x1 (ix2 p q) = ∑ k : Fin 10240, x0 (ix2 p k) * x1 (ix2 k q) := by
  unfold k0_pay1
  rw [truncf_apply, shapeCast_self, shapeCast_self]
  exact aggDot_apply x0 x1 p q

/-- The block index maps over the grid: the left operand's row block is the output's, every other block index is zero, and
    the output's row block is below 40. -/
private theorem rowBlock0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 39 :=
  (by decide +kernel : ∀ t : Fin grid0.N, _)

/-- Every row block of the output is some point's. -/
private theorem rowBlock0_onto : ∀ q : Fin 40, ∃ t : Fin cfg0.N, win0_2.index t = ![q.val, 0] :=
  (by decide +kernel : ∀ q : Fin 40, ∃ t : Fin grid0.N, win0_2.index t = ![q.val, 0])

/-- The left operand's block at point `t`: rows `256 · (row block) + p` of the array. -/
private theorem leftBlock0 (c : Dev nD) (t : Fin cfg0.N) (p : Fin 256) (k : Fin 10240) (r : Fin 10240)
    (hr : r.val = win0_2.index t (0 : Fin 2) * 256 + p.val) :
    (iblk0 (F := Ideal) V c 0 t : Vec Ideal S256x10240 .bf16) (ix2 p k) = (V c main_v34 : S10240x10240.Idx → EReal) (ix2 r k) := by
  obtain ⟨e0, e1, e2, e3, e4, e5⟩ := rowBlock0 t
  unfold iblk0
  rw [View.read_apply]
  show (V c main_v34 : S10240x10240.Idx → EReal) (((cfg0.win 0).blk t).view.emb (ix2 p k)) = _
  congr 1
  funext a
  apply Fin.ext
  match a with
  | ⟨0, _⟩ => show win0_0.index t (0 : Fin 2) * 256 + 1 * p.val = r.val; omega
  | ⟨1, _⟩ => show win0_0.index t (1 : Fin 2) * 10240 + 1 * k.val = k.val; omega

/-- The right operand's block at any point: the whole array. -/
private theorem rightBlock0 (c : Dev nD) (t : Fin cfg0.N) (k : Fin 10240) (q : Fin 1024) :
    (iblk0 (F := Ideal) V c 1 t : Vec Ideal S10240x1024 .bf16) (ix2 k q) = (V c main_v36 : S10240x1024.Idx → EReal) (ix2 k q) := by
  obtain ⟨e0, e1, e2, e3, e4, e5⟩ := rowBlock0 t
  unfold iblk0
  rw [View.read_apply]
  show (V c main_v36 : S10240x1024.Idx → EReal) (((cfg0.win 1).blk t).view.emb (ix2 k q)) = _
  congr 1
  funext a
  apply Fin.ext
  match a with
  | ⟨0, _⟩ => show win0_1.index t (0 : Fin 2) * 10240 + 1 * k.val = k.val; omega
  | ⟨1, _⟩ => show win0_1.index t (1 : Fin 2) * 1024 + 1 * q.val = q.val; omega

/-- What point `t` writes back: its block of the matrix product of the two arrays as the launch finds them. -/
private theorem flushed0_eq (c : Dev nD) (t : Fin cfg0.N) :
    (dat0 (F := Ideal) V c).flushed 2 t = ((cfg0.win 2).blk t).view.read (Elt Ideal)
      (arr2 (aggP (mat (α := EReal) (a := 10240) (b := 10240) (V c main_v34)) (mat (α := EReal) (a := 10240) (b := 1024) (V c main_v36)))) := by
  show (cfg0.win 2).cut (grid0.coords t) ((dat0 V c).after 2 t) = _
  rw [after0_2]
  unfold out0_2
  rw [View.canon_unit_zero aggZeroOff]
  simp only [View.ld_unit_zero (S := S256x10240) aggZeroOff, View.ld_unit_zero (S := S10240x1024) aggZeroOff]
  obtain ⟨e0, e1, e2, e3, e4, e5⟩ := rowBlock0 t
  funext j
  obtain ⟨p, q, rfl⟩ : ∃ (p : Fin 256) (q : Fin 1024), j = ix2 p q := ⟨j 0, j 1, eq_ix2 j⟩
  have hr : win0_2.index t (0 : Fin 2) * 256 + p.val < 10240 := by have := p.isLt; omega
  have hidx : ((cfg0.win 2).blk t).view.emb (ix2 p q) = (ix2 (⟨win0_2.index t (0 : Fin 2) * 256 + p.val, hr⟩ : Fin 10240) q : S10240x1024.Idx) := by
    funext a
    apply Fin.ext
    match a with
    | ⟨0, _⟩ => show win0_2.index t (0 : Fin 2) * 256 + 1 * p.val = win0_2.index t (0 : Fin 2) * 256 + p.val; omega
    | ⟨1, _⟩ => show win0_2.index t (1 : Fin 2) * 1024 + 1 * q.val = q.val; omega
  show k0_pay1 (F := Ideal) (iblk0 V c 0 t) (iblk0 V c 1 t) (ix2 p q)
    = arr2 (aggP (mat (α := EReal) (a := 10240) (b := 10240) (V c main_v34)) (mat (α := EReal) (a := 10240) (b := 1024) (V c main_v36))) (((cfg0.win 2).blk t).view.emb (ix2 p q))
  rw [hidx, arr2_apply]
  refine (pay0_apply (iblk0 V c 0 t) (iblk0 V c 1 t) p q).trans ?_
  refine Finset.sum_congr rfl fun k _ => ?_
  exact congrArg₂ (· * ·) (leftBlock0 V c t p k _ rfl) (rightBlock0 V c t k q)

/-- An index of the output array is in point `t`'s block iff each coordinate is in the block's range on its axis. -/
private theorem mem_outBlock0 (t : Fin cfg0.N) (i : S10240x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v43).slice (win0_2.rect t)).set ↔ _
  rw [View.set_slice_whole, Rect.mem_set_unit]
  exact Iff.rfl

/-- The 40 row blocks tile the output: row `r` is in the block of the point whose row block is `r / 256`. -/
private theorem cover0 (i : S10240x1024.Idx) :
    ∃ t : Fin cfg0.N, (cfg0.win 2).flush t = true ∧ i ∈ ((cfg0.win 2).blk t).view.set := by
  have hi0 : (i 0).val < 10240 := (i 0).isLt
  have hi1 : (i 1).val < 1024 := (i 1).isLt
  obtain ⟨t, ht⟩ := rowBlock0_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_outBlock0]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- The first aggregation launch: its output array (`main_v43`) after the run. -/
theorem region0_final (c : Dev nD) :
    (dat0 (F := Ideal) V c).arrAt 2 cfg0.N
      = arr2 (aggP (mat (α := EReal) (a := 10240) (b := 10240) (V c main_v34)) (mat (α := EReal) (a := 10240) (b := 1024) (V c main_v36))) :=
  (dat0 (F := Ideal) V c).arrAt_eq_of_cover 2 _ (fun t _ => flushed0_eq V c t) cover0

/-! ## The second launch -/

/-- The second launch's stored value at row `p`, column `q` of a block. -/
private theorem pay2_apply (x0 : Vec Ideal S256x10240 .bf16) (x1 : Vec Ideal S10240x1024 .bf16) (p : Fin 256) (q : Fin 1024) :
    k2_pay1 (F := Ideal) x0 x1 (ix2 p q) = ∑ k : Fin 10240, x0 (ix2 p k) * x1 (ix2 k q) := by
  unfold k2_pay1
  rw [truncf_apply, shapeCast_self, shapeCast_self]
  exact aggDot_apply x0 x1 p q

/-- The block index maps over the grid: the left operand's row block is the output's, every other block index is zero, and
    the output's row block is below 40. -/
private theorem rowBlock2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 39 :=
  (by decide +kernel : ∀ t : Fin grid2.N, _)

/-- Every row block of the output is some point's. -/
private theorem rowBlock2_onto : ∀ q : Fin 40, ∃ t : Fin cfg2.N, win2_2.index t = ![q.val, 0] :=
  (by decide +kernel : ∀ q : Fin 40, ∃ t : Fin grid2.N, win2_2.index t = ![q.val, 0])

/-- The left operand's block at point `t`: rows `256 · (row block) + p` of the array. -/
private theorem leftBlock2 (c : Dev nD) (t : Fin cfg2.N) (p : Fin 256) (k : Fin 10240) (r : Fin 10240)
    (hr : r.val = win2_2.index t (0 : Fin 2) * 256 + p.val) :
    (iblk2 (F := Ideal) V c 0 t : Vec Ideal S256x10240 .bf16) (ix2 p k) = (V c main_v34 : S10240x10240.Idx → EReal) (ix2 r k) := by
  obtain ⟨e0, e1, e2, e3, e4, e5⟩ := rowBlock2 t
  unfold iblk2
  rw [View.read_apply]
  show (V c main_v34 : S10240x10240.Idx → EReal) (((cfg2.win 0).blk t).view.emb (ix2 p k)) = _
  congr 1
  funext a
  apply Fin.ext
  match a with
  | ⟨0, _⟩ => show win2_0.index t (0 : Fin 2) * 256 + 1 * p.val = r.val; omega
  | ⟨1, _⟩ => show win2_0.index t (1 : Fin 2) * 10240 + 1 * k.val = k.val; omega

/-- The right operand's block at any point: the whole array. -/
private theorem rightBlock2 (c : Dev nD) (t : Fin cfg2.N) (k : Fin 10240) (q : Fin 1024) :
    (iblk2 (F := Ideal) V c 1 t : Vec Ideal S10240x1024 .bf16) (ix2 k q) = (V c main_v45 : S10240x1024.Idx → EReal) (ix2 k q) := by
  obtain ⟨e0, e1, e2, e3, e4, e5⟩ := rowBlock2 t
  unfold iblk2
  rw [View.read_apply]
  show (V c main_v45 : S10240x1024.Idx → EReal) (((cfg2.win 1).blk t).view.emb (ix2 k q)) = _
  congr 1
  funext a
  apply Fin.ext
  match a with
  | ⟨0, _⟩ => show win2_1.index t (0 : Fin 2) * 10240 + 1 * k.val = k.val; omega
  | ⟨1, _⟩ => show win2_1.index t (1 : Fin 2) * 1024 + 1 * q.val = q.val; omega

/-- What point `t` writes back: its block of the matrix product of the two arrays as the launch finds them. -/
private theorem flushed2_eq (c : Dev nD) (t : Fin cfg2.N) :
    (dat2 (F := Ideal) V c).flushed 2 t = ((cfg2.win 2).blk t).view.read (Elt Ideal)
      (arr2 (aggP (mat (α := EReal) (a := 10240) (b := 10240) (V c main_v34)) (mat (α := EReal) (a := 10240) (b := 1024) (V c main_v45)))) := by
  show (cfg2.win 2).cut (grid2.coords t) ((dat2 V c).after 2 t) = _
  rw [after2_2]
  unfold out2_2
  rw [View.canon_unit_zero aggZeroOff]
  simp only [View.ld_unit_zero (S := S256x10240) aggZeroOff, View.ld_unit_zero (S := S10240x1024) aggZeroOff]
  obtain ⟨e0, e1, e2, e3, e4, e5⟩ := rowBlock2 t
  funext j
  obtain ⟨p, q, rfl⟩ : ∃ (p : Fin 256) (q : Fin 1024), j = ix2 p q := ⟨j 0, j 1, eq_ix2 j⟩
  have hr : win2_2.index t (0 : Fin 2) * 256 + p.val < 10240 := by have := p.isLt; omega
  have hidx : ((cfg2.win 2).blk t).view.emb (ix2 p q) = (ix2 (⟨win2_2.index t (0 : Fin 2) * 256 + p.val, hr⟩ : Fin 10240) q : S10240x1024.Idx) := by
    funext a
    apply Fin.ext
    match a with
    | ⟨0, _⟩ => show win2_2.index t (0 : Fin 2) * 256 + 1 * p.val = win2_2.index t (0 : Fin 2) * 256 + p.val; omega
    | ⟨1, _⟩ => show win2_2.index t (1 : Fin 2) * 1024 + 1 * q.val = q.val; omega
  show k2_pay1 (F := Ideal) (iblk2 V c 0 t) (iblk2 V c 1 t) (ix2 p q)
    = arr2 (aggP (mat (α := EReal) (a := 10240) (b := 10240) (V c main_v34)) (mat (α := EReal) (a := 10240) (b := 1024) (V c main_v45))) (((cfg2.win 2).blk t).view.emb (ix2 p q))
  rw [hidx, arr2_apply]
  refine (pay2_apply (iblk2 V c 0 t) (iblk2 V c 1 t) p q).trans ?_
  refine Finset.sum_congr rfl fun k _ => ?_
  exact congrArg₂ (· * ·) (leftBlock2 V c t p k _ rfl) (rightBlock2 V c t k q)

/-- An index of the output array is in point `t`'s block iff each coordinate is in the block's range on its axis. -/
private theorem mem_outBlock2 (t : Fin cfg2.N) (i : S10240x1024.Idx) :
    i ∈ ((cfg2.win 2).blk t).view.set ↔ ∀ a : Fin 2, win2_2.index t a * S256x1024.size a ≤ (i a).val ∧ (i a).val < win2_2.index t a * S256x1024.size a + S256x1024.size a := by
  show i ∈ ((View.whole main_v46).slice (win2_2.rect t)).set ↔ _
  rw [View.set_slice_whole, Rect.mem_set_unit]
  exact Iff.rfl

/-- The 40 row blocks tile the output: row `r` is in the block of the point whose row block is `r / 256`. -/
private theorem cover2 (i : S10240x1024.Idx) :
    ∃ t : Fin cfg2.N, (cfg2.win 2).flush t = true ∧ i ∈ ((cfg2.win 2).blk t).view.set := by
  have hi0 : (i 0).val < 10240 := (i 0).isLt
  have hi1 : (i 1).val < 1024 := (i 1).isLt
  obtain ⟨t, ht⟩ := rowBlock2_onto ⟨(i 0).val / 256, by omega⟩
  have q0 : win2_2.index t (0 : Fin 2) = (i 0).val / 256 := congrFun ht 0
  have q1 : win2_2.index t (1 : Fin 2) = 0 := congrFun ht 1
  refine ⟨t, flush2_2 t, ?_⟩
  rw [mem_outBlock2]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 1024 ≤ (i 1).val ∧ (i 1).val < win2_2.index t (1 : Fin 2) * 1024 + 1024; omega

/-- The second aggregation launch: its output array (`main_v46`) after the run. -/
theorem region2_final (c : Dev nD) :
    (dat2 (F := Ideal) V c).arrAt 2 cfg2.N
      = arr2 (aggP (mat (α := EReal) (a := 10240) (b := 10240) (V c main_v34)) (mat (α := EReal) (a := 10240) (b := 1024) (V c main_v45))) :=
  (dat2 (F := Ideal) V c).arrAt_eq_of_cover 2 _ (fun t _ => flushed2_eq V c t) cover2

end Cert.Sage.KI

end
-- ==== Proof.RegionLin.lean ====
/-
  The two linear launches (20 grid points of 512 rows each): whatever the arrays hold when the region is entered, the
  output array ends as the product of the glued `10240 × 2048` features with the stacked `2048 × 1024` weights plus the
  bias row — followed by a ReLU in the first launch. Point `t` loads rows `512 t … 512 t + 511` of the features, the whole
  weights and the bias row, and writes rows `512 t …` of the output; the 20 blocks tile the output.
-/
import proofs.«406130_j87720412054178_1_alg».proof.Proof.KArgs
import Idealize.ShloMosaic.Lib.Pipeline.Value
import Idealize.ShloMosaic.PureOps.Ideal.Laws

noncomputable section

namespace Cert.Sage.KI

open Idealize.ShloMosaic Idealize.ShloMosaic.TcCoe Idealize.SL.Sem Cert.KernelIdeal Cert.KernelIdeal.Gen Cert.Sage
open Idealize.ShloMosaic.ValueIdx

/-! ## The matrix product's operand indices, axis by axis -/

theorem dotLin_lhs_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem dotLin_lhs_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem dotLin_rhs_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem dotLin_rhs_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The block product into a zero accumulator, at an index: the sum over the 2048 glued columns. -/
theorem matmulLin_apply (x0 : FVec Ideal S512x2048 .bf16) (x1 : FVec Ideal S2048x1024 .bf16) (p : Fin 512) (q : Fin 1024) :
    matmul (F := Ideal) dot_S512x2048_S2048x1024_S512x1024_1_0_0_1_n_n none x0 x1 (constant (F := Ideal) S512x1024 .f32 0x00000000#32) (ix2 p q)
      = ∑ k : Fin 2048, x0 (ix2 p k) * x1 (ix2 k q) := by
  simp only [matmul]
  rw [Ideal.matmul_constant_zero_apply, ← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 p q) ((ValueIdx.contrEquiv1 dot_S512x2048_S2048x1024_S512x1024_1_0_0_1_n_n 2048 rfl rfl).symm k) = ix2 p k := funext fun a => Fin.ext (by
    match a with
    | ⟨0, _⟩ => exact dotLin_lhs_0 _ _
    | ⟨1, _⟩ => exact (dotLin_lhs_1 _ _).trans hk)
  have er : dot_S512x2048_S2048x1024_S512x1024_1_0_0_1_n_n.rhsIdx (ix2 p q) ((ValueIdx.contrEquiv1 dot_S512x2048_S2048x1024_S512x1024_1_0_0_1_n_n 2048 rfl rfl).symm k) = ix2 k q := funext fun a => Fin.ext (by
    match a with
    | ⟨0, _⟩ => exact (dotLin_rhs_0 _ _).trans hk
    | ⟨1, _⟩ => exact dotLin_rhs_1 _ _)
  rw [el, er]

/-- The bias row broadcast down the 512 rows, at an index. -/
theorem biasRowLin_apply (x2 : FVec Ideal S1x1024 .f32) (p : Fin 512) (q : Fin 1024) :
    broadcastTo S512x1024 x2 broadcasts_S1x1024_S512x1024 (ix2 p q) = x2 (ix2 0 q) := by
  refine broadcastTo_apply x2 _ (ix2 p q) (ix2 0 q) fun a => ?_
  match a with
  | ⟨0, _⟩ => rfl
  | ⟨1, _⟩ => rfl

/-- The first launch's payload at an index: the product row plus the bias, then the maximum with zero. -/
theorem payRelu_apply (x0 : Vec Ideal S512x2048 .bf16) (x1 : Vec Ideal S2048x1024 .bf16) (x2 : Vec Ideal S1x1024 .f32)
    (p : Fin 512) (q : Fin 1024) :
    k1_pay1 (F := Ideal) x0 x1 x2 (ix2 p q) = max ((∑ k : Fin 2048, x0 (ix2 p k) * x1 (ix2 k q)) + x2 (ix2 0 q)) 0 := by
  unfold k1_pay1
  simp only [shapeCast_self]
  rw [truncf_apply, maximumf_apply, addf_apply, broadcast_apply, matmulLin_apply, biasRowLin_apply]
  show max _ (Ideal.ofBits .f32 0x00000000#32) = _
  rw [Ideal.ofBits_zero_f32]

/-- The second launch's payload at an index: the product row plus the bias. -/
theorem payLin_apply (x0 : Vec Ideal S512x2048 .bf16) (x1 : Vec Ideal S2048x1024 .bf16) (x2 : Vec Ideal S1x1024 .f32)
    (p : Fin 512) (q : Fin 1024) :
    k3_pay1 (F := Ideal) x0 x1 x2 (ix2 p q) = (∑ k : Fin 2048, x0 (ix2 p k) * x1 (ix2 k q)) + x2 (ix2 0 q) := by
  unfold k3_pay1
  simp only [shapeCast_self]
  rw [addf_apply, matmulLin_apply, biasRowLin_apply]

/-- The first launch's payload at an index, from what its three blocks hold there. -/
theorem payRelu_of_blocks (x0 : Vec Ideal S512x2048 .bf16) (x1 : Vec Ideal S2048x1024 .bf16) (x2 : Vec Ideal S1x1024 .f32)
    (X : Fin 10240 → Fin 2048 → EReal) (W : Fin 2048 → Fin 1024 → EReal) (b : Fin 1024 → EReal) (n : Fin 10240) (p : Fin 512) (q : Fin 1024)
    (h0 : ∀ k : Fin 2048, x0 (ix2 p k) = X n k) (h1 : ∀ k : Fin 2048, x1 (ix2 k q) = W k q) (h2 : x2 (ix2 0 q) = b q) :
    k1_pay1 (F := Ideal) x0 x1 x2 (ix2 p q) = linReluP X W b n q := by
  rw [payRelu_apply, h2]
  show _ = max ((∑ k : Fin 2048, X n k * W k q) + b q) 0
  rw [Finset.sum_congr rfl fun k _ => congrArg₂ (fun (a b : EReal) => a * b) (h0 k) (h1 k)]

/-- The second launch's payload at an index, from what its three blocks hold there. -/
theorem payLin_of_blocks (x0 : Vec Ideal S512x2048 .bf16) (x1 : Vec Ideal S2048x1024 .bf16) (x2 : Vec Ideal S1x1024 .f32)
    (X : Fin 10240 → Fin 2048 → EReal) (W : Fin 2048 → Fin 1024 → EReal) (b : Fin 1024 → EReal) (n : Fin 10240) (p : Fin 512) (q : Fin 1024)
    (h0 : ∀ k : Fin 2048, x0 (ix2 p k) = X n k) (h1 : ∀ k : Fin 2048, x1 (ix2 k q) = W k q) (h2 : x2 (ix2 0 q) = b q) :
    k3_pay1 (F := Ideal) x0 x1 x2 (ix2 p q) = linP X W b n q := by
  rw [payLin_apply, h2]
  show _ = (∑ k : Fin 2048, X n k * W k q) + b q
  rw [Finset.sum_congr rfl fun k _ => congrArg₂ (fun (a b : EReal) => a * b) (h0 k) (h1 k)]

theorem hzLin : (![0, 0] : Fin 2 → Nat) = fun _ => 0 := funext fun a => by fin_cases a <;> rfl

variable (V : (c : Dev nD) → (b : Ref sig .tc) → Buf (Elt Ideal) ((c : Thread nD τ).loc b))

/-! ## Launch 1: the printed index maps, decided over the grid -/

/-- Point `t` reads feature block `(t, 0)`, the whole weights and the whole bias row, and writes output block `(t, 0)`. -/
theorem idxLin1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 19 :=
  (by decide +kernel : ∀ t : Fin grid1.N, _)

/-- Every one of the 20 row blocks of the output is some point's. -/
theorem ontoLin1 : ∀ r : Fin 20, ∃ t : Fin cfg1.N, win1_3.index t = ![r.val, 0] :=
  (by decide +kernel : ∀ r : Fin 20, ∃ t : Fin grid1.N, win1_3.index t = ![r.val, 0])

/-! ## Launch 1: each input block read off its array -/

/-- The feature block at point `t` is rows `512 · r … 512 · r + 511` of the glued features, `r` the output's row block. -/
theorem featBlk1_apply (c : Dev nD) (t : Fin cfg1.N) (p : Fin 512) (k : Fin 2048) (n : Fin 10240)
    (hn : n.val = win1_3.index t (0 : Fin 2) * 512 + p.val) :
    (iblk1 (F := Ideal) V c 0 t : Vec Ideal S512x2048 .bf16) (ix2 p k)
      = mat (α := EReal) (a := 10240) (b := 2048) (V c main_v44) n k := by
  obtain ⟨e0, e1, e2, e3, e4, e5, e6, e7⟩ := idxLin1 t
  unfold iblk1
  rw [View.read_apply]
  show V c main_v44 _ = V c main_v44 (ix2 n k)
  congr 1
  funext a
  apply Fin.ext
  match a with
  | ⟨0, _⟩ => show win1_0.index t (0 : Fin 2) * 512 + 1 * p.val = n.val; omega
  | ⟨1, _⟩ => show win1_0.index t (1 : Fin 2) * 2048 + 1 * k.val = k.val; omega

/-- The weight block at every point is the whole stacked weight matrix. -/
theorem wgtBlk1_apply (c : Dev nD) (t : Fin cfg1.N) (k : Fin 2048) (q : Fin 1024) :
    (iblk1 (F := Ideal) V c 1 t : Vec Ideal S2048x1024 .bf16) (ix2 k q)
      = mat (α := EReal) (a := 2048) (b := 1024) (V c main_v38) k q := by
  obtain ⟨e0, e1, e2, e3, e4, e5, e6, e7⟩ := idxLin1 t
  unfold iblk1
  rw [View.read_apply]
  show V c main_v38 _ = V c main_v38 (ix2 k q)
  congr 1
  funext a
  apply Fin.ext
  match a with
  | ⟨0, _⟩ => show win1_1.index t (0 : Fin 2) * 2048 + 1 * k.val = k.val; omega
  | ⟨1, _⟩ => show win1_1.index t (1 : Fin 2) * 1024 + 1 * q.val = q.val; omega

/-- The bias block at every point is the whole bias row. -/
theorem biasBlk1_apply (c : Dev nD) (t : Fin cfg1.N) (q : Fin 1024) :
    (iblk1 (F := Ideal) V c 2 t : Vec Ideal S1x1024 .f32) (ix2 0 q) = biasRow (V c main_v41) q := by
  obtain ⟨e0, e1, e2, e3, e4, e5, e6, e7⟩ := idxLin1 t
  unfold iblk1
  rw [View.read_apply]
  show V c main_v41 _ = V c main_v41 (ix2 (0 : Fin 1) q)
  congr 1
  funext a
  apply Fin.ext
  match a with
  | ⟨0, _⟩ => show win1_2.index t (0 : Fin 2) * 1 + 1 * (0 : Fin 1).val = (0 : Fin 1).val; omega
  | ⟨1, _⟩ => show win1_2.index t (1 : Fin 2) * 1024 + 1 * q.val = q.val; omega

/-! ## Launch 1: what a point writes back, and the cover -/

/-- What point `t` writes back is block `t` of the product plus bias with the maximum against zero, as one array. -/
theorem flushedLin1_eq (c : Dev nD) (t : Fin cfg1.N) :
    (dat1 (F := Ideal) V c).flushed 3 t = ((cfg1.win 3).blk t).view.read (Elt Ideal)
      (arr2 (linReluP (mat (α := EReal) (a := 10240) (b := 2048) (V c main_v44)) (mat (α := EReal) (a := 2048) (b := 1024) (V c main_v38))
          (biasRow (V c main_v41)))) := by
  show (cfg1.win 3).cut (grid1.coords t) ((dat1 V c).after 3 t) = _
  rw [after1_3]
  unfold out1_3
  rw [View.canon_unit_zero hzLin]
  simp only [View.ld_unit_zero (S := S512x2048) hzLin, View.ld_unit_zero (S := S2048x1024) hzLin, View.ld_unit_zero (S := S1x1024) hzLin]
  obtain ⟨e0, e1, e2, e3, e4, e5, e6, e7⟩ := idxLin1 t
  refine funext fun (j : S512x1024.Idx) => ?_
  obtain ⟨p, q, rfl⟩ : ∃ (p : Fin 512) (q : Fin 1024), j = ix2 p q := ⟨j 0, j 1, eq_ix2 j⟩
  have hlt : win1_3.index t (0 : Fin 2) * 512 + p.val < 10240 := by have := p.isLt; omega
  have hemb : ((cfg1.win 3).blk t).view.emb (ix2 p q)
      = (ix2 (⟨win1_3.index t (0 : Fin 2) * 512 + p.val, hlt⟩ : Fin 10240) q : (⟨2, ![10240, 1024]⟩ : Shape).Idx) := by
    funext a
    apply Fin.ext
    match a with
    | ⟨0, _⟩ => show win1_3.index t (0 : Fin 2) * 512 + 1 * p.val = win1_3.index t (0 : Fin 2) * 512 + p.val; omega
    | ⟨1, _⟩ => show win1_3.index t (1 : Fin 2) * 1024 + 1 * q.val = q.val; omega
  rw [View.read_apply, hemb]
  exact payRelu_of_blocks (iblk1 (F := Ideal) V c 0 t) (iblk1 (F := Ideal) V c 1 t) (iblk1 (F := Ideal) V c 2 t) _ _ _ ⟨_, hlt⟩ p q
    (fun k => featBlk1_apply V c t p k ⟨_, hlt⟩ rfl) (fun k => wgtBlk1_apply V c t k q) (biasBlk1_apply V c t q)

/-- An index of the output array is in point `t`'s block iff each coordinate is in the block's range on its axis. -/
theorem memBlkLin1 (t : Fin cfg1.N) (i : S10240x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v45).slice (win1_3.rect t)).set ↔ _
  rw [View.set_slice_whole, Rect.mem_set_unit]
  exact Iff.rfl

/-- The 20 row blocks tile the output: row `r` is in the block of the point whose block index is `r / 512`. -/
theorem coverLin1 (i : S10240x1024.Idx) :
    ∃ t : Fin cfg1.N, (cfg1.win 3).flush t = true ∧ i ∈ ((cfg1.win 3).blk t).view.set := by
  have hi0 : (i 0).val < 10240 := (i 0).isLt
  have hi1 : (i 1).val < 1024 := (i 1).isLt
  obtain ⟨t, ht⟩ := ontoLin1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [memBlkLin1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- The first linear launch (with ReLU): its output array (`main_v45`) after the run. -/
theorem region1_final (c : Dev nD) :
    (dat1 (F := Ideal) V c).arrAt 3 cfg1.N
      = arr2 (linReluP (mat (α := EReal) (a := 10240) (b := 2048) (V c main_v44)) (mat (α := EReal) (a := 2048) (b := 1024) (V c main_v38))
          (biasRow (V c main_v41))) :=
  (dat1 (F := Ideal) V c).arrAt_eq_of_cover 3 _ (fun t _ => flushedLin1_eq V c t) coverLin1

/-! ## Launch 3: the printed index maps, decided over the grid -/

/-- Point `t` reads feature block `(t, 0)`, the whole weights and the whole bias row, and writes output block `(t, 0)`. -/
theorem idxLin3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 19 :=
  (by decide +kernel : ∀ t : Fin grid3.N, _)

/-- Every one of the 20 row blocks of the output is some point's. -/
theorem ontoLin3 : ∀ r : Fin 20, ∃ t : Fin cfg3.N, win3_3.index t = ![r.val, 0] :=
  (by decide +kernel : ∀ r : Fin 20, ∃ t : Fin grid3.N, win3_3.index t = ![r.val, 0])

/-! ## Launch 3: each input block read off its array -/

/-- The feature block at point `t` is rows `512 · r … 512 · r + 511` of the glued features, `r` the output's row block. -/
theorem featBlk3_apply (c : Dev nD) (t : Fin cfg3.N) (p : Fin 512) (k : Fin 2048) (n : Fin 10240)
    (hn : n.val = win3_3.index t (0 : Fin 2) * 512 + p.val) :
    (iblk3 (F := Ideal) V c 0 t : Vec Ideal S512x2048 .bf16) (ix2 p k)
      = mat (α := EReal) (a := 10240) (b := 2048) (V c main_v47) n k := by
  obtain ⟨e0, e1, e2, e3, e4, e5, e6, e7⟩ := idxLin3 t
  unfold iblk3
  rw [View.read_apply]
  show V c main_v47 _ = V c main_v47 (ix2 n k)
  congr 1
  funext a
  apply Fin.ext
  match a with
  | ⟨0, _⟩ => show win3_0.index t (0 : Fin 2) * 512 + 1 * p.val = n.val; omega
  | ⟨1, _⟩ => show win3_0.index t (1 : Fin 2) * 2048 + 1 * k.val = k.val; omega

/-- The weight block at every point is the whole stacked weight matrix. -/
theorem wgtBlk3_apply (c : Dev nD) (t : Fin cfg3.N) (k : Fin 2048) (q : Fin 1024) :
    (iblk3 (F := Ideal) V c 1 t : Vec Ideal S2048x1024 .bf16) (ix2 k q)
      = mat (α := EReal) (a := 2048) (b := 1024) (V c main_v40) k q := by
  obtain ⟨e0, e1, e2, e3, e4, e5, e6, e7⟩ := idxLin3 t
  unfold iblk3
  rw [View.read_apply]
  show V c main_v40 _ = V c main_v40 (ix2 k q)
  congr 1
  funext a
  apply Fin.ext
  match a with
  | ⟨0, _⟩ => show win3_1.index t (0 : Fin 2) * 2048 + 1 * k.val = k.val; omega
  | ⟨1, _⟩ => show win3_1.index t (1 : Fin 2) * 1024 + 1 * q.val = q.val; omega

/-- The bias block at every point is the whole bias row. -/
theorem biasBlk3_apply (c : Dev nD) (t : Fin cfg3.N) (q : Fin 1024) :
    (iblk3 (F := Ideal) V c 2 t : Vec Ideal S1x1024 .f32) (ix2 0 q) = biasRow (V c main_v42) q := by
  obtain ⟨e0, e1, e2, e3, e4, e5, e6, e7⟩ := idxLin3 t
  unfold iblk3
  rw [View.read_apply]
  show V c main_v42 _ = V c main_v42 (ix2 (0 : Fin 1) q)
  congr 1
  funext a
  apply Fin.ext
  match a with
  | ⟨0, _⟩ => show win3_2.index t (0 : Fin 2) * 1 + 1 * (0 : Fin 1).val = (0 : Fin 1).val; omega
  | ⟨1, _⟩ => show win3_2.index t (1 : Fin 2) * 1024 + 1 * q.val = q.val; omega

/-! ## Launch 3: what a point writes back, and the cover -/

/-- What point `t` writes back is block `t` of the product plus bias, as one array. -/
theorem flushedLin3_eq (c : Dev nD) (t : Fin cfg3.N) :
    (dat3 (F := Ideal) V c).flushed 3 t = ((cfg3.win 3).blk t).view.read (Elt Ideal)
      (arr2 (linP (mat (α := EReal) (a := 10240) (b := 2048) (V c main_v47)) (mat (α := EReal) (a := 2048) (b := 1024) (V c main_v40))
          (biasRow (V c main_v42)))) := by
  show (cfg3.win 3).cut (grid3.coords t) ((dat3 V c).after 3 t) = _
  rw [after3_3]
  unfold out3_3
  rw [View.canon_unit_zero hzLin]
  simp only [View.ld_unit_zero (S := S512x2048) hzLin, View.ld_unit_zero (S := S2048x1024) hzLin, View.ld_unit_zero (S := S1x1024) hzLin]
  obtain ⟨e0, e1, e2, e3, e4, e5, e6, e7⟩ := idxLin3 t
  refine funext fun (j : S512x1024.Idx) => ?_
  obtain ⟨p, q, rfl⟩ : ∃ (p : Fin 512) (q : Fin 1024), j = ix2 p q := ⟨j 0, j 1, eq_ix2 j⟩
  have hlt : win3_3.index t (0 : Fin 2) * 512 + p.val < 10240 := by have := p.isLt; omega
  have hemb : ((cfg3.win 3).blk t).view.emb (ix2 p q)
      = (ix2 (⟨win3_3.index t (0 : Fin 2) * 512 + p.val, hlt⟩ : Fin 10240) q : (⟨2, ![10240, 1024]⟩ : Shape).Idx) := by
    funext a
    apply Fin.ext
    match a with
    | ⟨0, _⟩ => show win3_3.index t (0 : Fin 2) * 512 + 1 * p.val = win3_3.index t (0 : Fin 2) * 512 + p.val; omega
    | ⟨1, _⟩ => show win3_3.index t (1 : Fin 2) * 1024 + 1 * q.val = q.val; omega
  rw [View.read_apply, hemb]
  exact payLin_of_blocks (iblk3 (F := Ideal) V c 0 t) (iblk3 (F := Ideal) V c 1 t) (iblk3 (F := Ideal) V c 2 t) _ _ _ ⟨_, hlt⟩ p q
    (fun k => featBlk3_apply V c t p k ⟨_, hlt⟩ rfl) (fun k => wgtBlk3_apply V c t k q) (biasBlk3_apply V c t q)

/-- An index of the output array is in point `t`'s block iff each coordinate is in the block's range on its axis. -/
theorem memBlkLin3 (t : Fin cfg3.N) (i : S10240x1024.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole main_v48).slice (win3_3.rect t)).set ↔ _
  rw [View.set_slice_whole, Rect.mem_set_unit]
  exact Iff.rfl

/-- The 20 row blocks tile the output: row `r` is in the block of the point whose block index is `r / 512`. -/
theorem coverLin3 (i : S10240x1024.Idx) :
    ∃ t : Fin cfg3.N, (cfg3.win 3).flush t = true ∧ i ∈ ((cfg3.win 3).blk t).view.set := by
  have hi0 : (i 0).val < 10240 := (i 0).isLt
  have hi1 : (i 1).val < 1024 := (i 1).isLt
  obtain ⟨t, ht⟩ := ontoLin3 ⟨(i 0).val / 512, by omega⟩
  have q0 : win3_3.index t (0 : Fin 2) = (i 0).val / 512 := congrFun ht 0
  have q1 : win3_3.index t (1 : Fin 2) = 0 := congrFun ht 1
  refine ⟨t, flush3_3 t, ?_⟩
  rw [memBlkLin3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1024 ≤ (i 1).val ∧ (i 1).val < win3_3.index t (1 : Fin 2) * 1024 + 1024; omega

/-- The second linear launch (no activation): its output array (`main_v48`) after the run. -/
theorem region3_final (c : Dev nD) :
    (dat3 (F := Ideal) V c).arrAt 3 cfg3.N
      = arr2 (linP (mat (α := EReal) (a := 10240) (b := 2048) (V c main_v47)) (mat (α := EReal) (a := 2048) (b := 1024) (V c main_v40))
          (biasRow (V c main_v42))) :=
  (dat3 (F := Ideal) V c).arrAt_eq_of_cover 3 _ (fun t _ => flushedLin3_eq V c t) coverLin3

end Cert.Sage.KI

end
-- ==== Proof.KHostAmean.lean ====
/-
  The kernel program's host preamble builds the normalized adjacency: the in-degrees by an accumulating scatter of ones
  at the destination words, their reciprocals `1 / max (deg, 1)`, the edge counts by an accumulating scatter of ones at
  the (destination, source) pairs into a zero `10240 × 10240` matrix, and the row-wise product of the two. With every
  source and destination word a node number below 10000, no word is negative (the wrap-around of negative words is the
  identity) and every update lands inside the matrix, so entry `(n, m)` is the number of edges `m → n` times the
  reciprocal of `max (in-degree n) 1`.
-/
import proofs.«406130_j87720412054178_1_alg».proof.Proof.KArgs
import Idealize.ShloMosaic.Lib.StableHlo.Run
import Idealize.ShloMosaic.Lib.IdealHost
import Idealize.ShloMosaic.Lib.Pipeline.Value

noncomputable section

namespace Cert.Sage.KI

open Idealize.ShloMosaic Idealize.ShloMosaic.TcCoe Idealize.SL.Sem Cert.KernelIdeal Cert.KernelIdeal.Gen Cert.Sage

namespace Amean

open Idealize.ShloMosaic.ValueIdx

/-! ## The preamble's operations composed, as functions of the destination and source words -/

/-- The in-degrees on the padded axis: ones accumulated at the destination words. -/
def degTerm (dst : IVec S160000 32) : FVec Ideal S10240 .f32 :=
  Host.scatterAdd (F := Ideal) scatter_S10240_S160000x1_S160000_n_0_0_1
    (broadcastInDim S10240 ![] bcast_S_S10240 (constant (F := Ideal) S_ .f32 0x00000000#32))
    (broadcastInDim S160000x1 ![0] bcast_S160000_S160000x1_0 dst)
    (broadcastInDim S160000 ![] bcast_S_S160000 (constant (F := Ideal) S_ .f32 0x3F800000#32))

/-- The reciprocals `1 / max (deg, 1)`. -/
def invTerm (dst : IVec S160000 32) : FVec Ideal S10240 .f32 :=
  Host.divf (F := Ideal) (broadcastInDim S10240 ![] bcast_S_S10240 (constant (F := Ideal) S_ .f32 0x3F800000#32))
    (maximumf (F := Ideal) (degTerm dst) (broadcastInDim S10240 ![] bcast_S_S10240 (constant (F := Ideal) S_ .f32 0x3F800000#32)))

/-- A word with the matrix's height added when it is negative. -/
def wrapTerm (x : IVec S160000 32) : IVec S160000 32 :=
  select (cmpi .slt x (broadcastInDim S160000 ![] bcast_S_S160000 (constantI S_ 32 0#32)))
    (addi x (broadcastInDim S160000 ![] bcast_S_S160000 (constantI S_ 32 10240#32))) x

/-- The (destination, source) pairs as a two-column array. -/
def pairTerm (dst src : IVec S160000 32) : IVec S160000x2 32 :=
  concatenate S160000x2 1 [⟨S160000x1, broadcastInDim S160000x1 ![0] bcast_S160000_S160000x1_0 (wrapTerm dst)⟩,
    ⟨S160000x1, broadcastInDim S160000x1 ![0] bcast_S160000_S160000x1_0 (wrapTerm src)⟩] concatenates_S160000x1_S160000x1_S160000x2_d1

/-- The edge counts: ones accumulated at the pairs into a zero matrix. -/
def countTerm (dst src : IVec S160000 32) : FVec Ideal S10240x10240 .f32 :=
  Host.scatterAdd (F := Ideal) scatter_S10240x10240_S160000x2_S160000_n_01_01_1
    (broadcastInDim S10240x10240 ![] bcast_S_S10240x10240 (constant (F := Ideal) S_ .f32 0x00000000#32))
    (pairTerm dst src)
    (broadcastInDim S160000 ![] bcast_S_S160000 (constant (F := Ideal) S_ .f32 0x3F800000#32))

/-- The normalized adjacency: the counts times the row's reciprocal, narrowed. -/
def ameanTerm (dst src : IVec S160000 32) : FVec Ideal S10240x10240 .bf16 :=
  truncf .bf16 (mulf (F := Ideal) (countTerm dst src)
    (broadcastInDim S10240x10240 ![0, 1] bcast_S10240x1_S10240x10240_0_1
      (broadcastInDim S10240x1 ![0] bcast_S10240_S10240x1_0 (invTerm dst)))) bitsLt_bf16_f32

/-! ## The scatters' dimension numbers opened -/

/-- A rank-1 index set is its one coordinate's range. -/
def idxEquiv1 {n : Nat} : (⟨1, ![n]⟩ : Shape).Idx ≃ Fin n where
  toFun i := i 0
  invFun p := ix1 p
  left_inv i := (eq_ix1 i).symm
  right_inv _ := rfl

theorem start1 (j : S160000.Idx) (idx : IVec S160000x1 32) :
    scatter_S10240_S160000x1_S160000_n_0_0_1.start j idx 0 = (idx (ix2 (j 0) 0)).toInt := by
  unfold ScatterDims.start
  rw [dif_pos (show (0 : Fin 1) ∈ scatter_S10240_S160000x1_S160000_n_0_0_1.scatterDimsToOperandDims from List.mem_singleton.mpr rfl)]
  congr 2
  funext b; refine Fin.ext ?_
  match b with
  | ⟨0, _⟩ => rfl
  | ⟨1, _⟩ => rfl

theorem window1 (j : S160000.Idx) : scatter_S10240_S160000x1_S160000_n_0_0_1.window j 0 = 0 := by
  unfold ScatterDims.window
  rw [dif_neg (by decide)]

theorem resultIdx1_iff (j : S160000.Idx) (idx : IVec S160000x1 32) (i : S10240.Idx) :
    scatter_S10240_S160000x1_S160000_n_0_0_1.resultIdx? j idx = some i ↔ (idx (ix2 (j 0) 0)).toInt = ((i 0).val : ℤ) := by
  have hi : (i 0).val < 10240 := (i 0).isLt
  unfold ScatterDims.resultIdx?
  constructor
  · intro h
    split at h
    · next hb =>
      have h0 := congrFun (Option.some.inj h) 0
      have hv := congrArg Fin.val h0
      have hb0 := hb 0
      rw [start1, window1] at hb0
      simp only [start1, window1] at hv
      omega
    · exact absurd h (by simp)
  · intro h
    have hb : ∀ a, 0 ≤ scatter_S10240_S160000x1_S160000_n_0_0_1.start j idx a + scatter_S10240_S160000x1_S160000_n_0_0_1.window j a ∧
        scatter_S10240_S160000x1_S160000_n_0_0_1.start j idx a + scatter_S10240_S160000x1_S160000_n_0_0_1.window j a < S10240.size a := by
      intro a
      obtain rfl : a = 0 := Subsingleton.elim _ _
      rw [start1, window1, h]
      show (0 : ℤ) ≤ ((i 0).val : ℤ) + ((0 : ℕ) : ℤ) ∧ ((i 0).val : ℤ) + ((0 : ℕ) : ℤ) < ((10240 : ℕ) : ℤ)
      omega
    rw [dif_pos hb]
    congr 1
    funext a
    obtain rfl : a = 0 := Subsingleton.elim _ _
    refine Fin.ext ?_
    simp only [start1, window1, h]
    omega

theorem start2_0 (j : S160000.Idx) (idx : IVec S160000x2 32) :
    scatter_S10240x10240_S160000x2_S160000_n_01_01_1.start j idx 0 = (idx (ix2 (j 0) 0)).toInt := by
  unfold ScatterDims.start
  rw [dif_pos (show (0 : Fin 2) ∈ scatter_S10240x10240_S160000x2_S160000_n_01_01_1.scatterDimsToOperandDims by decide)]
  congr 2
  funext b; refine Fin.ext ?_
  match b with
  | ⟨0, _⟩ => rfl
  | ⟨1, _⟩ => rfl

theorem start2_1 (j : S160000.Idx) (idx : IVec S160000x2 32) :
    scatter_S10240x10240_S160000x2_S160000_n_01_01_1.start j idx 1 = (idx (ix2 (j 0) 1)).toInt := by
  unfold ScatterDims.start
  rw [dif_pos (show (1 : Fin 2) ∈ scatter_S10240x10240_S160000x2_S160000_n_01_01_1.scatterDimsToOperandDims by decide)]
  congr 2
  funext b; refine Fin.ext ?_
  match b with
  | ⟨0, _⟩ => rfl
  | ⟨1, _⟩ => rfl

theorem window2 (j : S160000.Idx) (a : Fin 2) : scatter_S10240x10240_S160000x2_S160000_n_01_01_1.window j a = 0 := by
  unfold ScatterDims.window
  rw [dif_neg (by revert a; decide)]

theorem resultIdx2_iff (j : S160000.Idx) (idx : IVec S160000x2 32) (i : S10240x10240.Idx) :
    scatter_S10240x10240_S160000x2_S160000_n_01_01_1.resultIdx? j idx = some i
      ↔ (idx (ix2 (j 0) 0)).toInt = ((i 0).val : ℤ) ∧ (idx (ix2 (j 0) 1)).toInt = ((i 1).val : ℤ) := by
  have hi0 : (i 0).val < 10240 := (i 0).isLt
  have hi1 : (i 1).val < 10240 := (i 1).isLt
  unfold ScatterDims.resultIdx?
  constructor
  · intro h
    split at h
    · next hb =>
      have h0 := congrArg Fin.val (congrFun (Option.some.inj h) 0)
      have h1 := congrArg Fin.val (congrFun (Option.some.inj h) 1)
      have hb0 := hb 0
      have hb1 := hb 1
      rw [start2_0, window2] at hb0
      rw [start2_1, window2] at hb1
      simp only [start2_0, window2] at h0
      simp only [start2_1, window2] at h1
      omega
    · exact absurd h (by simp)
  · rintro ⟨h0, h1⟩
    have hb : ∀ a, 0 ≤ scatter_S10240x10240_S160000x2_S160000_n_01_01_1.start j idx a + scatter_S10240x10240_S160000x2_S160000_n_01_01_1.window j a ∧
        scatter_S10240x10240_S160000x2_S160000_n_01_01_1.start j idx a + scatter_S10240x10240_S160000x2_S160000_n_01_01_1.window j a < S10240x10240.size a := by
      intro a
      match a with
      | ⟨0, _⟩ =>
        show 0 ≤ scatter_S10240x10240_S160000x2_S160000_n_01_01_1.start j idx 0 + scatter_S10240x10240_S160000x2_S160000_n_01_01_1.window j 0 ∧
          scatter_S10240x10240_S160000x2_S160000_n_01_01_1.start j idx 0 + scatter_S10240x10240_S160000x2_S160000_n_01_01_1.window j 0 < ((10240 : ℕ) : ℤ)
        rw [start2_0, window2, h0]; omega
      | ⟨1, _⟩ =>
        show 0 ≤ scatter_S10240x10240_S160000x2_S160000_n_01_01_1.start j idx 1 + scatter_S10240x10240_S160000x2_S160000_n_01_01_1.window j 1 ∧
          scatter_S10240x10240_S160000x2_S160000_n_01_01_1.start j idx 1 + scatter_S10240x10240_S160000x2_S160000_n_01_01_1.window j 1 < ((10240 : ℕ) : ℤ)
        rw [start2_1, window2, h1]; omega
    rw [dif_pos hb]
    congr 1
    funext a
    refine Fin.ext ?_
    match a with
    | ⟨0, _⟩ =>
      show (scatter_S10240x10240_S160000x2_S160000_n_01_01_1.start j idx 0 + scatter_S10240x10240_S160000x2_S160000_n_01_01_1.window j 0).toNat = (i 0).val
      rw [start2_0, window2, h0]; omega
    | ⟨1, _⟩ =>
      show (scatter_S10240x10240_S160000x2_S160000_n_01_01_1.start j idx 1 + scatter_S10240x10240_S160000x2_S160000_n_01_01_1.window j 1).toNat = (i 1).val
      rw [start2_1, window2, h1]; omega

/-! ## The operations read at an index -/

/-- A word that reads as a natural number is not negative, so the wrap-around leaves it. -/
theorem wrapTerm_apply (x : IVec S160000 32) (j : S160000.Idx) (v : ℕ) (hv : (x j).toInt = (v : ℤ)) :
    wrapTerm x j = x j := by
  show Scalar.select (IntOp.cmpi .slt (x j) 0#32) (IntOp.addi (x j) 10240#32) (x j) = x j
  have h0 : IntOp.cmpi .slt (x j) 0#32 = 0#1 := by
    show BitVec.ofBool ((x j).slt 0#32) = 0#1
    rw [BitVec.slt_eq_decide, hv, BitVec.toInt_zero]
    have : ¬ ((v : ℤ) < 0) := by omega
    simp [this]
  rw [h0, select_zero]

/-- A column of a rank-1 array reads the array. -/
theorem col_apply {α : Type} (x : S160000.Idx → α) (e : Fin 160000) :
    broadcastInDim S160000x1 ![0] bcast_S160000_S160000x1_0 x (ix2 (n0 := 160000) (n1 := 1) e 0) = x (ix1 e) :=
  broadcastInDim_apply _ _ x _ (ix1 e) (fun a => by
    obtain rfl : a = 0 := Subsingleton.elim _ _
    rw [if_neg (by decide)]; rfl)

theorem pairTerm_apply0 (dst src : IVec S160000 32) (e : Fin 160000) :
    pairTerm dst src (ix2 (n0 := 160000) (n1 := 2) e 0) = wrapTerm dst (ix1 e) := by
  unfold pairTerm
  rw [concatenate_pair_apply_left (t := S160000x2) (s₁ := S160000x1) (s₂ := S160000x1) (1 : Fin 2) _ _ _
    (ix2 (n0 := 160000) (n1 := 2) e 0) rfl (ix2 (n0 := 160000) (n1 := 1) e 0)
    (fun b => match b with | ⟨0, _⟩ => rfl | ⟨1, _⟩ => rfl)]
  exact col_apply _ e

theorem pairTerm_apply1 (dst src : IVec S160000 32) (e : Fin 160000) :
    pairTerm dst src (ix2 (n0 := 160000) (n1 := 2) e 1) = wrapTerm src (ix1 e) := by
  unfold pairTerm
  rw [concatenate_pair_apply_right (t := S160000x2) (s₁ := S160000x1) (s₂ := S160000x1) (1 : Fin 2) _ _ _
    (ix2 (n0 := 160000) (n1 := 2) e 1) rfl rfl (ix2 (n0 := 160000) (n1 := 1) e 0)
    (fun b => match b with | ⟨0, _⟩ => fun _ => rfl | ⟨1, _⟩ => fun h => absurd rfl h) rfl]
  exact col_apply _ e

/-- The splat of the f32 pattern of one reads one. -/
theorem one_apply (T : Shape) (h : S_.BroadcastsInDim T ![]) (j : T.Idx) :
    (broadcastInDim T ![] h (constant (F := Ideal) S_ .f32 0x3F800000#32)) j = 1 := Ideal.ofBits_one_f32

/-- The splat of the f32 pattern of zero reads zero. -/
theorem zero_apply (T : Shape) (h : S_.BroadcastsInDim T ![]) (j : T.Idx) :
    (broadcastInDim T ![] h (constant (F := Ideal) S_ .f32 0x00000000#32)) j = 0 := Ideal.ofBits_zero_f32

section Graph

variable (dst src : IVec S160000 32) (s t : Fin 160000 → Fin 10000)
  (hs : ∀ e, (src (ix1 e)).toInt = ((s e).val : ℤ)) (ht : ∀ e, (dst (ix1 e)).toInt = ((t e).val : ℤ))

include ht in
/-- The in-degree scatter at a node: the number of edges into it. -/
theorem degTerm_apply (n : Fin 10240) : degTerm dst (ix1 n) = degP t n := by
  unfold degTerm degP
  show Ideal.hostScatterAdd _ _ _ _ (ix1 n) = _
  unfold Ideal.hostScatterAdd
  rw [zero_apply, zero_add]
  refine Finset.sum_equiv idxEquiv1 ?_ ?_
  · intro j
    obtain ⟨e, rfl⟩ : ∃ e, j = ix1 e := ⟨j 0, eq_ix1 j⟩
    simp only [Finset.mem_filter, Finset.mem_univ, true_and]
    rw [resultIdx1_iff]
    show (broadcastInDim S160000x1 ![0] bcast_S160000_S160000x1_0 dst (ix2 (n0 := 160000) (n1 := 1) e 0)).toInt = ((n.val : ℕ) : ℤ) ↔ (t e).val = n.val
    rw [col_apply, ht]
    exact Nat.cast_inj
  · intro j _
    exact one_apply _ _ _

include ht in
theorem invTerm_apply (n : Fin 10240) : invTerm dst (ix1 n) = Ideal.div 1 (max (degP t n) 1) := by
  unfold invTerm
  rw [hostDivf_apply, maximumf_apply, one_apply, degTerm_apply dst t ht]

include hs ht in
/-- The pair scatter at an entry: the number of edges with that destination and source. -/
theorem countTerm_apply (n k : Fin 10240) :
    countTerm dst src (ix2 n k) = ∑ e ∈ Finset.univ.filter (fun e => (t e).val = n.val ∧ (s e).val = k.val), (1 : EReal) := by
  unfold countTerm
  show Ideal.hostScatterAdd _ _ _ _ (ix2 n k) = _
  unfold Ideal.hostScatterAdd
  rw [zero_apply, zero_add]
  refine Finset.sum_equiv idxEquiv1 ?_ ?_
  · intro j
    obtain ⟨e, rfl⟩ : ∃ e, j = ix1 e := ⟨j 0, eq_ix1 j⟩
    simp only [Finset.mem_filter, Finset.mem_univ, true_and]
    rw [resultIdx2_iff]
    show (pairTerm dst src (ix2 (n0 := 160000) (n1 := 2) e 0)).toInt = ((n.val : ℕ) : ℤ) ∧
        (pairTerm dst src (ix2 (n0 := 160000) (n1 := 2) e 1)).toInt = ((k.val : ℕ) : ℤ) ↔ (t e).val = n.val ∧ (s e).val = k.val
    rw [pairTerm_apply0, pairTerm_apply1, wrapTerm_apply dst _ _ (ht e), wrapTerm_apply src _ _ (hs e), ht, hs]
    exact and_congr Nat.cast_inj Nat.cast_inj
  · intro j _
    exact one_apply _ _ _

include hs ht in
/-- The normalized adjacency at an entry. -/
theorem ameanTerm_apply (n k : Fin 10240) : ameanTerm dst src (ix2 n k) = ameanP s t n k := by
  unfold ameanTerm ameanP
  rw [truncf_apply, mulf_apply,
    broadcastInDim_apply _ _ _ (ix2 n k) (ix2 (n0 := 10240) (n1 := 1) n 0)
      (fun a => match a with
        | ⟨0, _⟩ => by show n.val = if (10240 : ℕ) = 1 then 0 else n.val; rw [if_neg (by decide)]
        | ⟨1, _⟩ => by show (0 : ℕ) = if (1 : ℕ) = 1 then 0 else k.val; rw [if_pos rfl]),
    broadcastInDim_apply _ _ _ (ix2 (n0 := 10240) (n1 := 1) n 0) (ix1 n)
      (fun a => by obtain rfl : a = 0 := Subsingleton.elim _ _; rw [if_neg (by decide)]; rfl),
    countTerm_apply dst src s t hs ht, invTerm_apply dst t ht]

end Graph

/-! ## The adjacency operand is that composition of the launch's destination and source words -/

section Structural

variable (m : (ℓ : Loc nD τ sig) → Buf (Elt Ideal) ℓ) (ρ : Dev nD → PrngReg)

set_option maxHeartbeats 1000000 in
/-- Neither later stretch of host operations writes the adjacency; the first stretch's operations compose to
    `ameanTerm` of the destination and source arguments. -/
theorem V3_struct (c : Dev nD) :
    V3 m ρ c main_v34 = ameanTerm (m ((c : Thread nD τ).loc main_arg2)) (m ((c : Thread nD τ).loc main_arg1)) := by
  have e2 : W3 m ρ c (Proc.devRef .tc main_v34) = W2 m ρ c (Proc.devRef .tc main_v34) :=
    StableHlo.after_of_forall_not_mem (b := Proc.devRef .tc main_v34) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e1 : W2 m ρ c (Proc.devRef .tc main_v34) = W1 m ρ c (Proc.devRef .tc main_v34) :=
    StableHlo.after_of_forall_not_mem (b := Proc.devRef .tc main_v34) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  have e0 : W1 m ρ c (Proc.devRef .tc main_v34) = ameanTerm (m ((c : Thread nD τ).loc main_arg2)) (m ((c : Thread nD τ).loc main_arg1)) := by
    show StableHlo.after hostOps0 (W0 m ρ c) (Proc.devRef .tc main_v34) = _
    after_results_simp
    rfl
  exact (e2.trans e1).trans e0

end Structural

end Amean

variable (m : (ℓ : Loc nD τ sig) → Buf (Elt Ideal) ℓ) (ρ : Dev nD → PrngReg)

/-- The adjacency operand of both aggregation launches, as the first launch finds it. -/
theorem V3_amean (c : Dev nD) (s t : Fin 160000 → Fin 10000)
    (hs : ∀ e, (aSrc m c e).toInt = ((s e).val : ℤ)) (ht : ∀ e, (aDst m c e).toInt = ((t e).val : ℤ)) :
    mat (α := EReal) (a := 10240) (b := 10240) (V3 m ρ c main_v34) = ameanP s t := by
  rw [Amean.V3_struct m ρ c]
  funext n k
  exact Amean.ameanTerm_apply _ _ s t hs ht n k

end Cert.Sage.KI

end
-- ==== Proof.KHostRest.lean ====
/-
  The rest of the kernel program's host side, read at an index: the embedding lookup padded with 240 zero rows, the two
  weight matrices of each layer stacked, the biases as rows, the side-by-side gluing of two feature blocks between the
  launches, and the final cut back to 10000 rows.
-/
import proofs.«406130_j87720412054178_1_alg».proof.Proof.KArgs
import Idealize.ShloMosaic.Lib.StableHlo.Run
import Idealize.ShloMosaic.Lib.Pipeline.Value
import Idealize.ShloMosaic.Lib.KernelVsHost

noncomputable section

namespace Cert.Sage.KI

open Idealize.ShloMosaic Idealize.ShloMosaic.TcCoe Idealize.SL.Sem Cert.KernelIdeal Cert.KernelIdeal.Gen Cert.Sage
open Idealize.ShloMosaic.ValueIdx

variable (m : (ℓ : Loc nD τ sig) → Buf (Elt Ideal) ℓ) (ρ : Dev nD → PrngReg)

/-- A buffer no operation of a stretch writes keeps its contents across the stretch. -/
local macro "stretch_keeps" l:ident : tactic =>
  `(tactic| (refine StableHlo.after_of_forall_not_mem _ _ (List.forall_iff_forall_mem.mp ?_)
             simp only [$l:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The launched arrays the later stretches read -/

/-- The first layer's self weights are as launched when the third stretch of host operations starts. -/
private theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by stretch_keeps hostOps0_1
    _ = W0 m ρ c (Proc.devRef .tc main_arg4) := by stretch_keeps hostOps0
    _ = m ((c : Thread nD τ).loc main_arg4) := rfl

/-- So are the first layer's neighbour weights. -/
private theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := by stretch_keeps hostOps0_1
    _ = W0 m ρ c (Proc.devRef .tc main_arg5) := by stretch_keeps hostOps0
    _ = m ((c : Thread nD τ).loc main_arg5) := rfl

/-- So is the first layer's bias. -/
private theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by stretch_keeps hostOps0_1
    _ = W0 m ρ c (Proc.devRef .tc main_arg6) := by stretch_keeps hostOps0
    _ = m ((c : Thread nD τ).loc main_arg6) := rfl

/-- So are the second layer's self weights. -/
private theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := by stretch_keeps hostOps0_1
    _ = W0 m ρ c (Proc.devRef .tc main_arg7) := by stretch_keeps hostOps0
    _ = m ((c : Thread nD τ).loc main_arg7) := rfl

/-- So are the second layer's neighbour weights. -/
private theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := by stretch_keeps hostOps0_1
    _ = W0 m ρ c (Proc.devRef .tc main_arg8) := by stretch_keeps hostOps0
    _ = m ((c : Thread nD τ).loc main_arg8) := rfl

/-- So is the second layer's bias. -/
private theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := by stretch_keeps hostOps0_1
    _ = W0 m ρ c (Proc.devRef .tc main_arg9) := by stretch_keeps hostOps0
    _ = m ((c : Thread nD τ).loc main_arg9) := rfl

/-! ## The stacked weights and the bias rows -/

/-- The first layer's stacked weights as the stacking of the launched arrays. -/
private theorem V3_v38_eq (c : Dev nD) :
    (V3 m ρ c main_v38 : S2048x1024.Idx → EReal)
      = concatenate (α := EReal) S2048x1024 0 [⟨S1024x1024, m ((c : Thread nD τ).loc main_arg4)⟩, ⟨S1024x1024, m ((c : Thread nD τ).loc main_arg5)⟩]
          Facts₀.concatenates_S1024x1024_S1024x1024_S2048x1024_d0 := by
  rw [← W2_arg4 m ρ c, ← W2_arg5 m ρ c]
  show StableHlo.after hostOps0_2 (W2 m ρ c) (Proc.devRef .tc main_v38) = _
  generalize W2 m ρ c = V
  after_results
  rfl

/-- The second layer's stacked weights as the stacking of the launched arrays. -/
private theorem V3_v40_eq (c : Dev nD) :
    (V3 m ρ c main_v40 : S2048x1024.Idx → EReal)
      = concatenate (α := EReal) S2048x1024 0 [⟨S1024x1024, m ((c : Thread nD τ).loc main_arg7)⟩, ⟨S1024x1024, m ((c : Thread nD τ).loc main_arg8)⟩]
          Facts₀.concatenates_S1024x1024_S1024x1024_S2048x1024_d0 := by
  rw [← W2_arg7 m ρ c, ← W2_arg8 m ρ c]
  show StableHlo.after hostOps0_2 (W2 m ρ c) (Proc.devRef .tc main_v40) = _
  generalize W2 m ρ c = V
  after_results
  rfl

/-- The first layer's bias row as the launched bias recast. -/
private theorem V3_v41_eq (c : Dev nD) :
    (V3 m ρ c main_v41 : S1x1024.Idx → EReal)
      = shapeCast (α := EReal) S1x1024 (m ((c : Thread nD τ).loc main_arg6)) Facts₀.shapeCasts_S1024_S1x1024 := by
  rw [← W2_arg6 m ρ c]
  show StableHlo.after hostOps0_2 (W2 m ρ c) (Proc.devRef .tc main_v41) = _
  generalize W2 m ρ c = V
  after_results
  rfl

/-- The second layer's bias row as the launched bias recast. -/
private theorem V3_v42_eq (c : Dev nD) :
    (V3 m ρ c main_v42 : S1x1024.Idx → EReal)
      = shapeCast (α := EReal) S1x1024 (m ((c : Thread nD τ).loc main_arg9)) Facts₀.shapeCasts_S1024_S1x1024 := by
  rw [← W2_arg9 m ρ c]
  show StableHlo.after hostOps0_2 (W2 m ρ c) (Proc.devRef .tc main_v42) = _
  generalize W2 m ρ c = V
  after_results
  rfl

/-- Two `1024 × 1024` matrices stacked, read by rows. -/
private theorem catRows_read (a b : (⟨2, ![1024, 1024]⟩ : Shape).Idx → EReal) :
    mat (α := EReal) (a := 2048) (b := 1024)
        (concatenate (α := EReal) S2048x1024 0 [⟨S1024x1024, a⟩, ⟨S1024x1024, b⟩] Facts₀.concatenates_S1024x1024_S1024x1024_S2048x1024_d0)
      = catRows (mat a) (mat b) := by
  funext p q
  show concatenate (α := EReal) S2048x1024 0 [⟨S1024x1024, a⟩, ⟨S1024x1024, b⟩] _ (ix2 p q)
    = if h : p.val < 1024 then a (ix2 ⟨p.val, h⟩ q) else b (ix2 ⟨p.val - 1024, by omega⟩ q)
  by_cases h : p.val < 1024
  · rw [dif_pos h]
    exact concatenate_pair_apply_left (0 : Fin 2) a b _ (ix2 p q) rfl (ix2 ⟨p.val, h⟩ q)
      (fun c => match c with | ⟨0, _⟩ => rfl | ⟨1, _⟩ => rfl)
  · rw [dif_neg h]
    exact concatenate_pair_apply_right (0 : Fin 2) a b _ (ix2 p q) rfl rfl (ix2 ⟨p.val - 1024, by omega⟩ q)
      (fun c hc => match c, hc with | ⟨0, _⟩, hc => absurd rfl hc | ⟨1, _⟩, _ => rfl)
      (by show p.val - 1024 + 1024 = p.val; omega)

/-- A vector recast as one row, read along the row. -/
private theorem row_read (x : (⟨1, ![1024]⟩ : Shape).Idx → EReal) :
    biasRow (shapeCast (α := EReal) S1x1024 x Facts₀.shapeCasts_S1024_S1x1024) = vec x := by
  funext d
  show shapeCast (α := EReal) S1x1024 x _ (ix2 (0 : Fin 1) d) = x (ix1 d)
  exact shapeCast_apply x _ (ix2 (0 : Fin 1) d) (ix1 d) (by
    rw [Shape.rowMajor_val_two, Shape.rowMajor_val_one]; show d.val = 0 * 1024 + d.val; omega)

/-- The first layer's stacked weights. -/
theorem V3_w1 (c : Dev nD) :
    mat (α := EReal) (a := 2048) (b := 1024) (V3 m ρ c main_v38) = catRows (aW1s m c) (aW1n m c) := by
  rw [V3_v38_eq m ρ c]
  exact catRows_read _ _

/-- The second layer's stacked weights. -/
theorem V3_w2 (c : Dev nD) :
    mat (α := EReal) (a := 2048) (b := 1024) (V3 m ρ c main_v40) = catRows (aW2s m c) (aW2n m c) := by
  rw [V3_v40_eq m ρ c]
  exact catRows_read _ _

/-- The first layer's bias row. -/
theorem V3_b1 (c : Dev nD) : biasRow (V3 m ρ c main_v41) = aB1 m c := by
  rw [V3_v41_eq m ρ c]
  exact row_read _

/-- The second layer's bias row. -/
theorem V3_b2 (c : Dev nD) : biasRow (V3 m ρ c main_v42) = aB2 m c := by
  rw [V3_v42_eq m ρ c]
  exact row_read _

/-! ## The padded embedding lookup -/

/-- The lookup's result after the first stretch, as the gather of the launched table at the launched node ids' words. -/
private theorem W1_v6_eq (c : Dev nD) :
    (W1 m ρ c (Proc.devRef .tc main_v6) : S10000x1024.Idx → EReal)
      = Host.gather (s := S30000x1024) (α := EReal) gather_S30000x1024_S10000x1_S10000x1024_1_0_n_n_0_1_11024 (m ((c : Thread nD τ).loc main_arg3))
          (broadcastInDim (s := S10000) S10000x1 ![0] Facts₀.bcast_S10000_S10000x1_0
            (select (cmpi .slt (m ((c : Thread nD τ).loc main_arg0)) (broadcastInDim (s := S_) S10000 ![] Facts₀.bcast_S_S10000 (constantI S_ 32 0#32)))
              (addi (m ((c : Thread nD τ).loc main_arg0)) (broadcastInDim (s := S_) S10000 ![] Facts₀.bcast_S_S10000 (constantI S_ 32 30000#32)))
              (m ((c : Thread nD τ).loc main_arg0)))) := by
  have h0 : W0 m ρ c (Proc.devRef .tc main_arg0) = m ((c : Thread nD τ).loc main_arg0) := rfl
  have h3 : W0 m ρ c (Proc.devRef .tc main_arg3) = m ((c : Thread nD τ).loc main_arg3) := rfl
  rw [← h0, ← h3]
  show StableHlo.after hostOps0 (W0 m ρ c) (Proc.devRef .tc main_v6) = _
  generalize W0 m ρ c = V
  after_results_simp <;> rfl

/-- The integer zero the padding value is converted from. -/
private theorem W1_c10_eq (c : Dev nD) :
    (W1 m ρ c (Proc.devRef .tc main_c_10) : S_.Idx → BitVec 32) = constantI S_ 32 0#32 := by
  show StableHlo.after hostOps0 (W0 m ρ c) (Proc.devRef .tc main_c_10) = _
  generalize W0 m ρ c = V
  after_results_simp <;> rfl

/-- The padded lookup after the second stretch. -/
private theorem W2_v35_eq (c : Dev nD) :
    (W2 m ρ c (Proc.devRef .tc main_v35) : S10240x1024.Idx → EReal)
      = pad (s := S10000x1024) (α := EReal) (u := S_) S10240x1024 ![0, 0] ![240, 0] ![0, 0] (W1 m ρ c (Proc.devRef .tc main_v6))
          (sitofp (F := Ideal) (s := S_) (w := 32) .f32 (W1 m ρ c (Proc.devRef .tc main_c_10)))
          Facts₀.pads_S10000x1024_S10240x1024_02400_000 Facts₀.h_S_ := by
  show StableHlo.after hostOps0_1 (W1 m ρ c) (Proc.devRef .tc main_v35) = _
  generalize W1 m ρ c = V
  after_results
  rfl

/-- The features the first launches read are that padded lookup. -/
private theorem V3_v36_eq (c : Dev nD) :
    (V3 m ρ c main_v36 : S10240x1024.Idx → EReal) = (W2 m ρ c (Proc.devRef .tc main_v35) : S10240x1024.Idx → EReal) := by
  show StableHlo.after hostOps0_2 (W2 m ρ c) (Proc.devRef .tc main_v36) = _
  generalize W2 m ρ c = V
  after_results
  rfl

/-- The lookup's gather read at `(n, d)`: the table's row named by the start word at `(n, 0)`, read signed and clamped
    into the table, at column `d`. -/
private theorem gather_read (emb : (⟨2, ![30000, 1024]⟩ : Shape).Idx → EReal) (idx : IVec (⟨2, ![10000, 1]⟩ : Shape) 32)
    (n : Fin 10000) (d : Fin 1024) :
    Host.gather (s := S30000x1024) (α := EReal) gather_S30000x1024_S10000x1_S10000x1024_1_0_n_n_0_1_11024 emb idx (ix2 n d)
      = emb (ix2 (⟨min (idx (ix2 n (0 : Fin 1))).toInt.toNat 29999, by omega⟩ : Fin 30000) d) := by
  unfold Host.gather
  refine congrArg emb (funext fun a => Fin.ext ?_)
  match a with
  | ⟨0, _⟩ =>
    show gather_S30000x1024_S10000x1_S10000x1024_1_0_n_n_0_1_11024.start (ix2 n d) idx 0 + gather_S30000x1024_S10000x1_S10000x1024_1_0_n_n_0_1_11024.batchCoord (ix2 n d) 0 + gather_S30000x1024_S10000x1_S10000x1024_1_0_n_n_0_1_11024.offCoord (ix2 n d) 0
      = min (idx (ix2 n (0 : Fin 1))).toInt.toNat 29999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S30000x1024_S10000x1_S10000x1024_1_0_n_n_0_1_11024.startIndexMap from List.mem_singleton.mpr rfl)]
    have hsi : gather_S30000x1024_S10000x1_S10000x1024_1_0_n_n_0_1_11024.siIdx (ix2 n d) ⟨List.idxOf (0 : Fin 2) gather_S30000x1024_S10000x1_S10000x1024_1_0_n_n_0_1_11024.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S30000x1024_S10000x1_S10000x1024_1_0_n_n_0_1_11024.start (ix2 n d) idx 1 + gather_S30000x1024_S10000x1_S10000x1024_1_0_n_n_0_1_11024.batchCoord (ix2 n d) 1 + gather_S30000x1024_S10000x1_S10000x1024_1_0_n_n_0_1_11024.offCoord (ix2 n d) 1 = d.val
    have hs : gather_S30000x1024_S10000x1_S10000x1024_1_0_n_n_0_1_11024.start (ix2 n d) idx 1 = 0 := by
      unfold GatherDims.start
      exact dif_neg (fun h => absurd (List.mem_singleton.mp h) (by decide))
    have hb : gather_S30000x1024_S10000x1_S10000x1024_1_0_n_n_0_1_11024.batchCoord (ix2 n d) 1 = 0 := GatherDims.batchCoord_eq_zero _ _ _ List.not_mem_nil
    have ho : gather_S30000x1024_S10000x1_S10000x1024_1_0_n_n_0_1_11024.offCoord (ix2 n d) 1 = d.val := by
      unfold GatherDims.offCoord
      rw [dif_pos (show (1 : Fin 2) ∈ gather_S30000x1024_S10000x1_S10000x1024_1_0_n_n_0_1_11024.sKept from by decide)]
      rfl
    rw [hs, hb, ho]
    omega

/-- The start word at `(n, 0)`: the node id, the table's height added when it is negative. -/
private theorem word_read (node : IVec (⟨1, ![10000]⟩ : Shape) 32) (n : Fin 10000) :
    broadcastInDim (s := S10000) S10000x1 ![0] Facts₀.bcast_S10000_S10000x1_0
        (select (cmpi .slt node (broadcastInDim (s := S_) S10000 ![] Facts₀.bcast_S_S10000 (constantI S_ 32 0#32)))
          (addi node (broadcastInDim (s := S_) S10000 ![] Facts₀.bcast_S_S10000 (constantI S_ 32 30000#32))) node)
        (ix2 n (0 : Fin 1))
      = nodeWord (node (ix1 n)) := by
  refine (broadcastInDim_apply _ _ _ (ix2 n (0 : Fin 1)) (ix1 n) (fun a => match a with | ⟨0, _⟩ => rfl)).trans ?_
  rfl

/-- The lookup padded with rows of the converted integer zero, read by rows. -/
private theorem padRows_read (x : (⟨2, ![10000, 1024]⟩ : Shape).Idx → EReal) :
    mat (α := EReal) (a := 10240) (b := 1024)
        (pad (s := S10000x1024) (α := EReal) (u := S_) S10240x1024 ![0, 0] ![240, 0] ![0, 0] x
          (sitofp (F := Ideal) (s := S_) (w := 32) .f32 (constantI S_ 32 0#32))
          Facts₀.pads_S10000x1024_S10240x1024_02400_000 Facts₀.h_S_)
      = padRows (mat x) := by
  funext n d
  show pad (s := S10000x1024) (α := EReal) (u := S_) S10240x1024 ![0, 0] ![240, 0] ![0, 0] x _ _ _ (ix2 n d)
    = if h : n.val < 10000 then x (ix2 ⟨n.val, h⟩ d) else 0
  by_cases h : n.val < 10000
  · rw [dif_pos h]
    exact pad_apply_of_inside _ _ _ x _ _ _ (ix2 n d) (ix2 ⟨n.val, h⟩ d)
      (fun a => match a with
        | ⟨0, _⟩ => by show n.val = 0 + n.val * (0 + 1); omega
        | ⟨1, _⟩ => by show d.val = 0 + d.val * (0 + 1); omega)
  · rw [dif_neg h]
    refine (pad_apply_of_not_inside _ _ _ x _ _ _ (ix2 n d) (0 : Fin 2) (by
      show ¬(0 ≤ n.val ∧ (n.val - 0) % (0 + 1) = 0 ∧ (n.val - 0) / (0 + 1) < 10000); omega)).trans ?_
    exact sitofp_zero (φ := .f32)

/-- The padded features the first launches read. -/
theorem V3_xpad (c : Dev nD) :
    mat (α := EReal) (a := 10240) (b := 1024) (V3 m ρ c main_v36) = padRows (xRows (aNode m c) (aEmb m c)) := by
  rw [V3_v36_eq m ρ c, W2_v35_eq m ρ c, W1_c10_eq m ρ c, padRows_read]
  refine congrArg padRows ?_
  rw [W1_v6_eq m ρ c]
  funext n d
  refine (gather_read _ _ n d).trans ?_
  show m ((c : Thread nD τ).loc main_arg3) (ix2 _ d) = m ((c : Thread nD τ).loc main_arg3) (ix2 (nodeRow (m ((c : Thread nD τ).loc main_arg0) (ix1 n))) d)
  refine congrArg (fun r => m ((c : Thread nD τ).loc main_arg3) (ix2 r d)) (Fin.ext ?_)
  show min (_ : BitVec 32).toInt.toNat 29999 = min (nodeWord (m ((c : Thread nD τ).loc main_arg0) (ix1 n))).toInt.toNat 29999
  rw [word_read]

/-! ## The gluing between the launches and the final cut -/

/-- Two `10240 × 1024` blocks glued along the columns. -/
theorem cat_read (a b : (⟨2, ![10240, 1024]⟩ : Shape).Idx → EReal) :
    mat (α := EReal) (a := 10240) (b := 2048)
        (concatenate (α := EReal) S10240x2048 1 [⟨S10240x1024, a⟩, ⟨S10240x1024, b⟩] Facts₀.concatenates_S10240x1024_S10240x1024_S10240x2048_d1)
      = catCols (mat a) (mat b) := by
  funext p q
  show concatenate (α := EReal) S10240x2048 1 [⟨S10240x1024, a⟩, ⟨S10240x1024, b⟩] _ (ix2 p q)
    = if h : q.val < 1024 then a (ix2 p ⟨q.val, h⟩) else b (ix2 p ⟨q.val - 1024, by omega⟩)
  by_cases h : q.val < 1024
  · rw [dif_pos h]
    exact concatenate_pair_apply_left (1 : Fin 2) a b _ (ix2 p q) rfl (ix2 p ⟨q.val, h⟩)
      (fun c => match c with | ⟨0, _⟩ => rfl | ⟨1, _⟩ => rfl)
  · rw [dif_neg h]
    exact concatenate_pair_apply_right (1 : Fin 2) a b _ (ix2 p q) rfl rfl (ix2 p ⟨q.val - 1024, by omega⟩)
      (fun c hc => match c, hc with | ⟨0, _⟩, _ => rfl | ⟨1, _⟩, hc => absurd rfl hc)
      (by show q.val - 1024 + 1024 = q.val; omega)

/-- The first 10000 rows of a `10240 × 1024` array. -/
theorem slice_read (X : (⟨2, ![10240, 1024]⟩ : Shape).Idx → EReal) :
    mat (α := EReal) (a := 10000) (b := 1024) (extractStridedSlice (α := EReal) S10000x1024 ![0, 0] X Facts₀.slices_S10240x1024_S10000x1024_0_0)
      = dropPad (mat X) := by
  funext p q
  show extractStridedSlice (α := EReal) S10000x1024 ![0, 0] X _ (ix2 p q) = X (ix2 ⟨p.val, by omega⟩ q)
  exact extractStridedSlice_apply _ X _ (ix2 p q) (ix2 ⟨p.val, by omega⟩ q)
    (fun c => match c with | ⟨0, _⟩ => by show p.val = 0 + p.val; omega | ⟨1, _⟩ => by show q.val = 0 + q.val; omega)

end Cert.Sage.KI

end
-- ==== Proof.KernelValue.lean ====
/-
  The idealized kernel program's result array, read back through @main: the last host operation keeps the first 10000
  rows of the second linear launch's output; that launch reads the second layer's glued features, which the host glued
  from the first linear launch's output and the second aggregation's; and so on back to the host preamble's adjacency,
  padded features, stacked weights and bias rows. A launch leaves its input arrays as it found them and every buffer it
  does not name untouched; a host operation changes only the buffer it writes.
-/
import proofs.«406130_j87720412054178_1_alg».proof.Proof.KArgs
import proofs.«406130_j87720412054178_1_alg».proof.Proof.RegionAgg
import proofs.«406130_j87720412054178_1_alg».proof.Proof.RegionLin
import proofs.«406130_j87720412054178_1_alg».proof.Proof.KHostAmean
import proofs.«406130_j87720412054178_1_alg».proof.Proof.KHostRest
import Idealize.ShloMosaic.Lib.StableHlo.Run

set_option maxRecDepth 16384

noncomputable section

namespace Cert.Sage.KI

open Idealize.ShloMosaic Idealize.ShloMosaic.TcCoe Idealize.ShloMosaic.Tactic Idealize.SL.Sem Cert.KernelIdeal Cert.KernelIdeal.Gen Cert.Sage
open Idealize.ShloMosaic.Pipeline (Dat)

variable (m : (ℓ : Loc nD τ sig) → Buf (Elt Ideal) ℓ) (ρ : Dev nD → PrngReg)

/-- A stretch of host operations leaves a buffer none of them writes as it was. -/
local macro "untouched_by " ops:ident : term => `(StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## What each launch leaves in the arrays it names -/

/-- The first aggregation leaves the adjacency as it found it. -/
theorem W4_v34 (c : Dev nD) : W4 m ρ c (Proc.devRef .tc main_v34) = V3 m ρ c main_v34 :=
  (W4_arr m ρ c 0).trans (((dat0 (F := Ideal) (V3 m ρ) c).arrAt_in 0 rfl cfg0.N).trans (A_eq0 (V3 m ρ) c 0))

/-- … and the padded features. -/
theorem W4_v36 (c : Dev nD) : W4 m ρ c (Proc.devRef .tc main_v36) = V3 m ρ c main_v36 :=
  (W4_arr m ρ c 1).trans (((dat0 (F := Ideal) (V3 m ρ) c).arrAt_in 1 rfl cfg0.N).trans (A_eq0 (V3 m ρ) c 1))

/-- … and writes the product into its output. -/
theorem W4_v43 (c : Dev nD) : W4 m ρ c (Proc.devRef .tc main_v43)
    = arr2 (aggP (mat (α := EReal) (a := 10240) (b := 10240) (V3 m ρ c main_v34)) (mat (α := EReal) (a := 10240) (b := 1024) (V3 m ρ c main_v36))) :=
  (W4_arr m ρ c 2).trans (region0_final (V3 m ρ) c)

/-- A buffer the first aggregation does not name, through it and the gluing after it. -/
theorem W5_of_V3 (c : Dev nD) (b : Ref sig .tc) (h0 : ∀ w, Pipeline.arrRef spec0 w ≠ b)
    (h1 : W5 m ρ c (Proc.devRef .tc b) = W4 m ρ c (Proc.devRef .tc b)) : W5 m ρ c (Proc.devRef .tc b) = V3 m ρ c b :=
  h1.trans (W4_of_ne m ρ c b h0)

theorem V5_v38 (c : Dev nD) : V5 m ρ c main_v38 = V3 m ρ c main_v38 :=
  W5_of_V3 m ρ c main_v38 (by decide) (untouched_by hostOps1)
theorem V5_v41 (c : Dev nD) : V5 m ρ c main_v41 = V3 m ρ c main_v41 :=
  W5_of_V3 m ρ c main_v41 (by decide) (untouched_by hostOps1)
theorem V5_v34 (c : Dev nD) : V5 m ρ c main_v34 = V3 m ρ c main_v34 :=
  (show W5 m ρ c (Proc.devRef .tc main_v34) = W4 m ρ c (Proc.devRef .tc main_v34) from untouched_by hostOps1).trans (W4_v34 m ρ c)
theorem V5_v40 (c : Dev nD) : V5 m ρ c main_v40 = V3 m ρ c main_v40 :=
  W5_of_V3 m ρ c main_v40 (by decide) (untouched_by hostOps1)
theorem V5_v42 (c : Dev nD) : V5 m ρ c main_v42 = V3 m ρ c main_v42 :=
  W5_of_V3 m ρ c main_v42 (by decide) (untouched_by hostOps1)

/-- The first layer's glued features. -/
theorem V5_v44 (c : Dev nD) : V5 m ρ c main_v44
    = concatenate (α := EReal) S10240x2048 1 [⟨S10240x1024, W4 m ρ c (Proc.devRef .tc main_v36)⟩, ⟨S10240x1024, W4 m ρ c (Proc.devRef .tc main_v43)⟩]
        Facts₀.concatenates_S10240x1024_S10240x1024_S10240x2048_d1 := by
  show StableHlo.after hostOps1 (W4 m ρ c) (Proc.devRef .tc main_v44) = _
  after_results

/-- The first linear launch's output. -/
theorem W6_v45 (c : Dev nD) : W6 m ρ c (Proc.devRef .tc main_v45)
    = arr2 (linReluP (mat (α := EReal) (a := 10240) (b := 2048) (V5 m ρ c main_v44)) (mat (α := EReal) (a := 2048) (b := 1024) (V5 m ρ c main_v38))
        (biasRow (V5 m ρ c main_v41))) :=
  (W6_arr m ρ c 3).trans (region1_final (V5 m ρ) c)

theorem V6_v34 (c : Dev nD) : V6 m ρ c main_v34 = V3 m ρ c main_v34 :=
  (W6_of_ne m ρ c main_v34 (by decide)).trans (V5_v34 m ρ c)
theorem V6_v40 (c : Dev nD) : V6 m ρ c main_v40 = V3 m ρ c main_v40 :=
  (W6_of_ne m ρ c main_v40 (by decide)).trans (V5_v40 m ρ c)
theorem V6_v42 (c : Dev nD) : V6 m ρ c main_v42 = V3 m ρ c main_v42 :=
  (W6_of_ne m ρ c main_v42 (by decide)).trans (V5_v42 m ρ c)

/-- The second aggregation leaves the first layer's output as it found it. -/
theorem W7_v45 (c : Dev nD) : W7 m ρ c (Proc.devRef .tc main_v45) = V6 m ρ c main_v45 :=
  (W7_arr m ρ c 1).trans (((dat2 (F := Ideal) (V6 m ρ) c).arrAt_in 1 rfl cfg2.N).trans (A_eq2 (V6 m ρ) c 1))

/-- … and writes the product into its output. -/
theorem W7_v46 (c : Dev nD) : W7 m ρ c (Proc.devRef .tc main_v46)
    = arr2 (aggP (mat (α := EReal) (a := 10240) (b := 10240) (V6 m ρ c main_v34)) (mat (α := EReal) (a := 10240) (b := 1024) (V6 m ρ c main_v45))) :=
  (W7_arr m ρ c 2).trans (region2_final (V6 m ρ) c)

theorem V8_v40 (c : Dev nD) : V8 m ρ c main_v40 = V3 m ρ c main_v40 :=
  (show W8 m ρ c (Proc.devRef .tc main_v40) = W7 m ρ c (Proc.devRef .tc main_v40) from untouched_by hostOps3).trans
    ((W7_of_ne m ρ c main_v40 (by decide)).trans (V6_v40 m ρ c))
theorem V8_v42 (c : Dev nD) : V8 m ρ c main_v42 = V3 m ρ c main_v42 :=
  (show W8 m ρ c (Proc.devRef .tc main_v42) = W7 m ρ c (Proc.devRef .tc main_v42) from untouched_by hostOps3).trans
    ((W7_of_ne m ρ c main_v42 (by decide)).trans (V6_v42 m ρ c))

/-- The second layer's glued features. -/
theorem V8_v47 (c : Dev nD) : V8 m ρ c main_v47
    = concatenate (α := EReal) S10240x2048 1 [⟨S10240x1024, W7 m ρ c (Proc.devRef .tc main_v45)⟩, ⟨S10240x1024, W7 m ρ c (Proc.devRef .tc main_v46)⟩]
        Facts₀.concatenates_S10240x1024_S10240x1024_S10240x2048_d1 := by
  show StableHlo.after hostOps3 (W7 m ρ c) (Proc.devRef .tc main_v47) = _
  after_results

/-- The second linear launch's output. -/
theorem W9_v48 (c : Dev nD) : W9 m ρ c (Proc.devRef .tc main_v48)
    = arr2 (linP (mat (α := EReal) (a := 10240) (b := 2048) (V8 m ρ c main_v47)) (mat (α := EReal) (a := 2048) (b := 1024) (V8 m ρ c main_v40))
        (biasRow (V8 m ρ c main_v42))) :=
  (W9_arr m ρ c 3).trans (region3_final (V8 m ρ) c)

/-- The result: the first 10000 rows of that output. -/
theorem W10_v49 (c : Dev nD) : W10 m ρ c (Proc.devRef .tc main_v49)
    = extractStridedSlice (α := EReal) S10000x1024 ![0, 0] (W9 m ρ c (Proc.devRef .tc main_v48)) Facts₀.slices_S10240x1024_S10000x1024_0_0 := by
  show StableHlo.after hostOps4 (W9 m ρ c) (Proc.devRef .tc main_v49) = _
  after_results

/-! ## The result as the kernel's mathematics of the arguments -/

section Value

variable (c : Dev nD) (s t : Fin 160000 → Fin 10000)
  (hs : ∀ e, (aSrc m c e).toInt = ((s e).val : ℤ)) (ht : ∀ e, (aDst m c e).toInt = ((t e).val : ℤ))
include hs ht

/-- The first layer's aggregation. -/
theorem mat_v43 : mat (α := EReal) (a := 10240) (b := 1024) (W4 m ρ c (Proc.devRef .tc main_v43))
    = aggP (ameanP s t) (padRows (xRows (aNode m c) (aEmb m c))) := by
  rw [W4_v43, mat_arr2, V3_amean m ρ c s t hs ht, V3_xpad]

/-- The first layer's output on the padded axis. -/
theorem mat_v45 : mat (α := EReal) (a := 10240) (b := 1024) (W6 m ρ c (Proc.devRef .tc main_v45))
    = linReluP (catCols (padRows (xRows (aNode m c) (aEmb m c))) (aggP (ameanP s t) (padRows (xRows (aNode m c) (aEmb m c)))))
        (catRows (aW1s m c) (aW1n m c)) (aB1 m c) := by
  rw [W6_v45, mat_arr2, V5_v44, cat_read, mat_v43 m ρ c s t hs ht, W4_v36, V3_xpad, V5_v38, V3_w1, V5_v41, V3_b1]

/-- The second layer's aggregation. -/
theorem mat_v46 : mat (α := EReal) (a := 10240) (b := 1024) (W7 m ρ c (Proc.devRef .tc main_v46))
    = aggP (ameanP s t) (linReluP (catCols (padRows (xRows (aNode m c) (aEmb m c))) (aggP (ameanP s t) (padRows (xRows (aNode m c) (aEmb m c)))))
        (catRows (aW1s m c) (aW1n m c)) (aB1 m c)) := by
  rw [W7_v46, mat_arr2, V6_v34, V3_amean m ρ c s t hs ht]
  show aggP (ameanP s t) (mat (α := EReal) (a := 10240) (b := 1024) (W6 m ρ c (Proc.devRef .tc main_v45))) = _
  rw [mat_v45 m ρ c s t hs ht]

/-- THE RESULT ARRAY is the kernel's dense two-layer computation of the arguments. -/
theorem kernel_value : W10 m ρ c (Proc.devRef .tc main_v49)
    = arr2 (kerOut s t (xRows (aNode m c) (aEmb m c)) (aW1s m c) (aW1n m c) (aB1 m c) (aW2s m c) (aW2n m c) (aB2 m c)) := by
  rw [← arr2_mat (W10 m ρ c (Proc.devRef .tc main_v49)), W10_v49, slice_read, W9_v48, mat_arr2, V8_v47, cat_read, W7_v45,
    mat_v46 m ρ c s t hs ht, V8_v40, V3_w2, V8_v42, V3_b2]
  show arr2 (dropPad (linP (catCols (mat (α := EReal) (a := 10240) (b := 1024) (W6 m ρ c (Proc.devRef .tc main_v45))) _) _ _)) = _
  rw [mat_v45 m ρ c s t hs ht]
  rfl

end Value

end Cert.Sage.KI

end
-- ==== Proof.RefValue.lean ====
/-
  The idealized reference, read at an index. Its run ends at the composed term of its operations; with every source and
  destination word a node number below 10000 the look-ups read the rows the words name (no wrap, no clamp) and the
  accumulating scatters add exactly the updates of the edges into each node, so the term is two mean-aggregating layers
  over the edge endpoints, a ReLU between them.
-/
import proofs.«406130_j87720412054178_1_alg».proof.Proof.Gen.ReferenceIdeal.Run
import proofs.«406130_j87720412054178_1_alg».proof.Proof.Gen.ReferenceIdeal.Read
import proofs.«406130_j87720412054178_1_alg».proof.Proof.Spec
import Idealize.ShloMosaic.Lib.IdealHost

noncomputable section

namespace Cert.Sage.RI

open Idealize.ShloMosaic Idealize.ShloMosaic.TcCoe Idealize.SL.Sem Cert.ReferenceIdeal Cert.ReferenceIdeal.Gen Cert.ReferenceIdeal.Read Cert.Sage
open Idealize.ShloMosaic.ValueIdx

/-- A row look-up in the 10000-row features: result row `e` is the row the start word names, read signed and clamped. -/
theorem gather_rows_apply {α : Type} (h : S10000x1024.Idx → α) (idx : IVec S160000x1 32) (e : Fin 160000) (d : Fin 1024) :
    Host.gather gather_S10000x1024_S160000x1_S160000x1024_1_0_n_n_0_1_11024 h idx (ix2 e d)
      = h (ix2 (⟨min (idx (ix2 e (0 : Fin 1))).toInt.toNat 9999, by omega⟩ : Fin 10000) d) := by
  unfold Host.gather
  congr 1
  funext a
  refine Fin.ext ?_
  match a with
  | ⟨0, _⟩ =>
    show gather_S10000x1024_S160000x1_S160000x1024_1_0_n_n_0_1_11024.start (ix2 e d) idx 0
        + gather_S10000x1024_S160000x1_S160000x1024_1_0_n_n_0_1_11024.batchCoord (ix2 e d) 0
        + gather_S10000x1024_S160000x1_S160000x1024_1_0_n_n_0_1_11024.offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x1024_S160000x1_S160000x1024_1_0_n_n_0_1_11024.startIndexMap from List.mem_singleton.mpr rfl)]
    have hsi : gather_S10000x1024_S160000x1_S160000x1024_1_0_n_n_0_1_11024.siIdx (ix2 e d) ⟨List.idxOf (0 : Fin 2) gather_S10000x1024_S160000x1_S160000x1024_1_0_n_n_0_1_11024.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S10000x1024_S160000x1_S160000x1024_1_0_n_n_0_1_11024.start (ix2 e d) idx 1
        + gather_S10000x1024_S160000x1_S160000x1024_1_0_n_n_0_1_11024.batchCoord (ix2 e d) 1
        + gather_S10000x1024_S160000x1_S160000x1024_1_0_n_n_0_1_11024.offCoord (ix2 e d) 1 = _
    rw [GatherDims.batchCoord_eq_zero _ _ _ List.not_mem_nil]
    unfold GatherDims.start
    rw [dif_neg (show ¬ (1 : Fin 2) ∈ gather_S10000x1024_S160000x1_S160000x1024_1_0_n_n_0_1_11024.startIndexMap by decide)]
    unfold GatherDims.offCoord
    rw [dif_pos (show (1 : Fin 2) ∈ gather_S10000x1024_S160000x1_S160000x1024_1_0_n_n_0_1_11024.sKept by decide)]
    have hk : ∀ (hp : List.idxOf (1 : Fin 2) gather_S10000x1024_S160000x1_S160000x1024_1_0_n_n_0_1_11024.sKept
          < gather_S10000x1024_S160000x1_S160000x1024_1_0_n_n_0_1_11024.offsetDims.length),
        gather_S10000x1024_S160000x1_S160000x1024_1_0_n_n_0_1_11024.offsetDims[List.idxOf (1 : Fin 2) gather_S10000x1024_S160000x1_S160000x1024_1_0_n_n_0_1_11024.sKept]'hp
          = (1 : Fin 2) := by decide
    rw [hk]
    simp only [Nat.zero_add]

/-- A row look-up in the 30000-row table: result row `e` is the row the start word names, read signed and clamped. -/
theorem gather_emb_apply {α : Type} (h : S30000x1024.Idx → α) (idx : IVec S10000x1 32) (e : Fin 10000) (d : Fin 1024) :
    Host.gather gather_S30000x1024_S10000x1_S10000x1024_1_0_n_n_0_1_11024 h idx (ix2 e d)
      = h (ix2 (⟨min (idx (ix2 e (0 : Fin 1))).toInt.toNat 29999, by omega⟩ : Fin 30000) d) := by
  unfold Host.gather
  congr 1
  funext a
  refine Fin.ext ?_
  match a with
  | ⟨0, _⟩ =>
    show gather_S30000x1024_S10000x1_S10000x1024_1_0_n_n_0_1_11024.start (ix2 e d) idx 0
        + gather_S30000x1024_S10000x1_S10000x1024_1_0_n_n_0_1_11024.batchCoord (ix2 e d) 0
        + gather_S30000x1024_S10000x1_S10000x1024_1_0_n_n_0_1_11024.offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S30000x1024_S10000x1_S10000x1024_1_0_n_n_0_1_11024.startIndexMap from List.mem_singleton.mpr rfl)]
    have hsi : gather_S30000x1024_S10000x1_S10000x1024_1_0_n_n_0_1_11024.siIdx (ix2 e d) ⟨List.idxOf (0 : Fin 2) gather_S30000x1024_S10000x1_S10000x1024_1_0_n_n_0_1_11024.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S30000x1024_S10000x1_S10000x1024_1_0_n_n_0_1_11024.start (ix2 e d) idx 1
        + gather_S30000x1024_S10000x1_S10000x1024_1_0_n_n_0_1_11024.batchCoord (ix2 e d) 1
        + gather_S30000x1024_S10000x1_S10000x1024_1_0_n_n_0_1_11024.offCoord (ix2 e d) 1 = _
    rw [GatherDims.batchCoord_eq_zero _ _ _ List.not_mem_nil]
    unfold GatherDims.start
    rw [dif_neg (show ¬ (1 : Fin 2) ∈ gather_S30000x1024_S10000x1_S10000x1024_1_0_n_n_0_1_11024.startIndexMap by decide)]
    unfold GatherDims.offCoord
    rw [dif_pos (show (1 : Fin 2) ∈ gather_S30000x1024_S10000x1_S10000x1024_1_0_n_n_0_1_11024.sKept by decide)]
    have hk : ∀ (hp : List.idxOf (1 : Fin 2) gather_S30000x1024_S10000x1_S10000x1024_1_0_n_n_0_1_11024.sKept
          < gather_S30000x1024_S10000x1_S10000x1024_1_0_n_n_0_1_11024.offsetDims.length),
        gather_S30000x1024_S10000x1_S10000x1024_1_0_n_n_0_1_11024.offsetDims[List.idxOf (1 : Fin 2) gather_S30000x1024_S10000x1_S10000x1024_1_0_n_n_0_1_11024.sKept]'hp
          = (1 : Fin 2) := by decide
    rw [hk]
    simp only [Nat.zero_add]

/-- A rank-1 index set is its one coordinate's range. -/
def idxEquiv1 {n : Nat} : (⟨1, ![n]⟩ : Shape).Idx ≃ Fin n where
  toFun i := i 0
  invFun p := ix1 p
  left_inv i := (eq_ix1 i).symm
  right_inv _ := rfl

/-- The degree scatter lands the update of edge `e` at the node its destination word names, when that word reads as a
    node number. -/
theorem resultIdx_deg (idx : IVec S160000x1 32) (e : Fin 160000) (m : Fin 10000)
    (hm : (idx (ix2 e (0 : Fin 1))).toInt = (m.val : ℤ)) :
    scatter_S10000_S160000x1_S160000_n_0_0_1.resultIdx? (ix1 e) idx = some (ix1 m) := by
  have hst : ∀ a, scatter_S10000_S160000x1_S160000_n_0_0_1.start (ix1 e) idx a = (m.val : ℤ) := by
    intro a
    match a with
    | ⟨0, _⟩ =>
      show scatter_S10000_S160000x1_S160000_n_0_0_1.start (ix1 e) idx 0 = _
      unfold ScatterDims.start
      rw [dif_pos (show (0 : Fin 1) ∈ scatter_S10000_S160000x1_S160000_n_0_0_1.scatterDimsToOperandDims from List.mem_singleton.mpr rfl)]
      have hsi : scatter_S10000_S160000x1_S160000_n_0_0_1.siIdx (ix1 e) ⟨List.idxOf (0 : Fin 1) scatter_S10000_S160000x1_S160000_n_0_0_1.scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi, hm]
  have hw : ∀ a, scatter_S10000_S160000x1_S160000_n_0_0_1.window (ix1 e) a = 0 := by
    intro a
    match a with
    | ⟨0, _⟩ =>
      show scatter_S10000_S160000x1_S160000_n_0_0_1.window (ix1 e) 0 = 0
      unfold ScatterDims.window
      rw [dif_neg (show ¬ (0 : Fin 1) ∈ scatter_S10000_S160000x1_S160000_n_0_0_1.sKept by decide)]
  have hall : ∀ a, 0 ≤ scatter_S10000_S160000x1_S160000_n_0_0_1.start (ix1 e) idx a + scatter_S10000_S160000x1_S160000_n_0_0_1.window (ix1 e) a
      ∧ scatter_S10000_S160000x1_S160000_n_0_0_1.start (ix1 e) idx a + scatter_S10000_S160000x1_S160000_n_0_0_1.window (ix1 e) a < S10000.size a := by
    intro a
    rw [hst, hw]
    match a with
    | ⟨0, _⟩ =>
      have := m.isLt
      refine ⟨by omega, ?_⟩
      show (m.val : ℤ) + ((0 : ℕ) : ℤ) < ((10000 : ℕ) : ℤ)
      omega
  unfold ScatterDims.resultIdx?
  rw [dif_pos hall]
  congr 1
  funext a
  refine Fin.ext ?_
  match a with
  | ⟨0, _⟩ =>
    show (scatter_S10000_S160000x1_S160000_n_0_0_1.start (ix1 e) idx 0 + scatter_S10000_S160000x1_S160000_n_0_0_1.window (ix1 e) 0).toNat = m.val
    rw [hst, hw]
    omega

/-- The degree scatter at node `n`: the operand's element plus the updates of the edges into `n`. -/
theorem scatter_deg_apply (x : S10000.Idx → EReal) (idx : IVec S160000x1 32) (upd : S160000.Idx → EReal)
    (t : Fin 160000 → Fin 10000) (ht : ∀ e, (idx (ix2 e (0 : Fin 1))).toInt = ((t e).val : ℤ)) (n : Fin 10000) :
    Host.scatterAdd (F := Ideal) (φ := .f32) scatter_S10000_S160000x1_S160000_n_0_0_1 x idx upd (ix1 n)
      = x (ix1 n) + ∑ e ∈ Finset.univ.filter (fun e => t e = n), upd (ix1 e) := by
  unfold Host.scatterAdd
  rw [Ideal.hostScatterAdd_def]
  unfold Ideal.hostScatterAdd
  refine congrArg (fun z => x (ix1 n) + z) ?_
  refine Finset.sum_equiv (idxEquiv1 (n := 160000)) ?_ ?_
  · intro j
    obtain ⟨e, rfl⟩ : ∃ e : Fin 160000, j = ix1 e := ⟨j 0, eq_ix1 j⟩
    simp only [Finset.mem_filter, Finset.mem_univ, true_and]
    rw [resultIdx_deg idx e (t e) (ht e)]
    constructor
    · intro h
      have h2 := congrFun (Option.some.inj h) 0
      exact h2
    · intro h
      show some (ix1 (t e)) = some (ix1 n)
      have h' : t e = n := h
      rw [h']
  · intro j _
    obtain ⟨e, rfl⟩ : ∃ e : Fin 160000, j = ix1 e := ⟨j 0, eq_ix1 j⟩
    rfl

/-- The row scatter lands the update `(e, d)` at `(node, d)`, the node the destination word of edge `e` names, when that
    word reads as a node number. -/
theorem resultIdx_rows (idx : IVec S160000x1 32) (e : Fin 160000) (d : Fin 1024) (m : Fin 10000)
    (hm : (idx (ix2 e (0 : Fin 1))).toInt = (m.val : ℤ)) :
    scatter_S10000x1024_S160000x1_S160000x1024_1_0_0_1.resultIdx? (ix2 e d) idx = some (ix2 m d) := by
  have hst0 : scatter_S10000x1024_S160000x1_S160000x1024_1_0_0_1.start (ix2 e d) idx 0 = (m.val : ℤ) := by
    unfold ScatterDims.start
    rw [dif_pos (show (0 : Fin 2) ∈ scatter_S10000x1024_S160000x1_S160000x1024_1_0_0_1.scatterDimsToOperandDims from List.mem_singleton.mpr rfl)]
    have hsi : scatter_S10000x1024_S160000x1_S160000x1024_1_0_0_1.siIdx (ix2 e d) ⟨List.idxOf (0 : Fin 2) scatter_S10000x1024_S160000x1_S160000x1024_1_0_0_1.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, hm]
  have hst1 : scatter_S10000x1024_S160000x1_S160000x1024_1_0_0_1.start (ix2 e d) idx 1 = 0 := by
    unfold ScatterDims.start
    rw [dif_neg (show ¬ (1 : Fin 2) ∈ scatter_S10000x1024_S160000x1_S160000x1024_1_0_0_1.scatterDimsToOperandDims by decide)]
  have hw0 : scatter_S10000x1024_S160000x1_S160000x1024_1_0_0_1.window (ix2 e d) 0 = 0 := by
    unfold ScatterDims.window
    rw [dif_neg (show ¬ (0 : Fin 2) ∈ scatter_S10000x1024_S160000x1_S160000x1024_1_0_0_1.sKept by decide)]
  have hw1 : scatter_S10000x1024_S160000x1_S160000x1024_1_0_0_1.window (ix2 e d) 1 = d.val := by
    unfold ScatterDims.window
    rw [dif_pos (show (1 : Fin 2) ∈ scatter_S10000x1024_S160000x1_S160000x1024_1_0_0_1.sKept by decide)]
    have hk : ∀ (hp : List.idxOf (1 : Fin 2) scatter_S10000x1024_S160000x1_S160000x1024_1_0_0_1.sKept < scatter_S10000x1024_S160000x1_S160000x1024_1_0_0_1.updateWindowDims.length),
        scatter_S10000x1024_S160000x1_S160000x1024_1_0_0_1.updateWindowDims[List.idxOf (1 : Fin 2) scatter_S10000x1024_S160000x1_S160000x1024_1_0_0_1.sKept]'hp = (1 : Fin 2) := by decide
    rw [hk]
  have hall : ∀ a, 0 ≤ scatter_S10000x1024_S160000x1_S160000x1024_1_0_0_1.start (ix2 e d) idx a + scatter_S10000x1024_S160000x1_S160000x1024_1_0_0_1.window (ix2 e d) a
      ∧ scatter_S10000x1024_S160000x1_S160000x1024_1_0_0_1.start (ix2 e d) idx a + scatter_S10000x1024_S160000x1_S160000x1024_1_0_0_1.window (ix2 e d) a < S10000x1024.size a := by
    intro a
    match a with
    | ⟨0, _⟩ =>
      show 0 ≤ scatter_S10000x1024_S160000x1_S160000x1024_1_0_0_1.start (ix2 e d) idx 0 + scatter_S10000x1024_S160000x1_S160000x1024_1_0_0_1.window (ix2 e d) 0
        ∧ scatter_S10000x1024_S160000x1_S160000x1024_1_0_0_1.start (ix2 e d) idx 0 + scatter_S10000x1024_S160000x1_S160000x1024_1_0_0_1.window (ix2 e d) 0 < ((10000 : ℕ) : ℤ)
      rw [hst0, hw0]
      have := m.isLt
      omega
    | ⟨1, _⟩ =>
      show 0 ≤ scatter_S10000x1024_S160000x1_S160000x1024_1_0_0_1.start (ix2 e d) idx 1 + scatter_S10000x1024_S160000x1_S160000x1024_1_0_0_1.window (ix2 e d) 1
        ∧ scatter_S10000x1024_S160000x1_S160000x1024_1_0_0_1.start (ix2 e d) idx 1 + scatter_S10000x1024_S160000x1_S160000x1024_1_0_0_1.window (ix2 e d) 1 < ((1024 : ℕ) : ℤ)
      rw [hst1, hw1]
      have := d.isLt
      omega
  unfold ScatterDims.resultIdx?
  rw [dif_pos hall]
  congr 1
  funext a
  refine Fin.ext ?_
  match a with
  | ⟨0, _⟩ =>
    show (scatter_S10000x1024_S160000x1_S160000x1024_1_0_0_1.start (ix2 e d) idx 0 + scatter_S10000x1024_S160000x1_S160000x1024_1_0_0_1.window (ix2 e d) 0).toNat = m.val
    rw [hst0, hw0]
    omega
  | ⟨1, _⟩ =>
    show (scatter_S10000x1024_S160000x1_S160000x1024_1_0_0_1.start (ix2 e d) idx 1 + scatter_S10000x1024_S160000x1_S160000x1024_1_0_0_1.window (ix2 e d) 1).toNat = d.val
    rw [hst1, hw1]
    omega

/-- The row scatter at `(n, d)`: the operand's element plus column `d` of the update rows of the edges into `n`. -/
theorem scatter_rows_apply (x : S10000x1024.Idx → EReal) (idx : IVec S160000x1 32) (upd : S160000x1024.Idx → EReal)
    (t : Fin 160000 → Fin 10000) (ht : ∀ e, (idx (ix2 e (0 : Fin 1))).toInt = ((t e).val : ℤ)) (n : Fin 10000) (d : Fin 1024) :
    Host.scatterAdd (F := Ideal) (φ := .f32) scatter_S10000x1024_S160000x1_S160000x1024_1_0_0_1 x idx upd (ix2 n d)
      = x (ix2 n d) + ∑ e ∈ Finset.univ.filter (fun e => t e = n), upd (ix2 e d) := by
  unfold Host.scatterAdd
  rw [Ideal.hostScatterAdd_def]
  unfold Ideal.hostScatterAdd
  refine congrArg (fun z => x (ix2 n d) + z) ?_
  symm
  refine Finset.sum_nbij' (fun e => ix2 e d) (fun j => j 0) ?_ ?_ ?_ ?_ ?_
  · intro e he
    have he' : t e = n := (Finset.mem_filter.mp he).2
    refine Finset.mem_filter.mpr ⟨Finset.mem_univ _, ?_⟩
    rw [resultIdx_rows idx e d (t e) (ht e), he']
  · intro j hj
    obtain ⟨e, d', rfl⟩ : ∃ (e : Fin 160000) (d' : Fin 1024), j = ix2 e d' := ⟨j 0, j 1, eq_ix2 j⟩
    have hj' := (Finset.mem_filter.mp hj).2
    rw [resultIdx_rows idx e d' (t e) (ht e)] at hj'
    have h0 := congrFun (Option.some.inj hj') 0
    refine Finset.mem_filter.mpr ⟨Finset.mem_univ _, ?_⟩
    exact h0
  · intro e _
    rfl
  · intro j hj
    obtain ⟨e, d', rfl⟩ : ∃ (e : Fin 160000) (d' : Fin 1024), j = ix2 e d' := ⟨j 0, j 1, eq_ix2 j⟩
    have hj' := (Finset.mem_filter.mp hj).2
    rw [resultIdx_rows idx e d' (t e) (ht e)] at hj'
    have h1 : d' = d := congrFun (Option.some.inj hj') 1
    rw [h1]
  · intro e _
    rfl

/-- A word that reads signed as a natural number is not below zero, so the wrap's select keeps it. -/
theorem wrap_nonneg (v a : BitVec 32) (h : 0 ≤ v.toInt) : Scalar.select (IntOp.cmpi .slt v 0#32) a v = v := by
  have hc : IntOp.cmpi .slt v 0#32 = 0#1 := by
    unfold IntOp.cmpi
    show BitVec.ofBool (v.slt 0#32) = 0#1
    have hb : v.slt 0#32 = false := by
      unfold BitVec.slt
      have h0 : (0#32 : BitVec 32).toInt = 0 := by decide
      rw [h0]
      exact decide_eq_false (by omega)
    rw [hb]
    rfl
  rw [hc]
  exact select_zero _ _

/-- A look-up of rows at words that read as the node numbers `s e` reads row `s e`. -/
theorem gather_src {α : Type} (h : S10000x1024.Idx → α) (w : IVec S160000x1 32) (s : Fin 160000 → Fin 10000)
    (hw : ∀ e, (w (ix2 e (0 : Fin 1))).toInt = ((s e).val : ℤ)) (e : Fin 160000) (k : Fin 1024) :
    Host.gather gather_S10000x1024_S160000x1_S160000x1024_1_0_n_n_0_1_11024 h w (ix2 e k) = h (ix2 (s e) k) := by
  rw [gather_rows_apply]
  have hidx : (⟨min (w (ix2 e (0 : Fin 1))).toInt.toNat 9999, by omega⟩ : Fin 10000) = s e := by
    refine Fin.ext ?_
    show min (w (ix2 e (0 : Fin 1))).toInt.toNat 9999 = (s e).val
    rw [hw e]
    have := (s e).isLt
    omega
  rw [hidx]

/-- The rows gathered at the sources and added at the destinations, into zeros: the sum over the edges into `n` of the
    source's row. -/
theorem agg_apply (z : S10000x1024.Idx → EReal) (hz : ∀ i, z i = 0) (h : S10000x1024.Idx → EReal)
    (sw dw : IVec S160000x1 32) (s t : Fin 160000 → Fin 10000)
    (hsw : ∀ e, (sw (ix2 e (0 : Fin 1))).toInt = ((s e).val : ℤ))
    (hdw : ∀ e, (dw (ix2 e (0 : Fin 1))).toInt = ((t e).val : ℤ)) (n : Fin 10000) (k : Fin 1024) :
    Host.scatterAdd (F := Ideal) (φ := .f32) scatter_S10000x1024_S160000x1_S160000x1024_1_0_0_1 z dw (Host.gather gather_S10000x1024_S160000x1_S160000x1024_1_0_n_n_0_1_11024 h sw) (ix2 n k)
      = ∑ e ∈ Finset.univ.filter (fun e => t e = n), h (ix2 (s e) k) := by
  rw [scatter_rows_apply z dw _ t hdw n k, hz, zero_add]
  exact Finset.sum_congr rfl fun e _ => gather_src h sw s hsw e k

/-- Ones added at the destinations, into zeros: the in-degree. -/
theorem deg_apply (z : S10000.Idx → EReal) (hz : ∀ i, z i = 0) (o : S160000.Idx → EReal) (ho : ∀ i, o i = 1)
    (dw : IVec S160000x1 32) (t : Fin 160000 → Fin 10000)
    (hdw : ∀ e, (dw (ix2 e (0 : Fin 1))).toInt = ((t e).val : ℤ)) (n : Fin 10000) :
    Host.scatterAdd (F := Ideal) (φ := .f32) scatter_S10000_S160000x1_S160000_n_0_0_1 z dw o (ix1 n) = deg t n := by
  rw [scatter_deg_apply z dw o t hdw n, hz, zero_add]
  unfold deg
  exact Finset.sum_congr rfl fun e _ => ho _

/-- The node look-up at `(n, k)`: the table's row for node `n`'s word. -/
theorem v6_read (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (n : Fin 10000) (k : Fin 1024) :
    val_main_v6 (F := Ideal) x0 x3 (ix2 n k) = (xRows (vec (α := BitVec 32) (a := 10000) x0) (mat (α := EReal) (a := 30000) (b := 1024) x3)) n k := by
  have hi : idx_main_v5 (ix2 n (0 : Fin 1)) = ix1 n := funext fun a => Fin.ext (by match a with | ⟨0, _⟩ => rfl)
  have hw : val_main_v5 (F := Ideal) x0 (ix2 n (0 : Fin 1)) = nodeWord (x0 (ix1 n)) := by
    rw [val_main_v5_apply, hi, val_main_v4_apply, val_main_v1_apply, val_main_v3_apply, val_main_v0_apply, val_main_v2_apply,
      val_main_c_apply, val_main_c_0_apply]
    rfl
  unfold val_main_v6
  rw [gather_emb_apply]
  have hidx : (⟨min (val_main_v5 (F := Ideal) x0 (ix2 n (0 : Fin 1))).toInt.toNat 29999, by omega⟩ : Fin 30000)
      = nodeRow (x0 (ix1 n)) := by
    refine Fin.ext ?_
    show min (val_main_v5 (F := Ideal) x0 (ix2 n (0 : Fin 1))).toInt.toNat 29999 = min (nodeWord (x0 (ix1 n))).toInt.toNat 29999
    rw [hw]
  rw [hidx]
  rfl

/-! ### Layer 1: the operations on the looked-up features -/

theorem l1_zeros1 (i : S10000.Idx) : val_main_v8 (F := Ideal) i = 0 := by
  rw [val_main_v8_apply, val_main_cst_1_apply]
  exact Ideal.ofBits_zero_f32

theorem l1_zeros2 (i : S10000x1024.Idx) : val_main_v18 (F := Ideal) i = 0 := by
  rw [val_main_v18_apply, val_main_cst_4_apply]
  exact Ideal.ofBits_zero_f32

theorem l1_ones (i : S160000.Idx) : val_main_v7 (F := Ideal) i = 1 := by
  rw [val_main_v7_apply, val_main_cst_apply]
  exact Ideal.ofBits_one_f32

theorem l1_dw1 (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (e : Fin 160000) :
    (val_main_v9 (F := Ideal) x2 (ix2 e (0 : Fin 1))).toInt = ((t e).val : ℤ) := by
  have hi : idx_main_v9 (ix2 e (0 : Fin 1)) = ix1 e := funext fun a => Fin.ext (by match a with | ⟨0, _⟩ => rfl)
  rw [val_main_v9_apply, hi]
  exact ht e

theorem l1_dw2 (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (e : Fin 160000) :
    (val_main_v19 (F := Ideal) x2 (ix2 e (0 : Fin 1))).toInt = ((t e).val : ℤ) := by
  have hi : idx_main_v19 (ix2 e (0 : Fin 1)) = ix1 e := funext fun a => Fin.ext (by match a with | ⟨0, _⟩ => rfl)
  rw [val_main_v19_apply, hi]
  exact ht e

theorem l1_sw (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (e : Fin 160000) :
    (val_main_v16 (F := Ideal) x1 (ix2 e (0 : Fin 1))).toInt = ((s e).val : ℤ) := by
  have hi : idx_main_v16 (ix2 e (0 : Fin 1)) = ix1 e := funext fun a => Fin.ext (by match a with | ⟨0, _⟩ => rfl)
  rw [val_main_v16_apply, hi, val_main_v15_apply, val_main_v12_apply, val_main_v11_apply, val_main_c_2_apply]
  have h := hs e
  have h0 : 0 ≤ (x1 (ix1 e)).toInt := by
    have h' : (x1 (ix1 e)).toInt = ((s e).val : ℤ) := h
    omega
  rw [wrap_nonneg _ _ h0]
  exact h

/-- The summed source rows at `(n, k)`. -/
theorem l1_agg (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (n : Fin 10000) (k : Fin 1024) :
    val_main_v20 (F := Ideal) x0 x1 x2 x3 (ix2 n k) = ∑ e ∈ Finset.univ.filter (fun e => t e = n), (xRows (vec (α := BitVec 32) (a := 10000) x0) (mat (α := EReal) (a := 30000) (b := 1024) x3)) (s e) k := by
  unfold val_main_v20 val_main_v17
  rw [agg_apply _ l1_zeros2 _ _ _ s t (l1_sw x0 x1 x2 x3 x4 x5 x6 x7 x8 x9 s t hs ht) (l1_dw2 x0 x1 x2 x3 x4 x5 x6 x7 x8 x9 s t hs ht) n k]
  exact Finset.sum_congr rfl fun e _ => v6_read x0 x1 x2 x3 x4 x5 x6 x7 x8 x9 s t hs ht (s e) k

/-- The divisor at `(n, k)`: the in-degree, at least one. -/
theorem l1_den (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (n : Fin 10000) (k : Fin 1024) :
    val_main_v24 (F := Ideal) x2 (ix2 n k) = max (deg t n) 1 := by
  have hi : idx_main_v23 (idx_main_v24 (ix2 n k)) = ix1 n := funext fun a => Fin.ext (by match a with | ⟨0, _⟩ => rfl)
  rw [val_main_v24_apply, val_main_v23_apply, hi, val_main_v22_apply, val_main_v21_apply, val_main_cst_5_apply,
    Ideal.maximumf_def]
  unfold val_main_v10
  rw [deg_apply _ l1_zeros1 _ l1_ones _ t (l1_dw1 x0 x1 x2 x3 x4 x5 x6 x7 x8 x9 s t hs ht) n]
  exact congrArg (fun z => max (deg t n) z) Ideal.ofBits_one_f32

/-- The mean over the incoming edges at `(n, k)`. -/
theorem l1_mean (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (n : Fin 10000) (k : Fin 1024) :
    val_main_v25 (F := Ideal) x0 x1 x2 x3 (ix2 n k) = meanAgg s t (xRows (vec (α := BitVec 32) (a := 10000) x0) (mat (α := EReal) (a := 30000) (b := 1024) x3)) n k := by
  rw [val_main_v25_apply, Ideal.hostDivf_def, l1_agg x0 x1 x2 x3 x4 x5 x6 x7 x8 x9 s t hs ht, l1_den x0 x1 x2 x3 x4 x5 x6 x7 x8 x9 s t hs ht]
  rfl

/-- The layer at `(n, d)`. -/
theorem l1_read (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (n : Fin 10000) (d : Fin 1024) :
    val_main_v31 (F := Ideal) x0 x1 x2 x3 x4 x5 x6 (ix2 n d) = sageLayer s t (xRows (vec (α := BitVec 32) (a := 10000) x0) (mat (α := EReal) (a := 30000) (b := 1024) x3)) (mat (α := EReal) (a := 1024) (b := 1024) x4) (mat (α := EReal) (a := 1024) (b := 1024) x5) (vec (α := EReal) (a := 1024) x6) n d := by
  have hlS : ∀ k, lidx_main_v26 (ix2 n d) k = ix2 n k := fun k => funext fun a => Fin.ext (by match a with | ⟨0, _⟩ => rfl | ⟨1, _⟩ => rfl)
  have hrS : ∀ k, ridx_main_v26 (ix2 n d) k = ix2 k d := fun k => funext fun a => Fin.ext (by match a with | ⟨0, _⟩ => rfl | ⟨1, _⟩ => rfl)
  have hlN : ∀ k, lidx_main_v27 (ix2 n d) k = ix2 n k := fun k => funext fun a => Fin.ext (by match a with | ⟨0, _⟩ => rfl | ⟨1, _⟩ => rfl)
  have hrN : ∀ k, ridx_main_v27 (ix2 n d) k = ix2 k d := fun k => funext fun a => Fin.ext (by match a with | ⟨0, _⟩ => rfl | ⟨1, _⟩ => rfl)
  have hb : idx_main_v29 (idx_main_v30 (ix2 n d)) = ix1 d := funext fun a => Fin.ext (by match a with | ⟨0, _⟩ => rfl)
  have hA : (∑ k : Fin 1024, (val_main_v6 (F := Ideal) x0 x3) (lidx_main_v26 (ix2 n d) k) * x4 (ridx_main_v26 (ix2 n d) k))
      = ∑ k : Fin 1024, (xRows (vec (α := BitVec 32) (a := 10000) x0) (mat (α := EReal) (a := 30000) (b := 1024) x3)) n k * (mat (α := EReal) (a := 1024) (b := 1024) x4) k d :=
    Finset.sum_congr rfl fun k _ => by rw [hlS k, hrS k, v6_read x0 x1 x2 x3 x4 x5 x6 x7 x8 x9 s t hs ht]; rfl
  have hB : (∑ k : Fin 1024, (val_main_v25 (F := Ideal) x0 x1 x2 x3) (lidx_main_v27 (ix2 n d) k) * x5 (ridx_main_v27 (ix2 n d) k))
      = ∑ k : Fin 1024, meanAgg s t (xRows (vec (α := BitVec 32) (a := 10000) x0) (mat (α := EReal) (a := 30000) (b := 1024) x3)) n k * (mat (α := EReal) (a := 1024) (b := 1024) x5) k d :=
    Finset.sum_congr rfl fun k _ => by rw [hlN k, hrN k, l1_mean x0 x1 x2 x3 x4 x5 x6 x7 x8 x9 s t hs ht]; rfl
  rw [val_main_v31_apply, val_main_v28_apply, val_main_v26_apply, val_main_v27_apply, val_main_v30_apply,
    val_main_v29_apply, Ideal.addf_def, Ideal.addf_def, hA, hB, hb]
  rfl

/-- The ReLU of layer 1 at `(m, k)`. -/
theorem v32_read (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (m : Fin 10000) (k : Fin 1024) :
    val_main_v32 (F := Ideal) x0 x1 x2 x3 x4 x5 x6 (ix2 m k) = (fun m k => max (sageLayer s t (xRows (vec (α := BitVec 32) (a := 10000) x0) (mat (α := EReal) (a := 30000) (b := 1024) x3)) (mat (α := EReal) (a := 1024) (b := 1024) x4) (mat (α := EReal) (a := 1024) (b := 1024) x5) (vec (α := EReal) (a := 1024) x6) m k) 0) m k := by
  rw [val_main_v32_apply, val_main_call0_v0_apply, val_main_call0_cst_apply, Ideal.maximumf_def, l1_read x0 x1 x2 x3 x4 x5 x6 x7 x8 x9 s t hs ht]
  exact congrArg (fun z => max (sageLayer s t (xRows (vec (α := BitVec 32) (a := 10000) x0) (mat (α := EReal) (a := 30000) (b := 1024) x3)) (mat (α := EReal) (a := 1024) (b := 1024) x4) (mat (α := EReal) (a := 1024) (b := 1024) x5) (vec (α := EReal) (a := 1024) x6) m k) z) Ideal.ofBits_zero_f32

/-! ### Layer 2: the same operations on the ReLU of layer 1 -/

theorem l2_zeros1 (i : S10000.Idx) : val_main_v34 (F := Ideal) i = 0 := by
  rw [val_main_v34_apply, val_main_cst_7_apply]
  exact Ideal.ofBits_zero_f32

theorem l2_zeros2 (i : S10000x1024.Idx) : val_main_v44 (F := Ideal) i = 0 := by
  rw [val_main_v44_apply, val_main_cst_10_apply]
  exact Ideal.ofBits_zero_f32

theorem l2_ones (i : S160000.Idx) : val_main_v33 (F := Ideal) i = 1 := by
  rw [val_main_v33_apply, val_main_cst_6_apply]
  exact Ideal.ofBits_one_f32

theorem l2_dw1 (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (e : Fin 160000) :
    (val_main_v35 (F := Ideal) x2 (ix2 e (0 : Fin 1))).toInt = ((t e).val : ℤ) := by
  have hi : idx_main_v35 (ix2 e (0 : Fin 1)) = ix1 e := funext fun a => Fin.ext (by match a with | ⟨0, _⟩ => rfl)
  rw [val_main_v35_apply, hi]
  exact ht e

theorem l2_dw2 (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (e : Fin 160000) :
    (val_main_v45 (F := Ideal) x2 (ix2 e (0 : Fin 1))).toInt = ((t e).val : ℤ) := by
  have hi : idx_main_v45 (ix2 e (0 : Fin 1)) = ix1 e := funext fun a => Fin.ext (by match a with | ⟨0, _⟩ => rfl)
  rw [val_main_v45_apply, hi]
  exact ht e

theorem l2_sw (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (e : Fin 160000) :
    (val_main_v42 (F := Ideal) x1 (ix2 e (0 : Fin 1))).toInt = ((s e).val : ℤ) := by
  have hi : idx_main_v42 (ix2 e (0 : Fin 1)) = ix1 e := funext fun a => Fin.ext (by match a with | ⟨0, _⟩ => rfl)
  rw [val_main_v42_apply, hi, val_main_v41_apply, val_main_v38_apply, val_main_v37_apply, val_main_c_8_apply]
  have h := hs e
  have h0 : 0 ≤ (x1 (ix1 e)).toInt := by
    have h' : (x1 (ix1 e)).toInt = ((s e).val : ℤ) := h
    omega
  rw [wrap_nonneg _ _ h0]
  exact h

/-- The summed source rows at `(n, k)`. -/
theorem l2_agg (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (n : Fin 10000) (k : Fin 1024) :
    val_main_v46 (F := Ideal) x0 x1 x2 x3 x4 x5 x6 (ix2 n k) = ∑ e ∈ Finset.univ.filter (fun e => t e = n), (fun m k => max (sageLayer s t (xRows (vec (α := BitVec 32) (a := 10000) x0) (mat (α := EReal) (a := 30000) (b := 1024) x3)) (mat (α := EReal) (a := 1024) (b := 1024) x4) (mat (α := EReal) (a := 1024) (b := 1024) x5) (vec (α := EReal) (a := 1024) x6) m k) 0) (s e) k := by
  unfold val_main_v46 val_main_v43
  rw [agg_apply _ l2_zeros2 _ _ _ s t (l2_sw x0 x1 x2 x3 x4 x5 x6 x7 x8 x9 s t hs ht) (l2_dw2 x0 x1 x2 x3 x4 x5 x6 x7 x8 x9 s t hs ht) n k]
  exact Finset.sum_congr rfl fun e _ => v32_read x0 x1 x2 x3 x4 x5 x6 x7 x8 x9 s t hs ht (s e) k

/-- The divisor at `(n, k)`: the in-degree, at least one. -/
theorem l2_den (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (n : Fin 10000) (k : Fin 1024) :
    val_main_v50 (F := Ideal) x2 (ix2 n k) = max (deg t n) 1 := by
  have hi : idx_main_v49 (idx_main_v50 (ix2 n k)) = ix1 n := funext fun a => Fin.ext (by match a with | ⟨0, _⟩ => rfl)
  rw [val_main_v50_apply, val_main_v49_apply, hi, val_main_v48_apply, val_main_v47_apply, val_main_cst_11_apply,
    Ideal.maximumf_def]
  unfold val_main_v36
  rw [deg_apply _ l2_zeros1 _ l2_ones _ t (l2_dw1 x0 x1 x2 x3 x4 x5 x6 x7 x8 x9 s t hs ht) n]
  exact congrArg (fun z => max (deg t n) z) Ideal.ofBits_one_f32

/-- The mean over the incoming edges at `(n, k)`. -/
theorem l2_mean (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (n : Fin 10000) (k : Fin 1024) :
    val_main_v51 (F := Ideal) x0 x1 x2 x3 x4 x5 x6 (ix2 n k) = meanAgg s t (fun m k => max (sageLayer s t (xRows (vec (α := BitVec 32) (a := 10000) x0) (mat (α := EReal) (a := 30000) (b := 1024) x3)) (mat (α := EReal) (a := 1024) (b := 1024) x4) (mat (α := EReal) (a := 1024) (b := 1024) x5) (vec (α := EReal) (a := 1024) x6) m k) 0) n k := by
  rw [val_main_v51_apply, Ideal.hostDivf_def, l2_agg x0 x1 x2 x3 x4 x5 x6 x7 x8 x9 s t hs ht, l2_den x0 x1 x2 x3 x4 x5 x6 x7 x8 x9 s t hs ht]
  rfl

/-- The layer at `(n, d)`. -/
theorem l2_read (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) (n : Fin 10000) (d : Fin 1024) :
    val_main_v57 (F := Ideal) x0 x1 x2 x3 x4 x5 x6 x7 x8 x9 (ix2 n d) = sageLayer s t (fun m k => max (sageLayer s t (xRows (vec (α := BitVec 32) (a := 10000) x0) (mat (α := EReal) (a := 30000) (b := 1024) x3)) (mat (α := EReal) (a := 1024) (b := 1024) x4) (mat (α := EReal) (a := 1024) (b := 1024) x5) (vec (α := EReal) (a := 1024) x6) m k) 0) (mat (α := EReal) (a := 1024) (b := 1024) x7) (mat (α := EReal) (a := 1024) (b := 1024) x8) (vec (α := EReal) (a := 1024) x9) n d := by
  have hlS : ∀ k, lidx_main_v52 (ix2 n d) k = ix2 n k := fun k => funext fun a => Fin.ext (by match a with | ⟨0, _⟩ => rfl | ⟨1, _⟩ => rfl)
  have hrS : ∀ k, ridx_main_v52 (ix2 n d) k = ix2 k d := fun k => funext fun a => Fin.ext (by match a with | ⟨0, _⟩ => rfl | ⟨1, _⟩ => rfl)
  have hlN : ∀ k, lidx_main_v53 (ix2 n d) k = ix2 n k := fun k => funext fun a => Fin.ext (by match a with | ⟨0, _⟩ => rfl | ⟨1, _⟩ => rfl)
  have hrN : ∀ k, ridx_main_v53 (ix2 n d) k = ix2 k d := fun k => funext fun a => Fin.ext (by match a with | ⟨0, _⟩ => rfl | ⟨1, _⟩ => rfl)
  have hb : idx_main_v55 (idx_main_v56 (ix2 n d)) = ix1 d := funext fun a => Fin.ext (by match a with | ⟨0, _⟩ => rfl)
  have hA : (∑ k : Fin 1024, (val_main_v32 (F := Ideal) x0 x1 x2 x3 x4 x5 x6) (lidx_main_v52 (ix2 n d) k) * x7 (ridx_main_v52 (ix2 n d) k))
      = ∑ k : Fin 1024, (fun m k => max (sageLayer s t (xRows (vec (α := BitVec 32) (a := 10000) x0) (mat (α := EReal) (a := 30000) (b := 1024) x3)) (mat (α := EReal) (a := 1024) (b := 1024) x4) (mat (α := EReal) (a := 1024) (b := 1024) x5) (vec (α := EReal) (a := 1024) x6) m k) 0) n k * (mat (α := EReal) (a := 1024) (b := 1024) x7) k d :=
    Finset.sum_congr rfl fun k _ => by rw [hlS k, hrS k, v32_read x0 x1 x2 x3 x4 x5 x6 x7 x8 x9 s t hs ht]; rfl
  have hB : (∑ k : Fin 1024, (val_main_v51 (F := Ideal) x0 x1 x2 x3 x4 x5 x6) (lidx_main_v53 (ix2 n d) k) * x8 (ridx_main_v53 (ix2 n d) k))
      = ∑ k : Fin 1024, meanAgg s t (fun m k => max (sageLayer s t (xRows (vec (α := BitVec 32) (a := 10000) x0) (mat (α := EReal) (a := 30000) (b := 1024) x3)) (mat (α := EReal) (a := 1024) (b := 1024) x4) (mat (α := EReal) (a := 1024) (b := 1024) x5) (vec (α := EReal) (a := 1024) x6) m k) 0) n k * (mat (α := EReal) (a := 1024) (b := 1024) x8) k d :=
    Finset.sum_congr rfl fun k _ => by rw [hlN k, hrN k, l2_mean x0 x1 x2 x3 x4 x5 x6 x7 x8 x9 s t hs ht]; rfl
  rw [val_main_v57_apply, val_main_v54_apply, val_main_v52_apply, val_main_v53_apply, val_main_v56_apply,
    val_main_v55_apply, Ideal.addf_def, Ideal.addf_def, hA, hB, hb]
  rfl

/-- The reference's result array as two layers over the edge endpoints `s`, `t`. -/
theorem ref_value (x0 : (⟨S10000, .i32⟩ : BufTy).Contents (Elt Ideal)) (x1 x2 : (⟨S160000, .i32⟩ : BufTy).Contents (Elt Ideal))
    (x3 : (⟨S30000x1024, .f32⟩ : BufTy).Contents (Elt Ideal)) (x4 x5 : (⟨S1024x1024, .f32⟩ : BufTy).Contents (Elt Ideal))
    (x6 : (⟨S1024, .f32⟩ : BufTy).Contents (Elt Ideal)) (x7 x8 : (⟨S1024x1024, .f32⟩ : BufTy).Contents (Elt Ideal))
    (x9 : (⟨S1024, .f32⟩ : BufTy).Contents (Elt Ideal))
    (s t : Fin 160000 → Fin 10000)
    (hs : ∀ e, (vec (α := BitVec 32) (a := 160000) x1 e).toInt = ((s e).val : ℤ))
    (ht : ∀ e, (vec (α := BitVec 32) (a := 160000) x2 e).toInt = ((t e).val : ℤ)) :
    val_main_v57 (F := Ideal) x0 x1 x2 x3 x4 x5 x6 x7 x8 x9
      = arr2 (refOut s t (xRows (vec (α := BitVec 32) (a := 10000) x0) (mat (α := EReal) (a := 30000) (b := 1024) x3))
          (mat (α := EReal) (a := 1024) (b := 1024) x4) (mat (α := EReal) (a := 1024) (b := 1024) x5) (vec (α := EReal) (a := 1024) x6)
          (mat (α := EReal) (a := 1024) (b := 1024) x7) (mat (α := EReal) (a := 1024) (b := 1024) x8) (vec (α := EReal) (a := 1024) x9)) := by
  funext i
  obtain ⟨n, d, rfl⟩ : ∃ (n : Fin 10000) (d : Fin 1024), i = ix2 n d := ⟨i 0, i 1, eq_ix2 i⟩
  rw [l2_read x0 x1 x2 x3 x4 x5 x6 x7 x8 x9 s t hs ht n d, arr2_apply]
  rfl

end Cert.Sage.RI

end
-- ==== Proof.lean ====
/-
  Two mean-aggregating graph-convolution layers over 10000 nodes and 160000 edges: the kernel's dense form — a
  degree-normalized adjacency matrix on the node axis padded to 10240, multiplied into the features, the self and
  neighbour paths fused into one product over 2048 glued columns — against the reference's edge-by-edge gather,
  segment sum and division by `max (degree, 1)`. Over the extended reals the two agree where every float input is a
  real number and every edge endpoint is a node number in `[0, 10000)`: pulling `1 / max (deg n) 1` out of the row sum
  needs real summands, and outside that range the two programs treat an edge differently (the kernel wraps a negative
  word by 10240 and drops what leaves its padded matrix, the reference wraps by 10000 and clamps its look-up).

  The frames of the two kernel programs are the generated launch certificates; the reference's frame is its generated
  run with the result dropped. For the value, the kernel program's run is re-posted with its result array read off the
  last boundary of the fold of buffer contents through @main, each launch's output array is read as one whole-array
  function of the arrays it found, the host operations are read at an index, and the reference's run is read the same
  way; one law on real-valued data joins the two.
-/
import proofs.«406130_j87720412054178_1_alg».proof.Defs
import proofs.«406130_j87720412054178_1_alg».proof.Proof.Gen.Kernel
import proofs.«406130_j87720412054178_1_alg».proof.Proof.Gen.Kernel.Skeleton
import proofs.«406130_j87720412054178_1_alg».proof.Proof.Gen.Kernel.Launch
import proofs.«406130_j87720412054178_1_alg».proof.Proof.Gen.Kernel.Points
import proofs.«406130_j87720412054178_1_alg».proof.Proof.Gen.Kernel.Frame
import proofs.«406130_j87720412054178_1_alg».proof.Proof.Gen.KernelIdeal
import proofs.«406130_j87720412054178_1_alg».proof.Proof.Gen.KernelIdeal.Skeleton
import proofs.«406130_j87720412054178_1_alg».proof.Proof.Gen.KernelIdeal.Launch
import proofs.«406130_j87720412054178_1_alg».proof.Proof.Gen.KernelIdeal.Points
import proofs.«406130_j87720412054178_1_alg».proof.Proof.Gen.KernelIdeal.Frame
import proofs.«406130_j87720412054178_1_alg».proof.Proof.Gen.ReferenceIdeal
import proofs.«406130_j87720412054178_1_alg».proof.Proof.Gen.ReferenceIdeal.Run
import proofs.«406130_j87720412054178_1_alg».proof.Proof.Gen.ReferenceIdeal.Read
import proofs.«406130_j87720412054178_1_alg».proof.Proof.Gen.Pre_finite_inputs
import proofs.«406130_j87720412054178_1_alg».proof.Proof.Spec
import proofs.«406130_j87720412054178_1_alg».proof.Proof.Bridge
import proofs.«406130_j87720412054178_1_alg».proof.Proof.PreDecode
import proofs.«406130_j87720412054178_1_alg».proof.Proof.KernelRun
import proofs.«406130_j87720412054178_1_alg».proof.Proof.KernelValue
import proofs.«406130_j87720412054178_1_alg».proof.Proof.RefValue
import Idealize.ShloMosaic.Adequacy
import Idealize.ShloMosaic.Init

noncomputable section

namespace Cert.Proof

open Idealize.ShloMosaic Idealize.ShloMosaic.TcCoe Idealize.SL.Sem Cert.Sage

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the reference's two layers over the edge endpoints the precondition names:
    the kernel's by its dense computation and the law that joins the two forms on real data, the reference's by its
    operations read at an index. -/
theorem algebraic : Cert.algebraic_KernelIdeal_ReferenceIdeal := by
  intro m ρ m' ρ' hpre hagree
  have hdec := fun c : Dev Cert.KernelIdeal.nD => Cert.Sage.decode_pre _ _ _ _ _ _ _ _ _ _ (hpre c)
  have hs' := fun c => (hdec c).1
  have ht' := fun c => (hdec c).2.1
  choose s hs using hs'
  choose t ht using ht'
  refine ⟨fun c => arr2 (refOut (s c) (t c) (xRows (KI.aNode m c) (KI.aEmb m c)) (KI.aW1s m c) (KI.aW1n m c) (KI.aB1 m c)
      (KI.aW2s m c) (KI.aW2n m c) (KI.aB2 m c)), ?_, ?_⟩
  · refine (θ_run Cert.KernelIdeal.defs _ _).mono (fun r h c => ⟨(h c).1.trans ?_, (h c).2⟩) (KI.run_value (F := Ideal) m ρ)
    rw [KI.kernel_value m ρ c (s c) (t c) (hs c) (ht c)]
    congr 1
    exact kerOut_eq_refOut (s c) (t c) _ _ _ _ _ _ _ (fun n d => (hdec c).2.2.1 _ d) (hdec c).2.2.2.1 (hdec c).2.2.2.2.1
      (hdec c).2.2.2.2.2.1 (hdec c).2.2.2.2.2.2.1 (hdec c).2.2.2.2.2.2.2.1 (hdec c).2.2.2.2.2.2.2.2
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v57_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2]
    exact RI.ref_value _ _ _ _ _ _ _ _ _ _ (s c) (t c) (hs c) (ht c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
